-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x2 : Shape := ⟨2, ![10000, 2]⟩
abbrev S2x80000 : Shape := ⟨2, ![2, 80000]⟩
abbrev S2x128 : Shape := ⟨2, ![2, 128]⟩
abbrev S128 : Shape := ⟨1, ![128]⟩
abbrev S128x2048 : Shape := ⟨2, ![128, 2048]⟩
abbrev S2048 : Shape := ⟨1, ![2048]⟩
abbrev S2x2048 : Shape := ⟨2, ![2, 2048]⟩
abbrev S2048x2048 : Shape := ⟨2, ![2048, 2048]⟩
abbrev S2048x1024 : Shape := ⟨2, ![2048, 1024]⟩
abbrev S1024 : Shape := ⟨1, ![1024]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x2 : S_.BroadcastsInDim S10000x2 (![] : Fin 0 → Fin S10000x2.rank)
  reducesTo_S10000x2_S_d0_1 : S10000x2.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x2048 : S_.BroadcastsInDim S128x2048 (![] : Fin 0 → Fin S128x2048.rank)
  reducesTo_S128x2048_S_d0_1 : S128x2048.ReducesTo [0, 1] S_
  bcast_S_S2048 : S_.BroadcastsInDim S2048 (![] : Fin 0 → Fin S2048.rank)
  reducesTo_S2048_S_d0 : S2048.ReducesTo [0] S_
  bcast_S_S2x2048 : S_.BroadcastsInDim S2x2048 (![] : Fin 0 → Fin S2x2048.rank)
  reducesTo_S2x2048_S_d0_1 : S2x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S2x80000 : S_.BroadcastsInDim S2x80000 (![] : Fin 0 → Fin S2x80000.rank)
  reducesTo_S2x80000_S_d0_1 : S2x80000.ReducesTo [0, 1] S_

variable [Facts]

def fn_part4 {F : FTy → Type} [FloatOps F] (main_arg2 : IVec S2x80000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x80000 32 := broadcastInDim S2x80000 ![] bcast_S_S2x80000 main_c_26
  let main_v70 : IVec S2x80000 1 := cmpi .sge main_arg2 main_v69
  let main_c_27 : IVec S_ 32 := constantI S_ 32 10000#32
  let main_v71 : IVec S2x80000 32 := broadcastInDim S2x80000 ![] bcast_S_S2x80000 main_c_27
  let main_v72 : IVec S2x80000 1 := cmpi .slt main_arg2 main_v71
  let main_v73 : IVec S2x80000 1 := andi main_v70 main_v72
  let main_c_28 : IVec S_ 1 := constantI S_ 1 1#1
  let main_v74 : IVec S_ 1 := (fun x v => Host.reduce IntOp.andi x v reducesTo_S2x80000_S_d0_1 h_S_) main_v73 main_c_28
  let main_v75 : IVec S_ 1 := andi main_v68 main_v74
  main_v75

def fn_part3 {F : FTy → Type} [FloatOps F] (main_arg2 : IVec S2x80000 32) (main_arg12 : FVec F S2048 .f32) (main_arg13 : FVec F S2048x1024 .f32) (main_arg14 : FVec F S1024 .f32) (main_v48 : IVec S_ 1) (main_v49 : FVec F S2x2048 .f32) (main_v50 : FVec F S2x2048 .f32) : IVec S_ 1 :=
  let main_v51 : IVec S2x2048 1 := cmpf .olt main_v49 main_v50
  let main_c_19 : IVec S_ 1 := constantI S_ 1 1#1
  let main_v52 : IVec S_ 1 := (fun x v => Host.reduce IntOp.andi x v reducesTo_S2x2048_S_d0_1 h_S_) main_v51 main_c_19
  let main_v53 : IVec S_ 1 := andi main_v48 main_v52
  let main_v54 : FVec F S2048 .f32 := Host.absf main_arg12
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x1024 .f32 := Host.absf main_arg13
  let main_cst_22 : FVec F S_ .f32 := constant S_ .f32 0x7F800000#32
  let main_v60 : FVec F S2048x1024 .f32 := broadcastInDim S2048x1024 ![] bcast_S_S2048x1024 main_cst_22
  let main_v61 : IVec S2048x1024 1 := cmpf .olt main_v59 main_v60
  let main_c_23 : IVec S_ 1 := constantI S_ 1 1#1
  let main_v62 : IVec S_ 1 := (fun x v => Host.reduce IntOp.andi x v reducesTo_S2048x1024_S_d0_1 h_S_) main_v61 main_c_23
  let main_v63 : IVec S_ 1 := andi main_v58 main_v62
  let main_v64 : FVec F S1024 .f32 := Host.absf main_arg14
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg2 main_v63 main_v67

def fn_part2 {F : FTy → Type} [FloatOps F] (main_arg2 : IVec S2x80000 32) (main_arg8 : FVec F S2048 .f32) (main_arg9 : FVec F S2048x2048 .f32) (main_arg10 : FVec F S2048 .f32) (main_arg11 : FVec F S2x2048 .f32) (main_arg12 : FVec F S2048 .f32) (main_arg13 : FVec F S2048x1024 .f32) (main_arg14 : FVec F S1024 .f32) (main_v33 : IVec S_ 1) : IVec S_ 1 :=
  let main_v34 : FVec F S2048 .f32 := Host.absf main_arg8
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg9
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg10
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2x2048 .f32 := Host.absf main_arg11
  let main_cst_18 : FVec F S_ .f32 := constant S_ .f32 0x7F800000#32
  let main_v50 : FVec F S2x2048 .f32 := broadcastInDim S2x2048 ![] bcast_S_S2x2048 main_cst_18
  fn_part3 (F := F) main_arg2 main_arg12 main_arg13 main_arg14 main_v48 main_v49 main_v50

def fn_part1 {F : FTy → Type} [FloatOps F] (main_arg2 : IVec S2x80000 32) (main_arg5 : FVec F S128x2048 .f32) (main_arg6 : FVec F S2048 .f32) (main_arg7 : FVec F S2x2048 .f32) (main_arg8 : FVec F S2048 .f32) (main_arg9 : FVec F S2048x2048 .f32) (main_arg10 : FVec F S2048 .f32) (main_arg11 : FVec F S2x2048 .f32) (main_arg12 : FVec F S2048 .f32) (main_arg13 : FVec F S2048x1024 .f32) (main_arg14 : FVec F S1024 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x2048 .f32 := Host.absf main_arg5
  let main_cst_6 : FVec F S_ .f32 := constant S_ .f32 0x7F800000#32
  let main_v20 : FVec F S128x2048 .f32 := broadcastInDim S128x2048 ![] bcast_S_S128x2048 main_cst_6
  let main_v21 : IVec S128x2048 1 := cmpf .olt main_v19 main_v20
  let main_c_7 : IVec S_ 1 := constantI S_ 1 1#1
  let main_v22 : IVec S_ 1 := (fun x v => Host.reduce IntOp.andi x v reducesTo_S128x2048_S_d0_1 h_S_) main_v21 main_c_7
  let main_v23 : IVec S_ 1 := andi main_v18 main_v22
  let main_v24 : FVec F S2048 .f32 := Host.absf main_arg6
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2x2048 .f32 := Host.absf main_arg7
  let main_cst_10 : FVec F S_ .f32 := constant S_ .f32 0x7F800000#32
  let main_v30 : FVec F S2x2048 .f32 := broadcastInDim S2x2048 ![] bcast_S_S2x2048 main_cst_10
  let main_v31 : IVec S2x2048 1 := cmpf .olt main_v29 main_v30
  let main_c_11 : IVec S_ 1 := constantI S_ 1 1#1
  let main_v32 : IVec S_ 1 := (fun x v => Host.reduce IntOp.andi x v reducesTo_S2x2048_S_d0_1 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S10000x128 .f32) (main_arg1 : FVec F S10000x2 .f32) (main_arg2 : IVec S2x80000 32) (main_arg3 : FVec F S2x128 .f32) (main_arg4 : FVec F S128 .f32) (main_arg5 : FVec F S128x2048 .f32) (main_arg6 : FVec F S2048 .f32) (main_arg7 : FVec F S2x2048 .f32) (main_arg8 : FVec F S2048 .f32) (main_arg9 : FVec F S2048x2048 .f32) (main_arg10 : FVec F S2048 .f32) (main_arg11 : FVec F S2x2048 .f32) (main_arg12 : FVec F S2048 .f32) (main_arg13 : FVec F S2048x1024 .f32) (main_arg14 : FVec F S1024 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x2 .f32 := Host.absf main_arg1
  let main_cst_0 : FVec F S_ .f32 := constant S_ .f32 0x7F800000#32
  let main_v5 : FVec F S10000x2 .f32 := broadcastInDim S10000x2 ![] bcast_S_S10000x2 main_cst_0
  let main_v6 : IVec S10000x2 1 := cmpf .olt main_v4 main_v5
  let main_c_1 : IVec S_ 1 := constantI S_ 1 1#1
  let main_v7 : IVec S_ 1 := (fun x v => Host.reduce IntOp.andi x v reducesTo_S10000x2_S_d0_1 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S10000x128 : Shape := ⟨2, ![10000, 128]⟩
abbrev S10000x2 : Shape := ⟨2, ![10000, 2]⟩
abbrev S2x80000 : Shape := ⟨2, ![2, 80000]⟩
abbrev S2x128 : Shape := ⟨2, ![2, 128]⟩
abbrev S128 : Shape := ⟨1, ![128]⟩
abbrev S128x2048 : Shape := ⟨2, ![128, 2048]⟩
abbrev S2048 : Shape := ⟨1, ![2048]⟩
abbrev S2x2048 : Shape := ⟨2, ![2, 2048]⟩
abbrev S2048x2048 : Shape := ⟨2, ![2048, 2048]⟩
abbrev S2048x1024 : Shape := ⟨2, ![2048, 1024]⟩
abbrev S1024 : Shape := ⟨1, ![1024]⟩
abbrev S1x80000 : Shape := ⟨2, ![1, 80000]⟩
abbrev S80000 : Shape := ⟨1, ![80000]⟩
abbrev S_ : Shape := ⟨0, ![]⟩
abbrev S80000x1 : Shape := ⟨2, ![80000, 1]⟩
abbrev S1 : Shape := ⟨1, ![1]⟩
abbrev S1x1 : Shape := ⟨2, ![1, 1]⟩
abbrev S80000x2 : Shape := ⟨2, ![80000, 2]⟩
abbrev S80000x128 : Shape := ⟨2, ![80000, 128]⟩
abbrev S1x128 : Shape := ⟨2, ![1, 128]⟩
abbrev S400x2 : Shape := ⟨2, ![400, 2]⟩
abbrev S400x128 : Shape := ⟨2, ![400, 128]⟩
abbrev S400x1 : Shape := ⟨2, ![400, 1]⟩
abbrev S1x2048 : Shape := ⟨2, ![1, 2048]⟩
abbrev S10000x2048 : Shape := ⟨2, ![10000, 2048]⟩
abbrev S400x2048 : Shape := ⟨2, ![400, 2048]⟩
abbrev S80000x2048 : Shape := ⟨2, ![80000, 2048]⟩
abbrev S1x1024 : Shape := ⟨2, ![1, 1024]⟩
abbrev S10000x1024 : Shape := ⟨2, ![10000, 1024]⟩
abbrev S400x1024 : Shape := ⟨2, ![400, 1024]⟩
abbrev S400 : Shape := ⟨1, ![400]⟩

abbrev nBuf : Space → Nat
  | .hbm => 262
  | .vmem => 42
  | .smem => 0
  | _ => 0

abbrev hbmTy0_0 (i : Nat) : BufTy := match i % 128 with
  | 0 => ⟨S10000x128, .f32⟩
  | 1 => ⟨S10000x2, .f32⟩
  | 2 => ⟨S2x80000, .i32⟩
  | 3 => ⟨S2x128, .f32⟩
  | 4 => ⟨S128, .f32⟩
  | 5 => ⟨S128x2048, .f32⟩
  | 6 => ⟨S2048, .f32⟩
  | 7 => ⟨S2x2048, .f32⟩
  | 8 => ⟨S2048, .f32⟩
  | 9 => ⟨S2048x2048, .f32⟩
  | 10 => ⟨S2048, .f32⟩
  | 11 => ⟨S2x2048, .f32⟩
  | 12 => ⟨S2048, .f32⟩
  | 13 => ⟨S2048x1024, .f32⟩
  | 14 => ⟨S1024, .f32⟩
  | 15 => ⟨S1x80000, .i32⟩
  | 16 => ⟨S80000, .i32⟩
  | 17 => ⟨S1x80000, .i32⟩
  | 18 => ⟨S80000, .i32⟩
  | 19 => ⟨S_, .i32⟩
  | 20 => ⟨S80000, .i32⟩
  | 21 => ⟨S80000, .i1⟩
  | 22 => ⟨S_, .i32⟩
  | 23 => ⟨S80000, .i32⟩
  | 24 => ⟨S80000, .i32⟩
  | 25 => ⟨S80000, .i32⟩
  | 26 => ⟨S80000x1, .i32⟩
  | 27 => ⟨S1, .i32⟩
  | 28 => ⟨S_, .i32⟩
  | 29 => ⟨S80000x1, .i32⟩
  | 30 => ⟨S80000x1, .i1⟩
  | 31 => ⟨S1x1, .i32⟩
  | 32 => ⟨S80000x1, .i32⟩
  | 33 => ⟨S80000x1, .i1⟩
  | 34 => ⟨S80000x1, .i1⟩
  | 35 => ⟨S_, .i1⟩
  | 36 => ⟨S80000, .i1⟩
  | 37 => ⟨S80000x2, .f32⟩
  | 38 => ⟨S80000x2, .i1⟩
  | 39 => ⟨S_, .f32⟩
  | 40 => ⟨S80000x2, .f32⟩
  | 41 => ⟨S80000x2, .f32⟩
  | 42 => ⟨S_, .i32⟩
  | 43 => ⟨S80000, .i32⟩
  | 44 => ⟨S80000, .i1⟩
  | 45 => ⟨S_, .i32⟩
  | 46 => ⟨S80000, .i32⟩
  | 47 => ⟨S80000, .i32⟩
  | 48 => ⟨S80000, .i32⟩
  | 49 => ⟨S80000x1, .i32⟩
  | 50 => ⟨S1, .i32⟩
  | 51 => ⟨S_, .i32⟩
  | 52 => ⟨S80000x1, .i32⟩
  | 53 => ⟨S80000x1, .i1⟩
  | 54 => ⟨S1x1, .i32⟩
  | 55 => ⟨S80000x1, .i32⟩
  | 56 => ⟨S80000x1, .i1⟩
  | 57 => ⟨S80000x1, .i1⟩
  | 58 => ⟨S_, .i1⟩
  | 59 => ⟨S80000, .i1⟩
  | 60 => ⟨S80000x2, .f32⟩
  | 61 => ⟨S80000x2, .i1⟩
  | 62 => ⟨S_, .f32⟩
  | 63 => ⟨S80000x2, .f32⟩
  | 64 => ⟨S80000x2, .f32⟩
  | 65 => ⟨S80000x2, .f32⟩
  | 66 => ⟨S_, .i32⟩
  | 67 => ⟨S80000, .i32⟩
  | 68 => ⟨S80000, .i1⟩
  | 69 => ⟨S_, .i32⟩
  | 70 => ⟨S80000, .i32⟩
  | 71 => ⟨S80000, .i32⟩
  | 72 => ⟨S80000, .i32⟩
  | 73 => ⟨S80000x1, .i32⟩
  | 74 => ⟨S1, .i32⟩
  | 75 => ⟨S_, .i32⟩
  | 76 => ⟨S80000x1, .i32⟩
  | 77 => ⟨S80000x1, .i1⟩
  | 78 => ⟨S1x1, .i32⟩
  | 79 => ⟨S80000x1, .i32⟩
  | 80 => ⟨S80000x1, .i1⟩
  | 81 => ⟨S80000x1, .i1⟩
  | 82 => ⟨S_, .i1⟩
  | 83 => ⟨S80000, .i1⟩
  | 84 => ⟨S80000x128, .f32⟩
  | 85 => ⟨S80000x128, .i1⟩
  | 86 => ⟨S_, .f32⟩
  | 87 => ⟨S80000x128, .f32⟩
  | 88 => ⟨S80000x128, .f32⟩
  | 89 => ⟨S80000x128, .bf16⟩
  | 90 => ⟨S1x128, .f32⟩
  | 91 => ⟨S80000x128, .f32⟩
  | 92 => ⟨S_, .f32⟩
  | 93 => ⟨S10000x128, .f32⟩
  | 94 => ⟨S80000x1, .i32⟩
  | 95 => ⟨S10000x128, .f32⟩
  | 96 => ⟨S10000x128, .bf16⟩
  | 97 => ⟨S128x2048, .bf16⟩
  | 98 => ⟨S1x2048, .f32⟩
  | 99 => ⟨S10000x2048, .f32⟩
  | 100 => ⟨S_, .i32⟩
  | 101 => ⟨S80000, .i32⟩
  | 102 => ⟨S80000, .i1⟩
  | 103 => ⟨S_, .i32⟩
  | 104 => ⟨S80000, .i32⟩
  | 105 => ⟨S80000, .i32⟩
  | 106 => ⟨S80000, .i32⟩
  | 107 => ⟨S80000x1, .i32⟩
  | 108 => ⟨S1, .i32⟩
  | 109 => ⟨S_, .i32⟩
  | 110 => ⟨S80000x1, .i32⟩
  | 111 => ⟨S80000x1, .i1⟩
  | 112 => ⟨S1x1, .i32⟩
  | 113 => ⟨S80000x1, .i32⟩
  | 114 => ⟨S80000x1, .i1⟩
  | 115 => ⟨S80000x1, .i1⟩
  | 116 => ⟨S_, .i1⟩
  | 117 => ⟨S80000, .i1⟩
  | 118 => ⟨S80000x2, .f32⟩
  | 119 => ⟨S80000x2, .i1⟩
  | 120 => ⟨S_, .f32⟩
  | 121 => ⟨S80000x2, .f32⟩
  | 122 => ⟨S80000x2, .f32⟩
  | 123 => ⟨S_, .i32⟩
  | 124 => ⟨S80000, .i32⟩
  | 125 => ⟨S80000, .i1⟩
  | 126 => ⟨S_, .i32⟩
  | 127 => ⟨S80000, .i32⟩
  | _ => ⟨S10000x128, .f32⟩

abbrev hbmTy0_1 (i : Nat) : BufTy := match i % 128 with
  | 0 => ⟨S80000, .i32⟩
  | 1 => ⟨S80000, .i32⟩
  | 2 => ⟨S80000x1, .i32⟩
  | 3 => ⟨S1, .i32⟩
  | 4 => ⟨S_, .i32⟩
  | 5 => ⟨S80000x1, .i32⟩
  | 6 => ⟨S80000x1, .i1⟩
  | 7 => ⟨S1x1, .i32⟩
  | 8 => ⟨S80000x1, .i32⟩
  | 9 => ⟨S80000x1, .i1⟩
  | 10 => ⟨S80000x1, .i1⟩
  | 11 => ⟨S_, .i1⟩
  | 12 => ⟨S80000, .i1⟩
  | 13 => ⟨S80000x2, .f32⟩
  | 14 => ⟨S80000x2, .i1⟩
  | 15 => ⟨S_, .f32⟩
  | 16 => ⟨S80000x2, .f32⟩
  | 17 => ⟨S80000x2, .f32⟩
  | 18 => ⟨S80000x2, .f32⟩
  | 19 => ⟨S_, .i32⟩
  | 20 => ⟨S80000, .i32⟩
  | 21 => ⟨S80000, .i1⟩
  | 22 => ⟨S_, .i32⟩
  | 23 => ⟨S80000, .i32⟩
  | 24 => ⟨S80000, .i32⟩
  | 25 => ⟨S80000, .i32⟩
  | 26 => ⟨S80000x1, .i32⟩
  | 27 => ⟨S1, .i32⟩
  | 28 => ⟨S_, .i32⟩
  | 29 => ⟨S80000x1, .i32⟩
  | 30 => ⟨S80000x1, .i1⟩
  | 31 => ⟨S1x1, .i32⟩
  | 32 => ⟨S80000x1, .i32⟩
  | 33 => ⟨S80000x1, .i1⟩
  | 34 => ⟨S80000x1, .i1⟩
  | 35 => ⟨S_, .i1⟩
  | 36 => ⟨S80000, .i1⟩
  | 37 => ⟨S80000x2048, .f32⟩
  | 38 => ⟨S80000x2048, .i1⟩
  | 39 => ⟨S_, .f32⟩
  | 40 => ⟨S80000x2048, .f32⟩
  | 41 => ⟨S80000x2048, .f32⟩
  | 42 => ⟨S80000x2048, .bf16⟩
  | 43 => ⟨S1x2048, .f32⟩
  | 44 => ⟨S80000x2048, .f32⟩
  | 45 => ⟨S_, .f32⟩
  | 46 => ⟨S10000x2048, .f32⟩
  | 47 => ⟨S80000x1, .i32⟩
  | 48 => ⟨S10000x2048, .f32⟩
  | 49 => ⟨S10000x2048, .bf16⟩
  | 50 => ⟨S2048x2048, .bf16⟩
  | 51 => ⟨S1x2048, .f32⟩
  | 52 => ⟨S10000x2048, .f32⟩
  | 53 => ⟨S_, .i32⟩
  | 54 => ⟨S80000, .i32⟩
  | 55 => ⟨S80000, .i1⟩
  | 56 => ⟨S_, .i32⟩
  | 57 => ⟨S80000, .i32⟩
  | 58 => ⟨S80000, .i32⟩
  | 59 => ⟨S80000, .i32⟩
  | 60 => ⟨S80000x1, .i32⟩
  | 61 => ⟨S1, .i32⟩
  | 62 => ⟨S_, .i32⟩
  | 63 => ⟨S80000x1, .i32⟩
  | 64 => ⟨S80000x1, .i1⟩
  | 65 => ⟨S1x1, .i32⟩
  | 66 => ⟨S80000x1, .i32⟩
  | 67 => ⟨S80000x1, .i1⟩
  | 68 => ⟨S80000x1, .i1⟩
  | 69 => ⟨S_, .i1⟩
  | 70 => ⟨S80000, .i1⟩
  | 71 => ⟨S80000x2, .f32⟩
  | 72 => ⟨S80000x2, .i1⟩
  | 73 => ⟨S_, .f32⟩
  | 74 => ⟨S80000x2, .f32⟩
  | 75 => ⟨S80000x2, .f32⟩
  | 76 => ⟨S_, .i32⟩
  | 77 => ⟨S80000, .i32⟩
  | 78 => ⟨S80000, .i1⟩
  | 79 => ⟨S_, .i32⟩
  | 80 => ⟨S80000, .i32⟩
  | 81 => ⟨S80000, .i32⟩
  | 82 => ⟨S80000, .i32⟩
  | 83 => ⟨S80000x1, .i32⟩
  | 84 => ⟨S1, .i32⟩
  | 85 => ⟨S_, .i32⟩
  | 86 => ⟨S80000x1, .i32⟩
  | 87 => ⟨S80000x1, .i1⟩
  | 88 => ⟨S1x1, .i32⟩
  | 89 => ⟨S80000x1, .i32⟩
  | 90 => ⟨S80000x1, .i1⟩
  | 91 => ⟨S80000x1, .i1⟩
  | 92 => ⟨S_, .i1⟩
  | 93 => ⟨S80000, .i1⟩
  | 94 => ⟨S80000x2, .f32⟩
  | 95 => ⟨S80000x2, .i1⟩
  | 96 => ⟨S_, .f32⟩
  | 97 => ⟨S80000x2, .f32⟩
  | 98 => ⟨S80000x2, .f32⟩
  | 99 => ⟨S80000x2, .f32⟩
  | 100 => ⟨S_, .i32⟩
  | 101 => ⟨S80000, .i32⟩
  | 102 => ⟨S80000, .i1⟩
  | 103 => ⟨S_, .i32⟩
  | 104 => ⟨S80000, .i32⟩
  | 105 => ⟨S80000, .i32⟩
  | 106 => ⟨S80000, .i32⟩
  | 107 => ⟨S80000x1, .i32⟩
  | 108 => ⟨S1, .i32⟩
  | 109 => ⟨S_, .i32⟩
  | 110 => ⟨S80000x1, .i32⟩
  | 111 => ⟨S80000x1, .i1⟩
  | 112 => ⟨S1x1, .i32⟩
  | 113 => ⟨S80000x1, .i32⟩
  | 114 => ⟨S80000x1, .i1⟩
  | 115 => ⟨S80000x1, .i1⟩
  | 116 => ⟨S_, .i1⟩
  | 117 => ⟨S80000, .i1⟩
  | 118 => ⟨S80000x2048, .f32⟩
  | 119 => ⟨S80000x2048, .i1⟩
  | 120 => ⟨S_, .f32⟩
  | 121 => ⟨S80000x2048, .f32⟩
  | 122 => ⟨S80000x2048, .f32⟩
  | 123 => ⟨S80000x2048, .bf16⟩
  | 124 => ⟨S1x2048, .f32⟩
  | 125 => ⟨S80000x2048, .f32⟩
  | 126 => ⟨S_, .f32⟩
  | 127 => ⟨S10000x2048, .f32⟩
  | _ => ⟨S10000x128, .f32⟩

abbrev hbmTy0_2 (i : Nat) : BufTy := match i % 128 with
  | 0 => ⟨S80000x1, .i32⟩
  | 1 => ⟨S10000x2048, .f32⟩
  | 2 => ⟨S10000x2048, .bf16⟩
  | 3 => ⟨S2048x1024, .bf16⟩
  | 4 => ⟨S1x1024, .f32⟩
  | 5 => ⟨S10000x1024, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | .local _ .vmem, ⟨0, _⟩ => ⟨S400x2, .f32⟩
  | .local _ .vmem, ⟨1, _⟩ => ⟨S400x2, .f32⟩
  | .local _ .vmem, ⟨2, _⟩ => ⟨S400x128, .bf16⟩
  | .local _ .vmem, ⟨3, _⟩ => ⟨S400x128, .bf16⟩
  | .local _ .vmem, ⟨4, _⟩ => ⟨S2x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | .local _ .vmem, ⟨8, _⟩ => ⟨S400x128, .bf16⟩
  | .local _ .vmem, ⟨9, _⟩ => ⟨S400x128, .bf16⟩
  | .local _ .vmem, ⟨10, _⟩ => ⟨S128x2048, .bf16⟩
  | .local _ .vmem, ⟨11, _⟩ => ⟨S1x2048, .f32⟩
  | .local _ .vmem, ⟨12, _⟩ => ⟨S400x2048, .f32⟩
  | .local _ .vmem, ⟨13, _⟩ => ⟨S400x2048, .f32⟩
  | .local _ .vmem, ⟨14, _⟩ => ⟨S400x2, .f32⟩
  | .local _ .vmem, ⟨15, _⟩ => ⟨S400x2, .f32⟩
  | .local _ .vmem, ⟨16, _⟩ => ⟨S400x2048, .bf16⟩
  | .local _ .vmem, ⟨17, _⟩ => ⟨S400x2048, .bf16⟩
  | .local _ .vmem, ⟨18, _⟩ => ⟨S2x2048, .f32⟩
  | .local _ .vmem, ⟨19, _⟩ => ⟨S1x2048, .f32⟩
  | .local _ .vmem, ⟨20, _⟩ => ⟨S400x2048, .f32⟩
  | .local _ .vmem, ⟨21, _⟩ => ⟨S400x2048, .f32⟩
  | .local _ .vmem, ⟨22, _⟩ => ⟨S400x2048, .bf16⟩
  | .local _ .vmem, ⟨23, _⟩ => ⟨S400x2048, .bf16⟩
  | .local _ .vmem, ⟨24, _⟩ => ⟨S2048x2048, .bf16⟩
  | .local _ .vmem, ⟨25, _⟩ => ⟨S1x2048, .f32⟩
  | .local _ .vmem, ⟨26, _⟩ => ⟨S400x2048, .f32⟩
  | .local _ .vmem, ⟨27, _⟩ => ⟨S400x2048, .f32⟩
  | .local _ .vmem, ⟨28, _⟩ => ⟨S400x2, .f32⟩
  | .local _ .vmem, ⟨29, _⟩ => ⟨S400x2, .f32⟩
  | .local _ .vmem, ⟨30, _⟩ => ⟨S400x2048, .bf16⟩
  | .local _ .vmem, ⟨31, _⟩ => ⟨S400x2048, .bf16⟩
  | .local _ .vmem, ⟨32, _⟩ => ⟨S2x2048, .f32⟩
  | .local _ .vmem, ⟨33, _⟩ => ⟨S1x2048, .f32⟩
  | .local _ .vmem, ⟨34, _⟩ => ⟨S400x2048, .f32⟩
  | .local _ .vmem, ⟨35, _⟩ => ⟨S400x2048, .f32⟩
  | .local _ .vmem, ⟨36, _⟩ => ⟨S400x2048, .bf16⟩
  | .local _ .vmem, ⟨37, _⟩ => ⟨S400x2048, .bf16⟩
  | .local _ .vmem, ⟨38, _⟩ => ⟨S2048x1024, .bf16⟩
  | .local _ .vmem, ⟨39, _⟩ => ⟨S1x1024, .f32⟩
  | .local _ .vmem, ⟨40, _⟩ => ⟨S400x1024, .f32⟩
  | .local _ .vmem, ⟨41, _⟩ => ⟨S400x1024, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_v6 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v7 : Ref sig .tc := ⟨.hbm, 88, rfl⟩
abbrev main_v8 : Ref sig .tc := ⟨.hbm, 89, rfl⟩
abbrev main_v9 : Ref sig .tc := ⟨.hbm, 90, rfl⟩
abbrev main_v10 : Ref sig .tc := ⟨.hbm, 91, rfl⟩
abbrev main_cst : Ref sig .tc := ⟨.hbm, 92, rfl⟩
abbrev main_v11 : Ref sig .tc := ⟨.hbm, 93, rfl⟩
abbrev main_v12 : Ref sig .tc := ⟨.hbm, 94, rfl⟩
abbrev main_v13 : Ref sig .tc := ⟨.hbm, 95, rfl⟩
abbrev main_v14 : Ref sig .tc := ⟨.hbm, 96, rfl⟩
abbrev main_v15 : Ref sig .tc := ⟨.hbm, 97, rfl⟩
abbrev main_v16 : Ref sig .tc := ⟨.hbm, 98, rfl⟩
abbrev main_v17 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v18 : Ref sig .tc := ⟨.hbm, 122, rfl⟩
abbrev main_call4_c : Ref sig .tc := ⟨.hbm, 123, rfl⟩
abbrev main_call4_v0 : Ref sig .tc := ⟨.hbm, 124, rfl⟩
abbrev main_call4_v1 : Ref sig .tc := ⟨.hbm, 125, rfl⟩
abbrev main_call4_c_0 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_c_1 : Ref sig .tc := ⟨.hbm, 131, rfl⟩
abbrev main_call4_c_2 : Ref sig .tc := ⟨.hbm, 132, rfl⟩
abbrev main_call4_v6 : Ref sig .tc := ⟨.hbm, 133, rfl⟩
abbrev main_call4_v7 : Ref sig .tc := ⟨.hbm, 134, rfl⟩
abbrev main_call4_v8 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_c_3 : Ref sig .tc := ⟨.hbm, 139, rfl⟩
abbrev main_call4_v12 : Ref sig .tc := ⟨.hbm, 140, rfl⟩
abbrev main_call4_v13 : Ref sig .tc := ⟨.hbm, 141, rfl⟩
abbrev main_call4_v14 : Ref sig .tc := ⟨.hbm, 142, rfl⟩
abbrev main_call4_cst : Ref sig .tc := ⟨.hbm, 143, rfl⟩
abbrev main_call4_v15 : Ref sig .tc := ⟨.hbm, 144, rfl⟩
abbrev main_v19 : Ref sig .tc := ⟨.hbm, 145, rfl⟩
abbrev main_v20 : Ref sig .tc := ⟨.hbm, 146, rfl⟩
abbrev main_call5_c : Ref sig .tc := ⟨.hbm, 147, rfl⟩
abbrev main_call5_v0 : Ref sig .tc := ⟨.hbm, 148, rfl⟩
abbrev main_call5_v1 : Ref sig .tc := ⟨.hbm, 149, rfl⟩
abbrev main_call5_c_0 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_call5_v5 : Ref sig .tc := ⟨.hbm, 154, rfl⟩
abbrev main_call5_c_1 : Ref sig .tc := ⟨.hbm, 155, rfl⟩
abbrev main_call5_c_2 : Ref sig .tc := ⟨.hbm, 156, rfl⟩
abbrev main_call5_v6 : Ref sig .tc := ⟨.hbm, 157, rfl⟩
abbrev main_call5_v7 : Ref sig .tc := ⟨.hbm, 158, rfl⟩
abbrev main_call5_v8 : Ref sig .tc := ⟨.hbm, 159, rfl⟩
abbrev main_call5_v9 : Ref sig .tc := ⟨.hbm, 160, rfl⟩
abbrev main_call5_v10 : Ref sig .tc := ⟨.hbm, 161, rfl⟩
abbrev main_call5_v11 : Ref sig .tc := ⟨.hbm, 162, rfl⟩
abbrev main_call5_c_3 : Ref sig .tc := ⟨.hbm, 163, rfl⟩
abbrev main_call5_v12 : Ref sig .tc := ⟨.hbm, 164, rfl⟩
abbrev main_call5_v13 : Ref sig .tc := ⟨.hbm, 165, rfl⟩
abbrev main_call5_v14 : Ref sig .tc := ⟨.hbm, 166, rfl⟩
abbrev main_call5_cst : Ref sig .tc := ⟨.hbm, 167, rfl⟩
abbrev main_call5_v15 : Ref sig .tc := ⟨.hbm, 168, rfl⟩
abbrev main_v21 : Ref sig .tc := ⟨.hbm, 169, rfl⟩
abbrev main_v22 : Ref sig .tc := ⟨.hbm, 170, rfl⟩
abbrev main_v23 : Ref sig .tc := ⟨.hbm, 171, rfl⟩
abbrev main_v24 : Ref sig .tc := ⟨.hbm, 172, rfl⟩
abbrev main_cst_0 : Ref sig .tc := ⟨.hbm, 173, rfl⟩
abbrev main_v25 : Ref sig .tc := ⟨.hbm, 174, rfl⟩
abbrev main_v26 : Ref sig .tc := ⟨.hbm, 175, rfl⟩
abbrev main_v27 : Ref sig .tc := ⟨.hbm, 176, rfl⟩
abbrev main_v28 : Ref sig .tc := ⟨.hbm, 177, rfl⟩
abbrev main_v29 : Ref sig .tc := ⟨.hbm, 178, rfl⟩
abbrev main_v30 : Ref sig .tc := ⟨.hbm, 179, rfl⟩
abbrev main_v31 : Ref sig .tc := ⟨.hbm, 180, rfl⟩
abbrev main_call6_c : Ref sig .tc := ⟨.hbm, 181, rfl⟩
abbrev main_call6_v0 : Ref sig .tc := ⟨.hbm, 182, rfl⟩
abbrev main_call6_v1 : Ref sig .tc := ⟨.hbm, 183, rfl⟩
abbrev main_call6_c_0 : Ref sig .tc := ⟨.hbm, 184, rfl⟩
abbrev main_call6_v2 : Ref sig .tc := ⟨.hbm, 185, rfl⟩
abbrev main_call6_v3 : Ref sig .tc := ⟨.hbm, 186, rfl⟩
abbrev main_call6_v4 : Ref sig .tc := ⟨.hbm, 187, rfl⟩
abbrev main_call6_v5 : Ref sig .tc := ⟨.hbm, 188, rfl⟩
abbrev main_call6_c_1 : Ref sig .tc := ⟨.hbm, 189, rfl⟩
abbrev main_call6_c_2 : Ref sig .tc := ⟨.hbm, 190, rfl⟩
abbrev main_call6_v6 : Ref sig .tc := ⟨.hbm, 191, rfl⟩
abbrev main_call6_v7 : Ref sig .tc := ⟨.hbm, 192, rfl⟩
abbrev main_call6_v8 : Ref sig .tc := ⟨.hbm, 193, rfl⟩
abbrev main_call6_v9 : Ref sig .tc := ⟨.hbm, 194, rfl⟩
abbrev main_call6_v10 : Ref sig .tc := ⟨.hbm, 195, rfl⟩
abbrev main_call6_v11 : Ref sig .tc := ⟨.hbm, 196, rfl⟩
abbrev main_call6_c_3 : Ref sig .tc := ⟨.hbm, 197, rfl⟩
abbrev main_call6_v12 : Ref sig .tc := ⟨.hbm, 198, rfl⟩
abbrev main_call6_v13 : Ref sig .tc := ⟨.hbm, 199, rfl⟩
abbrev main_call6_v14 : Ref sig .tc := ⟨.hbm, 200, rfl⟩
abbrev main_call6_cst : Ref sig .tc := ⟨.hbm, 201, rfl⟩
abbrev main_call6_v15 : Ref sig .tc := ⟨.hbm, 202, rfl⟩
abbrev main_v32 : Ref sig .tc := ⟨.hbm, 203, rfl⟩
abbrev main_call7_c : Ref sig .tc := ⟨.hbm, 204, rfl⟩
abbrev main_call7_v0 : Ref sig .tc := ⟨.hbm, 205, rfl⟩
abbrev main_call7_v1 : Ref sig .tc := ⟨.hbm, 206, rfl⟩
abbrev main_call7_c_0 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_call7_v5 : Ref sig .tc := ⟨.hbm, 211, rfl⟩
abbrev main_call7_c_1 : Ref sig .tc := ⟨.hbm, 212, rfl⟩
abbrev main_call7_c_2 : Ref sig .tc := ⟨.hbm, 213, rfl⟩
abbrev main_call7_v6 : Ref sig .tc := ⟨.hbm, 214, rfl⟩
abbrev main_call7_v7 : Ref sig .tc := ⟨.hbm, 215, rfl⟩
abbrev main_call7_v8 : Ref sig .tc := ⟨.hbm, 216, rfl⟩
abbrev main_call7_v9 : Ref sig .tc := ⟨.hbm, 217, rfl⟩
abbrev main_call7_v10 : Ref sig .tc := ⟨.hbm, 218, rfl⟩
abbrev main_call7_v11 : Ref sig .tc := ⟨.hbm, 219, rfl⟩
abbrev main_call7_c_3 : Ref sig .tc := ⟨.hbm, 220, rfl⟩
abbrev main_call7_v12 : Ref sig .tc := ⟨.hbm, 221, rfl⟩
abbrev main_call7_v13 : Ref sig .tc := ⟨.hbm, 222, rfl⟩
abbrev main_call7_v14 : Ref sig .tc := ⟨.hbm, 223, rfl⟩
abbrev main_call7_cst : Ref sig .tc := ⟨.hbm, 224, rfl⟩
abbrev main_call7_v15 : Ref sig .tc := ⟨.hbm, 225, rfl⟩
abbrev main_v33 : Ref sig .tc := ⟨.hbm, 226, rfl⟩
abbrev main_v34 : Ref sig .tc := ⟨.hbm, 227, rfl⟩
abbrev main_call8_c : Ref sig .tc := ⟨.hbm, 228, rfl⟩
abbrev main_call8_v0 : Ref sig .tc := ⟨.hbm, 229, rfl⟩
abbrev main_call8_v1 : Ref sig .tc := ⟨.hbm, 230, rfl⟩
abbrev main_call8_c_0 : Ref sig .tc := ⟨.hbm, 231, rfl⟩
abbrev main_call8_v2 : Ref sig .tc := ⟨.hbm, 232, rfl⟩
abbrev main_call8_v3 : Ref sig .tc := ⟨.hbm, 233, rfl⟩
abbrev main_call8_v4 : Ref sig .tc := ⟨.hbm, 234, rfl⟩
abbrev main_call8_v5 : Ref sig .tc := ⟨.hbm, 235, rfl⟩
abbrev main_call8_c_1 : Ref sig .tc := ⟨.hbm, 236, rfl⟩
abbrev main_call8_c_2 : Ref sig .tc := ⟨.hbm, 237, rfl⟩
abbrev main_call8_v6 : Ref sig .tc := ⟨.hbm, 238, rfl⟩
abbrev main_call8_v7 : Ref sig .tc := ⟨.hbm, 239, rfl⟩
abbrev main_call8_v8 : Ref sig .tc := ⟨.hbm, 240, rfl⟩
abbrev main_call8_v9 : Ref sig .tc := ⟨.hbm, 241, rfl⟩
abbrev main_call8_v10 : Ref sig .tc := ⟨.hbm, 242, rfl⟩
abbrev main_call8_v11 : Ref sig .tc := ⟨.hbm, 243, rfl⟩
abbrev main_call8_c_3 : Ref sig .tc := ⟨.hbm, 244, rfl⟩
abbrev main_call8_v12 : Ref sig .tc := ⟨.hbm, 245, rfl⟩
abbrev main_call8_v13 : Ref sig .tc := ⟨.hbm, 246, rfl⟩
abbrev main_call8_v14 : Ref sig .tc := ⟨.hbm, 247, rfl⟩
abbrev main_call8_cst : Ref sig .tc := ⟨.hbm, 248, rfl⟩
abbrev main_call8_v15 : Ref sig .tc := ⟨.hbm, 249, rfl⟩
abbrev main_v35 : Ref sig .tc := ⟨.hbm, 250, rfl⟩
abbrev main_v36 : Ref sig .tc := ⟨.hbm, 251, rfl⟩
abbrev main_v37 : Ref sig .tc := ⟨.hbm, 252, rfl⟩
abbrev main_v38 : Ref sig .tc := ⟨.hbm, 253, rfl⟩
abbrev main_cst_1 : Ref sig .tc := ⟨.hbm, 254, rfl⟩
abbrev main_v39 : Ref sig .tc := ⟨.hbm, 255, rfl⟩
abbrev main_v40 : Ref sig .tc := ⟨.hbm, 256, rfl⟩
abbrev main_v41 : Ref sig .tc := ⟨.hbm, 257, rfl⟩
abbrev main_v42 : Ref sig .tc := ⟨.hbm, 258, rfl⟩
abbrev main_v43 : Ref sig .tc := ⟨.hbm, 259, rfl⟩
abbrev main_v44 : Ref sig .tc := ⟨.hbm, 260, rfl⟩
abbrev main_v45 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S400x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S400x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S400x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x80000_S1x80000_0_0 : S2x80000.Slices ![0, 0] S1x80000
  shapeCasts_S1x80000_S80000 : S1x80000.ShapeCasts S80000
  slices_S2x80000_S1x80000_1_0 : S2x80000.Slices ![1, 0] S1x80000
  bcast_S_S80000 : S_.BroadcastsInDim S80000 (![] : Fin 0 → Fin S80000.rank)
  bcast_S80000_S80000x1_0 : S80000.BroadcastsInDim S80000x1 (![0] : Fin 1 → Fin S80000x1.rank)
  bcast_S_S80000x1 : S_.BroadcastsInDim S80000x1 (![] : Fin 0 → Fin S80000x1.rank)
  bcast_S1_S1x1_1 : S1.BroadcastsInDim S1x1 (![1] : Fin 1 → Fin S1x1.rank)
  bcast_S1x1_S80000x1_0_1 : S1x1.BroadcastsInDim S80000x1 (![0, 1] : Fin 2 → Fin S80000x1.rank)
  reducesTo_S80000x1_S80000_d1 : S80000x1.ReducesTo [1] S80000
  h_S_ : 0 < S_.numel
  bcast_S80000_S80000x2_0 : S80000.BroadcastsInDim S80000x2 (![0] : Fin 1 → Fin S80000x2.rank)
  bcast_S_S80000x2 : S_.BroadcastsInDim S80000x2 (![] : Fin 0 → Fin S80000x2.rank)
  bcast_S80000_S80000x128_0 : S80000.BroadcastsInDim S80000x128 (![0] : Fin 1 → Fin S80000x128.rank)
  bcast_S_S80000x128 : S_.BroadcastsInDim S80000x128 (![] : Fin 0 → Fin S80000x128.rank)
  bitsLt_bf16_f32 : FTy.bits .bf16 < FTy.bits .f32
  shapeCasts_S128_S1x128 : S128.ShapeCasts S1x128
  inb_S400x2_S400x2_0_0 : ∀ a, (![0, 0] : Fin 2 → Nat) a + S400x2.size a ≤ S400x2.size a
  h_S400x2 : 0 < S400x2.numel
  shapeCasts_S400x2_S400x2 : S400x2.ShapeCasts S400x2
  slices_S400x2_o0_0_S400x1 : S400x2.Slices ![0, 0] S400x1
  slices_S400x2_o0_1_S400x1 : S400x2.Slices ![0, 1] S400x1
  inb_S2x128_S1x128_0_0 : ∀ a, (![0, 0] : Fin 2 → Nat) a + S1x128.size a ≤ S2x128.size a
  h_S1x128 : 0 < S1x128.numel
  inb_S2x128_S1x128_1_0 : ∀ a, (![1, 0] : Fin 2 → Nat) a + S1x128.size a ≤ S2x128.size a
  inb_S1x128_S1x128_0_0 : ∀ a, (![0, 0] : Fin 2 → Nat) a + S1x128.size a ≤ S1x128.size a
  shapeCasts_S1x128_S1x128 : S1x128.ShapeCasts S1x128
  broadcasts_S400x1_S400x128 : S400x1.Broadcasts S400x128
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  bcast_S_S10000x128 : S_.BroadcastsInDim S10000x128 (![] : Fin 0 → Fin S10000x128.rank)
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S400x2048 : S1x2048.Broadcasts S400x2048
  inb_S400x2048_S400x2048_0_0 : ∀ a, (![0, 0] : Fin 2 → Nat) a + S400x2048.size a ≤ S400x2048.size a
  h_S400x2048 : 0 < S400x2048.numel
  bcast_S80000_S80000x2048_0 : S80000.BroadcastsInDim S80000x2048 (![0] : Fin 1 → Fin S80000x2048.rank)
  bcast_S_S80000x2048 : S_.BroadcastsInDim S80000x2048 (![] : Fin 0 → Fin S80000x2048.rank)
  inb_S2x2048_S1x2048_0_0 : ∀ a, (![0, 0] : Fin 2 → Nat) a + S1x2048.size a ≤ S2x2048.size a
  inb_S2x2048_S1x2048_1_0 : ∀ a, (![1, 0] : Fin 2 → Nat) a + S1x2048.size a ≤ S2x2048.size a
  broadcasts_S400x1_S400x2048 : S400x1.Broadcasts S400x2048
  shapeCasts_S400x2048_S400x2048 : S400x2048.ShapeCasts S400x2048
  bcast_S_S10000x2048 : S_.BroadcastsInDim S10000x2048 (![] : Fin 0 → Fin S10000x2048.rank)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S400x1024 : S1x1024.Broadcasts S400x1024
  reduces_S400x1024_S400 : S400x1024.Reduces [1] S400
  shapeCasts_S400_S400x1 : S400.ShapeCasts S400x1
  broadcasts_S400x1_S400x1024 : S400x1.Broadcasts S400x1024
  inb_S400x1024_S400x1024_0_0 : ∀ a, (![0, 0] : Fin 2 → Nat) a + S400x1024.size a ≤ S400x1024.size a
  h_S400x1024 : 0 < S400x1024.numel
  gather_S10000x2_S80000x1_S80000x2_1_0_n_n_0_1_12_wf : GatherDims.WF S10000x2 S80000x1 S80000x2 [1] [0] [] [0] [] 1 ![1, 2]
  gather_S10000x128_S80000x1_S80000x128_1_0_n_n_0_1_1128_wf : GatherDims.WF S10000x128 S80000x1 S80000x128 [1] [0] [] [0] [] 1 ![1, 128]
  scatter_S10000x128_S80000x1_S80000x128_1_0_0_1_wf : ScatterDims.WF S10000x128 S80000x1 S80000x128 [1] [0] [0] 1
  dot_S400x128_S128x2048_S400x2048_1_0_0_1_n_n_wf : DotDims.WF S400x128 S128x2048 S400x2048 [1] [0] [0] [1] [] []
  gather_S10000x2048_S80000x1_S80000x2048_1_0_n_n_0_1_12048_wf : GatherDims.WF S10000x2048 S80000x1 S80000x2048 [1] [0] [] [0] [] 1 ![1, 2048]
  scatter_S10000x2048_S80000x1_S80000x2048_1_0_0_1_wf : ScatterDims.WF S10000x2048 S80000x1 S80000x2048 [1] [0] [0] 1
  dot_S400x2048_S2048x2048_S400x2048_1_0_0_1_n_n_wf : DotDims.WF S400x2048 S2048x2048 S400x2048 [1] [0] [0] [1] [] []
  dot_S400x2048_S2048x1024_S400x1024_1_0_0_1_n_n_wf : DotDims.WF S400x2048 S2048x1024 S400x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x2.size a ≤ S80000x2.size a
  hwx0_0 : ∀ i : grid0.Coords, EltTy.bits .f32 = 32 ∨ (Rect.block (s := S80000x2) S400x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x128.size a ≤ S80000x128.size a
  hwx0_1 : ∀ i : grid0.Coords, EltTy.bits .bf16 = 32 ∨ (Rect.block (s := S80000x128) S400x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S80000x128.size a
  hwx0_4 : ∀ i : grid0.Coords, EltTy.bits .f32 = 32 ∨ (Rect.block (s := S80000x128) S400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x128.size a ≤ S10000x128.size a
  hwx1_0 : ∀ i : grid1.Coords, EltTy.bits .bf16 = 32 ∨ (Rect.block (s := S10000x128) S400x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S128x2048.size a
  hwx1_1 : ∀ i : grid1.Coords, EltTy.bits .bf16 = 32 ∨ (Rect.block (s := S128x2048) S128x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x2048.size a ≤ S10000x2048.size a
  hwx1_3 : ∀ i : grid1.Coords, EltTy.bits .f32 = 32 ∨ (Rect.block (s := S10000x2048) S400x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x2.size a ≤ S80000x2.size a
  hwx2_0 : ∀ i : grid2.Coords, EltTy.bits .f32 = 32 ∨ (Rect.block (s := S80000x2) S400x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x2048.size a ≤ S80000x2048.size a
  hwx2_1 : ∀ i : grid2.Coords, EltTy.bits .bf16 = 32 ∨ (Rect.block (s := S80000x2048) S400x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x2048.size a ≤ S2x2048.size a
  hwx2_2 : ∀ i : grid2.Coords, EltTy.bits .f32 = 32 ∨ (Rect.block (s := S2x2048) S2x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x2048.size a ≤ S80000x2048.size a
  hwx2_4 : ∀ i : grid2.Coords, EltTy.bits .f32 = 32 ∨ (Rect.block (s := S80000x2048) S400x2048.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x2048.size a ≤ S10000x2048.size a
  hwx3_0 : ∀ i : grid3.Coords, EltTy.bits .bf16 = 32 ∨ (Rect.block (s := S10000x2048) S400x2048.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x2048.size a ≤ S2048x2048.size a
  hwx3_1 : ∀ i : grid3.Coords, EltTy.bits .bf16 = 32 ∨ (Rect.block (s := S2048x2048) S2048x2048.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x2048.size a
  hwx3_2 : ∀ i : grid3.Coords, EltTy.bits .f32 = 32 ∨ (Rect.block (s := S1x2048) S1x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x2048.size a ≤ S10000x2048.size a
  hwx3_3 : ∀ i : grid3.Coords, EltTy.bits .f32 = 32 ∨ (Rect.block (s := S10000x2048) S400x2048.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x2.size a ≤ S80000x2.size a
  hwx4_0 : ∀ i : grid4.Coords, EltTy.bits .f32 = 32 ∨ (Rect.block (s := S80000x2) S400x2.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S400x2048.size a ≤ S80000x2048.size a
  hwx4_1 : ∀ i : grid4.Coords, EltTy.bits .bf16 = 32 ∨ (Rect.block (s := S80000x2048) S400x2048.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2x2048.size a ≤ S2x2048.size a
  hwx4_2 : ∀ i : grid4.Coords, EltTy.bits .f32 = 32 ∨ (Rect.block (s := S2x2048) S2x2048.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x2048.size a ≤ S1x2048.size a
  hwx4_3 : ∀ i : grid4.Coords, EltTy.bits .f32 = 32 ∨ (Rect.block (s := S1x2048) S1x2048.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S400x2048.size a ≤ S80000x2048.size a
  hwx4_4 : ∀ i : grid4.Coords, EltTy.bits .f32 = 32 ∨ (Rect.block (s := S80000x2048) S400x2048.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x2048.size a ≤ S10000x2048.size a
  hwx5_0 : ∀ i : grid5.Coords, EltTy.bits .bf16 = 32 ∨ (Rect.block (s := S10000x2048) S400x2048.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x1024.size a ≤ S2048x1024.size a
  hwx5_1 : ∀ i : grid5.Coords, EltTy.bits .bf16 = 32 ∨ (Rect.block (s := S2048x1024) S2048x1024.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x1024.size a ≤ S10000x1024.size a
  hwx5_3 : ∀ i : grid5.Coords, EltTy.bits .f32 = 32 ∨ (Rect.block (s := S10000x1024) S400x1024.size (cc5_transform_3 i) (hinb5_3 i)).WholeWords (EltTy.packing .f32)

variable [Facts₀]

def gather_S10000x2_S80000x1_S80000x2_1_0_n_n_0_1_12 : GatherDims S10000x2 S80000x1 S80000x2 where
  offsetDims := [1]
  collapsedSliceDims := [0]
  operandBatchingDims := []
  startIndicesBatchingDims := []
  startIndexMap := [0]
  indexVectorDim := 1
  sliceSizes := ![1, 2]
  wf := gather_S10000x2_S80000x1_S80000x2_1_0_n_n_0_1_12_wf
def gather_S10000x128_S80000x1_S80000x128_1_0_n_n_0_1_1128 : GatherDims S10000x128 S80000x1 S80000x128 where
  offsetDims := [1]
  collapsedSliceDims := [0]
  operandBatchingDims := []
  startIndicesBatchingDims := []
  startIndexMap := [0]
  indexVectorDim := 1
  sliceSizes := ![1, 128]
  wf := gather_S10000x128_S80000x1_S80000x128_1_0_n_n_0_1_1128_wf
def scatter_S10000x128_S80000x1_S80000x128_1_0_0_1 : ScatterDims S10000x128 S80000x1 S80000x128 where
  updateWindowDims := [1]
  insertedWindowDims := [0]
  scatterDimsToOperandDims := [0]
  indexVectorDim := 1
  wf := scatter_S10000x128_S80000x1_S80000x128_1_0_0_1_wf
def dot_S400x128_S128x2048_S400x2048_1_0_0_1_n_n : DotDims S400x128 S128x2048 S400x2048 where
  lhsContracting := [1]
  rhsContracting := [0]
  lhsNonContracting := [0]
  rhsNonContracting := [1]
  lhsBatch := []
  rhsBatch := []
  wf := dot_S400x128_S128x2048_S400x2048_1_0_0_1_n_n_wf
def gather_S10000x2048_S80000x1_S80000x2048_1_0_n_n_0_1_12048 : GatherDims S10000x2048 S80000x1 S80000x2048 where
  offsetDims := [1]
  collapsedSliceDims := [0]
  operandBatchingDims := []
  startIndicesBatchingDims := []
  startIndexMap := [0]
  indexVectorDim := 1
  sliceSizes := ![1, 2048]
  wf := gather_S10000x2048_S80000x1_S80000x2048_1_0_n_n_0_1_12048_wf
def scatter_S10000x2048_S80000x1_S80000x2048_1_0_0_1 : ScatterDims S10000x2048 S80000x1 S80000x2048 where
  updateWindowDims := [1]
  insertedWindowDims := [0]
  scatterDimsToOperandDims := [0]
  indexVectorDim := 1
  wf := scatter_S10000x2048_S80000x1_S80000x2048_1_0_0_1_wf
def dot_S400x2048_S2048x2048_S400x2048_1_0_0_1_n_n : DotDims S400x2048 S2048x2048 S400x2048 where
  lhsContracting := [1]
  rhsContracting := [0]
  lhsNonContracting := [0]
  rhsNonContracting := [1]
  lhsBatch := []
  rhsBatch := []
  wf := dot_S400x2048_S2048x2048_S400x2048_1_0_0_1_n_n_wf
def dot_S400x2048_S2048x1024_S400x1024_1_0_0_1_n_n : DotDims S400x2048 S2048x1024 S400x1024 where
  lhsContracting := [1]
  rhsContracting := [0]
  lhsNonContracting := [0]
  rhsNonContracting := [1]
  lhsBatch := []
  rhsBatch := []
  wf := dot_S400x2048_S2048x1024_S400x1024_1_0_0_1_n_n_wf

abbrev win0_0 : Pipeline.Window sig grid0 :=
  Pipeline.Window.ofSpec (Memref.whole main_v6) S400x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S128x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S400x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S400x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S400x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S2x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S400x2048.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v28) S400x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S2048x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S400x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v34) S400x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S400x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S2x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v37) S1x2048.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v38) S400x2048.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v42) S400x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S2048x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v44) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v45) S400x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S10000x128 : Shape := ⟨2, ![10000, 128]⟩
abbrev S10000x2 : Shape := ⟨2, ![10000, 2]⟩
abbrev S2x80000 : Shape := ⟨2, ![2, 80000]⟩
abbrev S2x128 : Shape := ⟨2, ![2, 128]⟩
abbrev S128 : Shape := ⟨1, ![128]⟩
abbrev S128x2048 : Shape := ⟨2, ![128, 2048]⟩
abbrev S2048 : Shape := ⟨1, ![2048]⟩
abbrev S2x2048 : Shape := ⟨2, ![2, 2048]⟩
abbrev S2048x2048 : Shape := ⟨2, ![2048, 2048]⟩
abbrev S2048x1024 : Shape := ⟨2, ![2048, 1024]⟩
abbrev S1024 : Shape := ⟨1, ![1024]⟩
abbrev S1x80000 : Shape := ⟨2, ![1, 80000]⟩
abbrev S80000 : Shape := ⟨1, ![80000]⟩
abbrev S_ : Shape := ⟨0, ![]⟩
abbrev S80000x1 : Shape := ⟨2, ![80000, 1]⟩
abbrev S80000x2 : Shape := ⟨2, ![80000, 2]⟩
abbrev S80000x128 : Shape := ⟨2, ![80000, 128]⟩
abbrev S1x128 : Shape := ⟨2, ![1, 128]⟩
abbrev S10000x2048 : Shape := ⟨2, ![10000, 2048]⟩
abbrev S1x2048 : Shape := ⟨2, ![1, 2048]⟩
abbrev S80000x2048 : Shape := ⟨2, ![80000, 2048]⟩
abbrev S10000x1024 : Shape := ⟨2, ![10000, 1024]⟩
abbrev S1x1024 : Shape := ⟨2, ![1, 1024]⟩
abbrev S10000 : Shape := ⟨1, ![10000]⟩
abbrev S10000x1 : Shape := ⟨2, ![10000, 1]⟩

abbrev nBuf : Space → Nat
  | .hbm => 170
  | .vmem => 0
  | .smem => 0
  | _ => 0

abbrev hbmTy0_0 (i : Nat) : BufTy := match i % 128 with
  | 0 => ⟨S10000x128, .f32⟩
  | 1 => ⟨S10000x2, .f32⟩
  | 2 => ⟨S2x80000, .i32⟩
  | 3 => ⟨S2x128, .f32⟩
  | 4 => ⟨S128, .f32⟩
  | 5 => ⟨S128x2048, .f32⟩
  | 6 => ⟨S2048, .f32⟩
  | 7 => ⟨S2x2048, .f32⟩
  | 8 => ⟨S2048, .f32⟩
  | 9 => ⟨S2048x2048, .f32⟩
  | 10 => ⟨S2048, .f32⟩
  | 11 => ⟨S2x2048, .f32⟩
  | 12 => ⟨S2048, .f32⟩
  | 13 => ⟨S2048x1024, .f32⟩
  | 14 => ⟨S1024, .f32⟩
  | 15 => ⟨S1x80000, .i32⟩
  | 16 => ⟨S80000, .i32⟩
  | 17 => ⟨S1x80000, .i32⟩
  | 18 => ⟨S80000, .i32⟩
  | 19 => ⟨S_, .i32⟩
  | 20 => ⟨S80000, .i32⟩
  | 21 => ⟨S80000, .i1⟩
  | 22 => ⟨S_, .i32⟩
  | 23 => ⟨S80000, .i32⟩
  | 24 => ⟨S80000, .i32⟩
  | 25 => ⟨S80000, .i32⟩
  | 26 => ⟨S80000x1, .i32⟩
  | 27 => ⟨S80000x2, .f32⟩
  | 28 => ⟨S_, .i32⟩
  | 29 => ⟨S80000, .i32⟩
  | 30 => ⟨S80000, .i1⟩
  | 31 => ⟨S_, .i32⟩
  | 32 => ⟨S80000, .i32⟩
  | 33 => ⟨S80000, .i32⟩
  | 34 => ⟨S80000, .i32⟩
  | 35 => ⟨S80000x1, .i32⟩
  | 36 => ⟨S80000x2, .f32⟩
  | 37 => ⟨S80000x2, .f32⟩
  | 38 => ⟨S80000x128, .f32⟩
  | 39 => ⟨S1x128, .f32⟩
  | 40 => ⟨S80000x128, .f32⟩
  | 41 => ⟨S80000x128, .f32⟩
  | 42 => ⟨S_, .f32⟩
  | 43 => ⟨S80000x128, .f32⟩
  | 44 => ⟨S80000x128, .f32⟩
  | 45 => ⟨S_, .i32⟩
  | 46 => ⟨S80000, .i32⟩
  | 47 => ⟨S80000, .i1⟩
  | 48 => ⟨S_, .i32⟩
  | 49 => ⟨S80000, .i32⟩
  | 50 => ⟨S80000, .i32⟩
  | 51 => ⟨S80000, .i32⟩
  | 52 => ⟨S80000x1, .i32⟩
  | 53 => ⟨S80000x128, .f32⟩
  | 54 => ⟨S80000x128, .f32⟩
  | 55 => ⟨S_, .f32⟩
  | 56 => ⟨S10000x128, .f32⟩
  | 57 => ⟨S80000x1, .i32⟩
  | 58 => ⟨S10000x128, .f32⟩
  | 59 => ⟨S10000x2048, .f32⟩
  | 60 => ⟨S1x2048, .f32⟩
  | 61 => ⟨S10000x2048, .f32⟩
  | 62 => ⟨S10000x2048, .f32⟩
  | 63 => ⟨S_, .f32⟩
  | 64 => ⟨S10000x2048, .f32⟩
  | 65 => ⟨S10000x2048, .f32⟩
  | 66 => ⟨S_, .i32⟩
  | 67 => ⟨S80000, .i32⟩
  | 68 => ⟨S80000, .i1⟩
  | 69 => ⟨S_, .i32⟩
  | 70 => ⟨S80000, .i32⟩
  | 71 => ⟨S80000, .i32⟩
  | 72 => ⟨S80000, .i32⟩
  | 73 => ⟨S80000x1, .i32⟩
  | 74 => ⟨S80000x2, .f32⟩
  | 75 => ⟨S_, .i32⟩
  | 76 => ⟨S80000, .i32⟩
  | 77 => ⟨S80000, .i1⟩
  | 78 => ⟨S_, .i32⟩
  | 79 => ⟨S80000, .i32⟩
  | 80 => ⟨S80000, .i32⟩
  | 81 => ⟨S80000, .i32⟩
  | 82 => ⟨S80000x1, .i32⟩
  | 83 => ⟨S80000x2, .f32⟩
  | 84 => ⟨S80000x2, .f32⟩
  | 85 => ⟨S80000x2048, .f32⟩
  | 86 => ⟨S1x2048, .f32⟩
  | 87 => ⟨S80000x2048, .f32⟩
  | 88 => ⟨S80000x2048, .f32⟩
  | 89 => ⟨S_, .f32⟩
  | 90 => ⟨S80000x2048, .f32⟩
  | 91 => ⟨S80000x2048, .f32⟩
  | 92 => ⟨S_, .i32⟩
  | 93 => ⟨S80000, .i32⟩
  | 94 => ⟨S80000, .i1⟩
  | 95 => ⟨S_, .i32⟩
  | 96 => ⟨S80000, .i32⟩
  | 97 => ⟨S80000, .i32⟩
  | 98 => ⟨S80000, .i32⟩
  | 99 => ⟨S80000x1, .i32⟩
  | 100 => ⟨S80000x2048, .f32⟩
  | 101 => ⟨S80000x2048, .f32⟩
  | 102 => ⟨S_, .f32⟩
  | 103 => ⟨S10000x2048, .f32⟩
  | 104 => ⟨S80000x1, .i32⟩
  | 105 => ⟨S10000x2048, .f32⟩
  | 106 => ⟨S10000x2048, .f32⟩
  | 107 => ⟨S1x2048, .f32⟩
  | 108 => ⟨S10000x2048, .f32⟩
  | 109 => ⟨S10000x2048, .f32⟩
  | 110 => ⟨S_, .f32⟩
  | 111 => ⟨S10000x2048, .f32⟩
  | 112 => ⟨S10000x2048, .f32⟩
  | 113 => ⟨S_, .i32⟩
  | 114 => ⟨S80000, .i32⟩
  | 115 => ⟨S80000, .i1⟩
  | 116 => ⟨S_, .i32⟩
  | 117 => ⟨S80000, .i32⟩
  | 118 => ⟨S80000, .i32⟩
  | 119 => ⟨S80000, .i32⟩
  | 120 => ⟨S80000x1, .i32⟩
  | 121 => ⟨S80000x2, .f32⟩
  | 122 => ⟨S_, .i32⟩
  | 123 => ⟨S80000, .i32⟩
  | 124 => ⟨S80000, .i1⟩
  | 125 => ⟨S_, .i32⟩
  | 126 => ⟨S80000, .i32⟩
  | 127 => ⟨S80000, .i32⟩
  | _ => ⟨S10000x128, .f32⟩

abbrev hbmTy0_1 (i : Nat) : BufTy := match i % 128 with
  | 0 => ⟨S80000, .i32⟩
  | 1 => ⟨S80000x1, .i32⟩
  | 2 => ⟨S80000x2, .f32⟩
  | 3 => ⟨S80000x2, .f32⟩
  | 4 => ⟨S80000x2048, .f32⟩
  | 5 => ⟨S1x2048, .f32⟩
  | 6 => ⟨S80000x2048, .f32⟩
  | 7 => ⟨S80000x2048, .f32⟩
  | 8 => ⟨S_, .f32⟩
  | 9 => ⟨S80000x2048, .f32⟩
  | 10 => ⟨S80000x2048, .f32⟩
  | 11 => ⟨S_, .i32⟩
  | 12 => ⟨S80000, .i32⟩
  | 13 => ⟨S80000, .i1⟩
  | 14 => ⟨S_, .i32⟩
  | 15 => ⟨S80000, .i32⟩
  | 16 => ⟨S80000, .i32⟩
  | 17 => ⟨S80000, .i32⟩
  | 18 => ⟨S80000x1, .i32⟩
  | 19 => ⟨S80000x2048, .f32⟩
  | 20 => ⟨S80000x2048, .f32⟩
  | 21 => ⟨S_, .f32⟩
  | 22 => ⟨S10000x2048, .f32⟩
  | 23 => ⟨S80000x1, .i32⟩
  | 24 => ⟨S10000x2048, .f32⟩
  | 25 => ⟨S10000x1024, .f32⟩
  | 26 => ⟨S1x1024, .f32⟩
  | 27 => ⟨S10000x1024, .f32⟩
  | 28 => ⟨S10000x1024, .f32⟩
  | 29 => ⟨S_, .f32⟩
  | 30 => ⟨S10000x1024, .f32⟩
  | 31 => ⟨S10000x1024, .f32⟩
  | 32 => ⟨S10000x1024, .f32⟩
  | 33 => ⟨S_, .f32⟩
  | 34 => ⟨S10000, .f32⟩
  | 35 => ⟨S10000x1, .f32⟩
  | 36 => ⟨S10000x1, .f32⟩
  | 37 => ⟨S_, .f32⟩
  | 38 => ⟨S10000x1, .f32⟩
  | 39 => ⟨S10000x1, .f32⟩
  | 40 => ⟨S10000x1024, .f32⟩
  | 41 => ⟨S10000x1024, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_c_3 : Ref sig .tc := ⟨.hbm, 45, rfl⟩
abbrev main_v24 : Ref sig .tc := ⟨.hbm, 46, rfl⟩
abbrev main_v25 : Ref sig .tc := ⟨.hbm, 47, rfl⟩
abbrev main_c_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call1_cst : Ref sig .tc := ⟨.hbm, 63, rfl⟩
abbrev main_call1_v0 : Ref sig .tc := ⟨.hbm, 64, rfl⟩
abbrev main_v39 : Ref sig .tc := ⟨.hbm, 65, rfl⟩
abbrev main_c_5 : Ref sig .tc := ⟨.hbm, 66, rfl⟩
abbrev main_v40 : Ref sig .tc := ⟨.hbm, 67, rfl⟩
abbrev main_v41 : Ref sig .tc := ⟨.hbm, 68, rfl⟩
abbrev main_c_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_7 : Ref sig .tc := ⟨.hbm, 75, rfl⟩
abbrev main_v47 : Ref sig .tc := ⟨.hbm, 76, rfl⟩
abbrev main_v48 : Ref sig .tc := ⟨.hbm, 77, rfl⟩
abbrev main_c_8 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call2_cst : Ref sig .tc := ⟨.hbm, 89, rfl⟩
abbrev main_call2_v0 : Ref sig .tc := ⟨.hbm, 90, rfl⟩
abbrev main_v59 : Ref sig .tc := ⟨.hbm, 91, rfl⟩
abbrev main_c_9 : Ref sig .tc := ⟨.hbm, 92, rfl⟩
abbrev main_v60 : Ref sig .tc := ⟨.hbm, 93, rfl⟩
abbrev main_v61 : Ref sig .tc := ⟨.hbm, 94, rfl⟩
abbrev main_c_10 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_11 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call3_cst : Ref sig .tc := ⟨.hbm, 110, rfl⟩
abbrev main_call3_v0 : Ref sig .tc := ⟨.hbm, 111, rfl⟩
abbrev main_v75 : Ref sig .tc := ⟨.hbm, 112, rfl⟩
abbrev main_c_12 : Ref sig .tc := ⟨.hbm, 113, rfl⟩
abbrev main_v76 : Ref sig .tc := ⟨.hbm, 114, rfl⟩
abbrev main_v77 : Ref sig .tc := ⟨.hbm, 115, rfl⟩
abbrev main_c_13 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_14 : Ref sig .tc := ⟨.hbm, 122, rfl⟩
abbrev main_v83 : Ref sig .tc := ⟨.hbm, 123, rfl⟩
abbrev main_v84 : Ref sig .tc := ⟨.hbm, 124, rfl⟩
abbrev main_c_15 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_call4_cst : Ref sig .tc := ⟨.hbm, 136, rfl⟩
abbrev main_call4_v0 : Ref sig .tc := ⟨.hbm, 137, rfl⟩
abbrev main_v95 : Ref sig .tc := ⟨.hbm, 138, rfl⟩
abbrev main_c_16 : Ref sig .tc := ⟨.hbm, 139, rfl⟩
abbrev main_v96 : Ref sig .tc := ⟨.hbm, 140, rfl⟩
abbrev main_v97 : Ref sig .tc := ⟨.hbm, 141, rfl⟩
abbrev main_c_17 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_18 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_call5_cst : Ref sig .tc := ⟨.hbm, 157, rfl⟩
abbrev main_call5_v0 : Ref sig .tc := ⟨.hbm, 158, rfl⟩
abbrev main_v111 : Ref sig .tc := ⟨.hbm, 159, rfl⟩
abbrev main_call6_v0 : Ref sig .tc := ⟨.hbm, 160, rfl⟩
abbrev main_call6_cst : Ref sig .tc := ⟨.hbm, 161, rfl⟩
abbrev main_call6_v1 : Ref sig .tc := ⟨.hbm, 162, rfl⟩
abbrev main_call6_v2 : Ref sig .tc := ⟨.hbm, 163, rfl⟩
abbrev main_v112 : Ref sig .tc := ⟨.hbm, 164, rfl⟩
abbrev main_cst_19 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩

abbrev nD : Nat := 1
abbrev τ : Topo := Topo.v7x

variable {F : FTy → Type} [FloatOps F]

class Facts₀ : Prop where
  slices_S2x80000_S1x80000_0_0 : S2x80000.Slices ![0, 0] S1x80000
  shapeCasts_S1x80000_S80000 : S1x80000.ShapeCasts S80000
  slices_S2x80000_S1x80000_1_0 : S2x80000.Slices ![1, 0] S1x80000
  bcast_S_S80000 : S_.BroadcastsInDim S80000 (![] : Fin 0 → Fin S80000.rank)
  bcast_S80000_S80000x1_0 : S80000.BroadcastsInDim S80000x1 (![0] : Fin 1 → Fin S80000x1.rank)
  bcast_S128_S1x128_1 : S128.BroadcastsInDim S1x128 (![1] : Fin 1 → Fin S1x128.rank)
  bcast_S1x128_S80000x128_0_1 : S1x128.BroadcastsInDim S80000x128 (![0, 1] : Fin 2 → Fin S80000x128.rank)
  bcast_S_S80000x128 : S_.BroadcastsInDim S80000x128 (![] : Fin 0 → Fin S80000x128.rank)
  bcast_S_S10000x128 : S_.BroadcastsInDim S10000x128 (![] : Fin 0 → Fin S10000x128.rank)
  bcast_S2048_S1x2048_1 : S2048.BroadcastsInDim S1x2048 (![1] : Fin 1 → Fin S1x2048.rank)
  bcast_S1x2048_S10000x2048_0_1 : S1x2048.BroadcastsInDim S10000x2048 (![0, 1] : Fin 2 → Fin S10000x2048.rank)
  bcast_S_S10000x2048 : S_.BroadcastsInDim S10000x2048 (![] : Fin 0 → Fin S10000x2048.rank)
  bcast_S1x2048_S80000x2048_0_1 : S1x2048.BroadcastsInDim S80000x2048 (![0, 1] : Fin 2 → Fin S80000x2048.rank)
  bcast_S_S80000x2048 : S_.BroadcastsInDim S80000x2048 (![] : Fin 0 → Fin S80000x2048.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S_S10000x1024 : S_.BroadcastsInDim S10000x1024 (![] : Fin 0 → Fin S10000x1024.rank)
  reducesTo_S10000x1024_S10000_d1 : S10000x1024.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x1024_0_1 : S10000x1.BroadcastsInDim S10000x1024 (![0, 1] : Fin 2 → Fin S10000x1024.rank)
  gather_S10000x2_S80000x1_S80000x2_1_0_n_n_0_1_12_wf : GatherDims.WF S10000x2 S80000x1 S80000x2 [1] [0] [] [0] [] 1 ![1, 2]
  dot_S80000x2_S2x128_S80000x128_1_0_0_1_n_n_wf : DotDims.WF S80000x2 S2x128 S80000x128 [1] [0] [0] [1] [] []
  gather_S10000x128_S80000x1_S80000x128_1_0_n_n_0_1_1128_wf : GatherDims.WF S10000x128 S80000x1 S80000x128 [1] [0] [] [0] [] 1 ![1, 128]
  scatter_S10000x128_S80000x1_S80000x128_1_0_0_1_wf : ScatterDims.WF S10000x128 S80000x1 S80000x128 [1] [0] [0] 1
  dot_S10000x128_S128x2048_S10000x2048_1_0_0_1_n_n_wf : DotDims.WF S10000x128 S128x2048 S10000x2048 [1] [0] [0] [1] [] []
  dot_S80000x2_S2x2048_S80000x2048_1_0_0_1_n_n_wf : DotDims.WF S80000x2 S2x2048 S80000x2048 [1] [0] [0] [1] [] []
  gather_S10000x2048_S80000x1_S80000x2048_1_0_n_n_0_1_12048_wf : GatherDims.WF S10000x2048 S80000x1 S80000x2048 [1] [0] [] [0] [] 1 ![1, 2048]
  scatter_S10000x2048_S80000x1_S80000x2048_1_0_0_1_wf : ScatterDims.WF S10000x2048 S80000x1 S80000x2048 [1] [0] [0] 1
  dot_S10000x2048_S2048x2048_S10000x2048_1_0_0_1_n_n_wf : DotDims.WF S10000x2048 S2048x2048 S10000x2048 [1] [0] [0] [1] [] []
  dot_S10000x2048_S2048x1024_S10000x1024_1_0_0_1_n_n_wf : DotDims.WF S10000x2048 S2048x1024 S10000x1024 [1] [0] [0] [1] [] []

variable [Facts₀]

def gather_S10000x2_S80000x1_S80000x2_1_0_n_n_0_1_12 : GatherDims S10000x2 S80000x1 S80000x2 where
  offsetDims := [1]
  collapsedSliceDims := [0]
  operandBatchingDims := []
  startIndicesBatchingDims := []
  startIndexMap := [0]
  indexVectorDim := 1
  sliceSizes := ![1, 2]
  wf := gather_S10000x2_S80000x1_S80000x2_1_0_n_n_0_1_12_wf
def dot_S80000x2_S2x128_S80000x128_1_0_0_1_n_n : DotDims S80000x2 S2x128 S80000x128 where
  lhsContracting := [1]
  rhsContracting := [0]
  lhsNonContracting := [0]
  rhsNonContracting := [1]
  lhsBatch := []
  rhsBatch := []
  wf := dot_S80000x2_S2x128_S80000x128_1_0_0_1_n_n_wf
def gather_S10000x128_S80000x1_S80000x128_1_0_n_n_0_1_1128 : GatherDims S10000x128 S80000x1 S80000x128 where
  offsetDims := [1]
  collapsedSliceDims := [0]
  operandBatchingDims := []
  startIndicesBatchingDims := []
  startIndexMap := [0]
  indexVectorDim := 1
  sliceSizes := ![1, 128]
  wf := gather_S10000x128_S80000x1_S80000x128_1_0_n_n_0_1_1128_wf
def scatter_S10000x128_S80000x1_S80000x128_1_0_0_1 : ScatterDims S10000x128 S80000x1 S80000x128 where
  updateWindowDims := [1]
  insertedWindowDims := [0]
  scatterDimsToOperandDims := [0]
  indexVectorDim := 1
  wf := scatter_S10000x128_S80000x1_S80000x128_1_0_0_1_wf
def dot_S10000x128_S128x2048_S10000x2048_1_0_0_1_n_n : DotDims S10000x128 S128x2048 S10000x2048 where
  lhsContracting := [1]
  rhsContracting := [0]
  lhsNonContracting := [0]
  rhsNonContracting := [1]
  lhsBatch := []
  rhsBatch := []
  wf := dot_S10000x128_S128x2048_S10000x2048_1_0_0_1_n_n_wf
def dot_S80000x2_S2x2048_S80000x2048_1_0_0_1_n_n : DotDims S80000x2 S2x2048 S80000x2048 where
  lhsContracting := [1]
  rhsContracting := [0]
  lhsNonContracting := [0]
  rhsNonContracting := [1]
  lhsBatch := []
  rhsBatch := []
  wf := dot_S80000x2_S2x2048_S80000x2048_1_0_0_1_n_n_wf
def gather_S10000x2048_S80000x1_S80000x2048_1_0_n_n_0_1_12048 : GatherDims S10000x2048 S80000x1 S80000x2048 where
  offsetDims := [1]
  collapsedSliceDims := [0]
  operandBatchingDims := []
  startIndicesBatchingDims := []
  startIndexMap := [0]
  indexVectorDim := 1
  sliceSizes := ![1, 2048]
  wf := gather_S10000x2048_S80000x1_S80000x2048_1_0_n_n_0_1_12048_wf
def scatter_S10000x2048_S80000x1_S80000x2048_1_0_0_1 : ScatterDims S10000x2048 S80000x1 S80000x2048 where
  updateWindowDims := [1]
  insertedWindowDims := [0]
  scatterDimsToOperandDims := [0]
  indexVectorDim := 1
  wf := scatter_S10000x2048_S80000x1_S80000x2048_1_0_0_1_wf
def dot_S10000x2048_S2048x2048_S10000x2048_1_0_0_1_n_n : DotDims S10000x2048 S2048x2048 S10000x2048 where
  lhsContracting := [1]
  rhsContracting := [0]
  lhsNonContracting := [0]
  rhsNonContracting := [1]
  lhsBatch := []
  rhsBatch := []
  wf := dot_S10000x2048_S2048x2048_S10000x2048_1_0_0_1_n_n_wf
def dot_S10000x2048_S2048x1024_S10000x1024_1_0_0_1_n_n : DotDims S10000x2048 S2048x1024 S10000x1024 where
  lhsContracting := [1]
  rhsContracting := [0]
  lhsNonContracting := [0]
  rhsNonContracting := [1]
  lhsBatch := []
  rhsBatch := []
  wf := dot_S10000x2048_S2048x1024_S10000x1024_1_0_0_1_n_n_wf

class Facts : Prop extends Facts₀ where

variable [Facts]
-- ==== Proof.Spec.lean ====
/-
  What the graph network computes, as functions on arrays of extended reals, index by index. Each layer has two
  pointwise-in-the-row pieces around the gather and the scatter-add:
  * on an edge `e` with relative position `rel e = pos[src e] - pos[dst e]` (two coordinates) and gathered source
    feature `xs e`, the message is `max (rel e 0 · W 0 c + rel e 1 · W 1 c + b c) 0 · xs e c` in channel `c`;
  * on a node `n` with aggregate `agg n`, the output is `max (∑ k, agg n k · W k c + b c) 0`;
  * the last layer divides each row by the larger of its Euclidean norm and a fixed positive literal.
  The bias enters both programs as a one-row array, so the functions take it in that form; `rowOf` is a vector read
  as that row.
-/
import Idealize.ShloMosaic.PureOps.Ideal
import Idealize.ShloMosaic.Lib.ValueIdx

noncomputable section

open scoped BigOperators

namespace Cert.Geo

open Idealize.ShloMosaic Idealize.ShloMosaic.ValueIdx

/-- A rank-2 array of extended reals with `n` rows and `c` columns. -/
abbrev Mat (n c : Nat) : Type := (⟨2, ![n, c]⟩ : Shape).Idx → EReal

/-- The row of an index, typed by the literal extent. -/
abbrev row {n c : Nat} (i : (⟨2, ![n, c]⟩ : Shape).Idx) : Fin n := i 0
/-- The column of an index, typed by the literal extent. -/
abbrev col {n c : Nat} (i : (⟨2, ![n, c]⟩ : Shape).Idx) : Fin c := i 1

/-- The message on each edge: the rectified affine image of the edge's relative position (two coordinates against
    the two rows of `W`, plus the bias row), times the gathered source feature, channel by channel. -/
def edgeMsg {E C : Nat} (rel : Mat E 2) (xs : Mat E C) (W : Mat 2 C) (b : Mat 1 C) : Mat E C := fun i =>
  max (rel (ix2 (row i) 0) * W (ix2 0 (col i)) + rel (ix2 (row i) 1) * W (ix2 1 (col i)) + b (ix2 0 (col i))) 0 * xs i

/-- Each node's output: the rectified affine image of its aggregated messages, `max (∑ k, agg n k · W k c + b c) 0`. -/
def nodeOut {N K C : Nat} (agg : Mat N K) (W : Mat K C) (b : Mat 1 C) : Mat N C := fun i =>
  max ((∑ k : Fin K, agg (ix2 (row i) k) * W (ix2 k (col i))) + b (ix2 0 (col i))) 0

/-- Each row divided by the larger of its Euclidean norm and `eps` (the extended reals' division of the ideal
    instance, `Ideal.div`). -/
def rowNormalize {N C : Nat} (eps : EReal) (h : Mat N C) : Mat N C := fun i =>
  Ideal.div (h i) (max (Ideal.sqrt (∑ k : Fin C, h (ix2 (row i) k) * h (ix2 (row i) k))) eps)

/-- A vector read as a one-row array. -/
def rowOf {C : Nat} (b : (⟨1, ![C]⟩ : Shape).Idx → EReal) : Mat 1 C := fun j => b (ix1 (col j))

/-- Every edge endpoint names a node: each entry of the [2, E] index array, read signed, lies in [0, 10000). -/
def IdxInRange (ei : IVec ⟨2, ![2, 80000]⟩ 32) : Prop := ∀ i, 0 ≤ (ei i).toInt ∧ (ei i).toInt < 10000

/-- The same of a flat index vector (one row of the array). -/
def VecInRange (idx : IVec ⟨1, ![80000]⟩ 32) : Prop := ∀ e, 0 ≤ (idx e).toInt ∧ (idx e).toInt < 10000

/-- The positive literal both programs clamp the norm with (the f32 nearest to 1e-12), as its exact binary value. -/
abbrev normFloor : EReal := Ideal.ofBits .f32 0x2B8CBCCC#32

theorem edgeMsg_apply {E C : Nat} (rel : Mat E 2) (xs : Mat E C) (W : Mat 2 C) (b : Mat 1 C) (e : Fin E) (c : Fin C) :
    edgeMsg rel xs W b (ix2 e c)
      = max (rel (ix2 e 0) * W (ix2 0 c) + rel (ix2 e 1) * W (ix2 1 c) + b (ix2 0 c)) 0 * xs (ix2 e c) := rfl

theorem nodeOut_apply {N K C : Nat} (agg : Mat N K) (W : Mat K C) (b : Mat 1 C) (n : Fin N) (c : Fin C) :
    nodeOut agg W b (ix2 n c) = max ((∑ k : Fin K, agg (ix2 n k) * W (ix2 k c)) + b (ix2 0 c)) 0 := rfl

theorem rowNormalize_apply {N C : Nat} (eps : EReal) (h : Mat N C) (n : Fin N) (c : Fin C) :
    rowNormalize eps h (ix2 n c)
      = Ideal.div (h (ix2 n c)) (max (Ideal.sqrt (∑ k : Fin C, h (ix2 n k) * h (ix2 n k))) eps) := rfl

theorem rowOf_apply {C : Nat} (b : (⟨1, ![C]⟩ : Shape).Idx → EReal) (r : Fin 1) (c : Fin C) :
    rowOf b (ix2 r c) = b (ix1 c) := rfl

end Cert.Geo

end
-- ==== Proof.ChainBase.lean ====
import proofs.«412862_j81758997447248_1_alg».proof.Proof.Gen.KernelIdeal.Frame
import proofs.«412862_j81758997447248_1_alg».proof.Proof.Spec
import Idealize.ShloMosaic.Lib.StableHlo.Run

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- Argument 0 as launched on core `c`, typed by its literal shape. -/
abbrev A0 (c : Dev nD) : Vec Ideal S10000x128 .f32 := m ((c : Thread nD τ).loc main_arg0)
/-- Argument 1 as launched on core `c`, typed by its literal shape. -/
abbrev A1 (c : Dev nD) : Vec Ideal S10000x2 .f32 := m ((c : Thread nD τ).loc main_arg1)
/-- Argument 2 as launched on core `c`, typed by its literal shape. -/
abbrev A2 (c : Dev nD) : IVec S2x80000 32 := m ((c : Thread nD τ).loc main_arg2)
/-- Argument 3 as launched on core `c`, typed by its literal shape. -/
abbrev A3 (c : Dev nD) : Vec Ideal S2x128 .f32 := m ((c : Thread nD τ).loc main_arg3)
/-- Argument 4 as launched on core `c`, typed by its literal shape. -/
abbrev A4 (c : Dev nD) : Vec Ideal S128 .f32 := m ((c : Thread nD τ).loc main_arg4)
/-- Argument 5 as launched on core `c`, typed by its literal shape. -/
abbrev A5 (c : Dev nD) : Vec Ideal S128x2048 .f32 := m ((c : Thread nD τ).loc main_arg5)
/-- Argument 6 as launched on core `c`, typed by its literal shape. -/
abbrev A6 (c : Dev nD) : Vec Ideal S2048 .f32 := m ((c : Thread nD τ).loc main_arg6)
/-- Argument 7 as launched on core `c`, typed by its literal shape. -/
abbrev A7 (c : Dev nD) : Vec Ideal S2x2048 .f32 := m ((c : Thread nD τ).loc main_arg7)
/-- Argument 8 as launched on core `c`, typed by its literal shape. -/
abbrev A8 (c : Dev nD) : Vec Ideal S2048 .f32 := m ((c : Thread nD τ).loc main_arg8)
/-- Argument 9 as launched on core `c`, typed by its literal shape. -/
abbrev A9 (c : Dev nD) : Vec Ideal S2048x2048 .f32 := m ((c : Thread nD τ).loc main_arg9)
/-- Argument 10 as launched on core `c`, typed by its literal shape. -/
abbrev A10 (c : Dev nD) : Vec Ideal S2048 .f32 := m ((c : Thread nD τ).loc main_arg10)
/-- Argument 11 as launched on core `c`, typed by its literal shape. -/
abbrev A11 (c : Dev nD) : Vec Ideal S2x2048 .f32 := m ((c : Thread nD τ).loc main_arg11)
/-- Argument 12 as launched on core `c`, typed by its literal shape. -/
abbrev A12 (c : Dev nD) : Vec Ideal S2048 .f32 := m ((c : Thread nD τ).loc main_arg12)
/-- Argument 13 as launched on core `c`, typed by its literal shape. -/
abbrev A13 (c : Dev nD) : Vec Ideal S2048x1024 .f32 := m ((c : Thread nD τ).loc main_arg13)
/-- Argument 14 as launched on core `c`, typed by its literal shape. -/
abbrev A14 (c : Dev nD) : Vec Ideal S1024 .f32 := m ((c : Thread nD τ).loc main_arg14)

/-- One step back through the fold of buffer contents: across a region that does not own the buffer its contents are
    the region's entry contents; across a host stretch none of whose operations writes the buffer they are the
    stretch's entry contents. Closes a goal `W(k+1) m ρ c (Proc.devRef .tc b) = Wk m ρ c (Proc.devRef .tc b)`. -/
macro "keep_step" : tactic => `(tactic| first
  | exact W7_of_ne _ _ _ _ (by decide)
  | exact W9_of_ne _ _ _ _ (by decide)
  | exact W15_of_ne _ _ _ _ (by decide)
  | exact W17_of_ne _ _ _ _ (by decide)
  | exact W23_of_ne _ _ _ _ (by decide)
  | exact W25_of_ne _ _ _ _ (by decide)
  | (refine StableHlo.after_of_forall_not_mem _ _ (List.forall_iff_forall_mem.mp ?_)
     simp only [hostOps0, hostOps0_1, hostOps0_2, hostOps0_3, hostOps0_4, hostOps0_5, hostOps1, hostOps2, hostOps2_1,
       hostOps2_2, hostOps2_3, hostOps2_4, hostOps3, hostOps4, hostOps4_1, hostOps4_2, hostOps4_3, hostOps4_4, hostOps5,
       List.Forall, StableHlo.nullary_writes, StableHlo.unary_writes, StableHlo.binary_writes, StableHlo.ternary_writes,
       StableHlo.quaternary_writes, StableHlo.reshape_writes, StableHlo.binaryIndexed_writes, Finset.mem_singleton]
     repeat' apply And.intro
     all_goals exact StableHlo.devRef_ne_of_ne (by decide)))

/-- The host-stretch case alone (cheaper than `keep_step`, which first tries every region): closes
    `W(k+1) m ρ c (Proc.devRef .tc b) = Wk m ρ c (Proc.devRef .tc b)` when `W(k+1)` is a host stretch run from `Wk` and none
    of its operations writes `b`. -/
macro "keep_host" : tactic => `(tactic|
  (refine StableHlo.after_of_forall_not_mem _ _ (List.forall_iff_forall_mem.mp ?_)
   simp only [hostOps0, hostOps0_1, hostOps0_2, hostOps0_3, hostOps0_4, hostOps0_5, hostOps1, hostOps2, hostOps2_1,
     hostOps2_2, hostOps2_3, hostOps2_4, hostOps3, hostOps4, hostOps4_1, hostOps4_2, hostOps4_3, hostOps4_4, hostOps5,
     List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

example (c : Dev nD) : W3 m ρ c (Proc.devRef .tc main_v1) = W2 m ρ c (Proc.devRef .tc main_v1) := by keep_host

-- the macro at work: the position array is untouched by the first stretch, and by the first region
example (c : Dev nD) : W1 m ρ c (Proc.devRef .tc main_arg1) = W0 m ρ c (Proc.devRef .tc main_arg1) := by keep_step
example (c : Dev nD) : W7 m ρ c (Proc.devRef .tc main_arg1) = W6 m ρ c (Proc.devRef .tc main_arg1) := by keep_step

end Cert.KernelIdeal.Val

end
-- ==== Proof.Take.lean ====
import proofs.«412862_j81758997447248_1_alg».proof.Proof.Gen.KernelIdeal
import proofs.«412862_j81758997447248_1_alg».proof.Proof.Spec
import Idealize.ShloMosaic.Lib.StableHlo.Predicate
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen
open Idealize.ShloMosaic Idealize.ShloMosaic.TcCoe Idealize.ShloMosaic.ValueIdx

/-- The edges' source nodes: row 0 of the [2, E] index array, as a flat vector. -/
def srcOf (ei : IVec S2x80000 32) : IVec S80000 32 :=
  shapeCast S80000 (extractStridedSlice S1x80000 ![0, 0] ei slices_S2x80000_S1x80000_0_0) shapeCasts_S1x80000_S80000
/-- The edges' destination nodes: row 1. -/
def dstOf (ei : IVec S2x80000 32) : IVec S80000 32 :=
  shapeCast S80000 (extractStridedSlice S1x80000 ![1, 0] ei slices_S2x80000_S1x80000_1_0) shapeCasts_S1x80000_S80000

/-- Each row of an index array whose entries all name nodes does too: a reshaped slice reads, at every index, some entry
    of the array it was cut from. -/
theorem srcOf_inRange (ei : IVec S2x80000 32) (h : Cert.Geo.IdxInRange ei) : Cert.Geo.VecInRange (srcOf ei) := by
  intro e
  unfold srcOf shapeCast extractStridedSlice
  exact h _
theorem dstOf_inRange (ei : IVec S2x80000 32) (h : Cert.Geo.IdxInRange ei) : Cert.Geo.VecInRange (dstOf ei) := by
  intro e
  unfold dstOf shapeCast extractStridedSlice
  exact h _

/-- A broadcast reads, at every index, some entry of its operand. -/
private theorem bcast_reads {α : Type} {s t : Shape} (dims : Fin s.rank → Fin t.rank) (hb : s.BroadcastsInDim t dims)
    (x : s.Idx → α) (j : t.Idx) : ∃ k : s.Idx, broadcastInDim t dims hb x j = x k := ⟨_, rfl⟩

/-- A left fold by `and` from 1 over words that are all 1 is 1. -/
private theorem foldl_andi_ones {ι : Type} (f : ι → BitVec 1) (hf : ∀ n, f n = 1#1) (l : List ι) :
    l.foldl (fun r n => IntOp.andi r (f n)) 1#1 = 1#1 := by
  induction l with
  | nil => rfl
  | cons a l ih =>
    rw [List.foldl_cons, hf a, show IntOp.andi (1#1 : BitVec 1) 1#1 = 1#1 from by decide]
    exact ih

/-- A reduction by `and` from 1 of an array that is 1 everywhere is 1 at every result index: whichever entries reduce
    into it, all of them are 1. -/
private theorem reduce_andi_ones {s t u : Shape} {axes : List (Fin s.rank)} (x : s.Idx → BitVec 1) (init : u.Idx → BitVec 1)
    (hr : s.ReducesTo axes t) (hu : 0 < u.numel) (hinit : init (Shape.Idx.first hu) = 1#1) (hx : ∀ i, x i = 1#1)
    (j : t.Idx) : Host.reduce IntOp.andi x init hr hu j = 1#1 := by
  rw [Host.reduce_eq_foldl, hinit]
  exact foldl_andi_ones x hx _

/-- A word in [0, 10000), read signed, is not negative, so the wrap leaves it as it is; and it passes both bound tests. -/
private theorem word_inBounds (w : BitVec 32) (h0 : 0 ≤ w.toInt) (h1 : w.toInt < 10000) :
    Scalar.select (IntOp.cmpi .slt w 0#32) (IntOp.addi w 10000#32) w = w
      ∧ IntOp.cmpi .sge w 0#32 = 1#1 ∧ IntOp.cmpi .sle w 9999#32 = 1#1 := by
  have e0 : (0#32 : BitVec 32).toInt = 0 := by decide
  have e9 : (9999#32 : BitVec 32).toInt = 9999 := by decide
  have hs : w.slt 0#32 = false := by
    rw [BitVec.slt, e0]; exact decide_eq_false (by omega)
  have hge : (0#32 : BitVec 32).sle w = true := by
    rw [BitVec.sle, e0]; exact decide_eq_true h0
  have hle : w.sle 9999#32 = true := by
    rw [BitVec.sle, e9]; exact decide_eq_true (by omega)
  refine ⟨?_, ?_, ?_⟩
  · have hc : IntOp.cmpi .slt w 0#32 = 0#1 := by
      show BitVec.ofBool (w.slt 0#32) = 0#1
      rw [hs]; rfl
    rw [hc, select_zero]
  · show BitVec.ofBool ((0#32 : BitVec 32).sle w) = 1#1
    rw [hge]; rfl
  · show BitVec.ofBool (w.sle 9999#32) = 1#1
    rw [hle]; rfl

/-- jnp's index normalisation, as the host stretch computes it: a negative index counts from the end (10000 is
    added to it), and the result is laid out as a column of start indices. -/
def wrapB (idx : IVec S80000 32) : IVec S80000x1 32 :=
  broadcastInDim S80000x1 ![0] bcast_S80000_S80000x1_0
    (select (cmpi .slt idx (broadcastInDim S80000 ![] bcast_S_S80000 (constantI S_ 32 0#32)))
      (addi idx (broadcastInDim S80000 ![] bcast_S_S80000 (constantI S_ 32 10000#32))) idx)

/-- The in-bounds mask of `jnp.take`'s fill mode: the wrapped index lies in [0, 9999], per edge. -/
def inBounds (idx : IVec S80000 32) : IVec S80000 1 :=
  Host.reduce IntOp.andi
    (andi (cmpi .sge (wrapB idx) (broadcastInDim S80000x1 ![] bcast_S_S80000x1 (constantI S_ 32 0#32)))
      (cmpi .sle (wrapB idx) (broadcastInDim S80000x1 ![0, 1] bcast_S1x1_S80000x1_0_1
        (broadcastInDim S1x1 ![1] bcast_S1_S1x1_1 (constantI S1 32 9999#32)))))
    (constantI S_ 1 1#1) reducesTo_S80000x1_S80000_d1 h_S_

/-- With every index in [0, 10000) nothing wraps and every edge is in bounds. -/
theorem inBounds_one (idx : IVec S80000 32) (h : Cert.Geo.VecInRange idx) (e : S80000.Idx) : inBounds idx e = 1#1 := by
  unfold inBounds
  refine reduce_andi_ones _ _ _ _ rfl (fun i => ?_) e
  -- the two bound tests at one entry of the column: both constants are splats, so they read as their words
  show IntOp.andi (IntOp.cmpi .sge (wrapB idx i) 0#32) (IntOp.cmpi .sle (wrapB idx i) 9999#32) = 1#1
  -- the column's entry is the wrap of some entry of the index vector
  obtain ⟨k, hk⟩ := bcast_reads ![0] bcast_S80000_S80000x1_0
    (select (cmpi .slt idx (broadcastInDim S80000 ![] bcast_S_S80000 (constantI S_ 32 0#32)))
      (addi idx (broadcastInDim S80000 ![] bcast_S_S80000 (constantI S_ 32 10000#32))) idx) i
  have hw : wrapB idx i = Scalar.select (IntOp.cmpi .slt (idx k) 0#32) (IntOp.addi (idx k) 10000#32) (idx k) := hk
  obtain ⟨hsel, hge, hle⟩ := word_inBounds (idx k) (h k).1 (h k).2
  rw [hw, hsel, hge, hle]
  decide

/-- `jnp.take` of a [10000, 2] table along its rows, as the host stretch computes it: the gather at the wrapped
    index where that is in bounds, the fill word elsewhere. -/
def take2 (tbl : Vec Ideal S10000x2 .f32) (idx : IVec S80000 32) : Vec Ideal S80000x2 .f32 :=
  select (broadcastInDim S80000x2 ![0] bcast_S80000_S80000x2_0 (inBounds idx))
    (Host.gather gather_S10000x2_S80000x1_S80000x2_1_0_n_n_0_1_12 tbl (wrapB idx))
    (broadcastInDim S80000x2 ![] bcast_S_S80000x2 (constant (F := Ideal) S_ .f32 0x7FC00000#32))

/-- With every index a node, nothing is filled: the take is the plain gather. -/
theorem take2_eq (tbl : Vec Ideal S10000x2 .f32) (idx : IVec S80000 32) (h : Cert.Geo.VecInRange idx) :
    take2 tbl idx = Host.gather gather_S10000x2_S80000x1_S80000x2_1_0_n_n_0_1_12 tbl (wrapB idx) := by
  funext i
  unfold take2
  rw [select_apply]
  -- the mask laid along the row reads, at every index, the mask of some edge: that is 1
  obtain ⟨k, hk⟩ := bcast_reads ![0] bcast_S80000_S80000x2_0 (inBounds idx) i
  rw [hk, inBounds_one idx h k, select_one]

/-- `jnp.take` of a [10000, 128] table along its rows, as the host stretch computes it: the gather at the wrapped
    index where that is in bounds, the fill word elsewhere. -/
def take128 (tbl : Vec Ideal S10000x128 .f32) (idx : IVec S80000 32) : Vec Ideal S80000x128 .f32 :=
  select (broadcastInDim S80000x128 ![0] bcast_S80000_S80000x128_0 (inBounds idx))
    (Host.gather gather_S10000x128_S80000x1_S80000x128_1_0_n_n_0_1_1128 tbl (wrapB idx))
    (broadcastInDim S80000x128 ![] bcast_S_S80000x128 (constant (F := Ideal) S_ .f32 0x7FC00000#32))

/-- With every index a node, nothing is filled: the take is the plain gather. -/
theorem take128_eq (tbl : Vec Ideal S10000x128 .f32) (idx : IVec S80000 32) (h : Cert.Geo.VecInRange idx) :
    take128 tbl idx = Host.gather gather_S10000x128_S80000x1_S80000x128_1_0_n_n_0_1_1128 tbl (wrapB idx) := by
  funext i
  unfold take128
  rw [select_apply]
  -- the mask laid along the row reads, at every index, the mask of some edge: that is 1
  obtain ⟨k, hk⟩ := bcast_reads ![0] bcast_S80000_S80000x128_0 (inBounds idx) i
  rw [hk, inBounds_one idx h k, select_one]

/-- `jnp.take` of a [10000, 2048] table along its rows, as the host stretch computes it: the gather at the wrapped
    index where that is in bounds, the fill word elsewhere. -/
def take2048 (tbl : Vec Ideal S10000x2048 .f32) (idx : IVec S80000 32) : Vec Ideal S80000x2048 .f32 :=
  select (broadcastInDim S80000x2048 ![0] bcast_S80000_S80000x2048_0 (inBounds idx))
    (Host.gather gather_S10000x2048_S80000x1_S80000x2048_1_0_n_n_0_1_12048 tbl (wrapB idx))
    (broadcastInDim S80000x2048 ![] bcast_S_S80000x2048 (constant (F := Ideal) S_ .f32 0x7FC00000#32))

/-- With every index a node, nothing is filled: the take is the plain gather. -/
theorem take2048_eq (tbl : Vec Ideal S10000x2048 .f32) (idx : IVec S80000 32) (h : Cert.Geo.VecInRange idx) :
    take2048 tbl idx = Host.gather gather_S10000x2048_S80000x1_S80000x2048_1_0_n_n_0_1_12048 tbl (wrapB idx) := by
  funext i
  unfold take2048
  rw [select_apply]
  -- the mask laid along the row reads, at every index, the mask of some edge: that is 1
  obtain ⟨k, hk⟩ := bcast_reads ![0] bcast_S80000_S80000x2048_0 (inBounds idx) i
  rw [hk, inBounds_one idx h k, select_one]

/-- A bias vector reshaped to one row reads as `Geo.rowOf`. -/
theorem reshape_row128 (b : Vec Ideal S128 .f32) : shapeCast S1x128 b shapeCasts_S128_S1x128 = Cert.Geo.rowOf b := by
  funext j
  obtain ⟨r, c, rfl⟩ : ∃ (r : Fin 1) (c : Fin 128), j = ix2 r c := ⟨j 0, j 1, eq_ix2 j⟩
  exact shapeCast_a_1a_apply b shapeCasts_S128_S1x128 r c
theorem reshape_row2048 (b : Vec Ideal S2048 .f32) : shapeCast S1x2048 b shapeCasts_S2048_S1x2048 = Cert.Geo.rowOf b := by
  funext j
  obtain ⟨r, c, rfl⟩ : ∃ (r : Fin 1) (c : Fin 2048), j = ix2 r c := ⟨j 0, j 1, eq_ix2 j⟩
  exact shapeCast_a_1a_apply b shapeCasts_S2048_S1x2048 r c
theorem reshape_row1024 (b : Vec Ideal S1024 .f32) : shapeCast S1x1024 b shapeCasts_S1024_S1x1024 = Cert.Geo.rowOf b := by
  funext j
  obtain ⟨r, c, rfl⟩ : ∃ (r : Fin 1) (c : Fin 1024), j = ix2 r c := ⟨j 0, j 1, eq_ix2 j⟩
  exact shapeCast_a_1a_apply b shapeCasts_S1024_S1x1024 r c

end Cert.KernelIdeal.Val

end
-- ==== Proof.RefStages.lean ====
import proofs.«412862_j81758997447248_1_alg».proof.Proof.Gen.ReferenceIdeal.Read
import proofs.«412862_j81758997447248_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Stages

open Cert.ReferenceIdeal Cert.ReferenceIdeal.Read
open Idealize.ShloMosaic Idealize.ShloMosaic.TcCoe Idealize.ShloMosaic.ValueIdx

/-- The contraction of edge `e`'s two coordinates against channel `ch` reads the relative position at `(e, k)`. -/
theorem msg1_lidx (e : Fin 80000) (ch : Fin 128) (k : Fin 2) : lidx_main_v19 (ix2 e ch) k = ix2 e k :=
  funext fun a => Fin.ext (by match a with | ⟨0, _⟩ => rfl | ⟨1, _⟩ => rfl)
/-- … and the weight at `(k, ch)`. -/
theorem msg1_ridx (e : Fin 80000) (ch : Fin 128) (k : Fin 2) : ridx_main_v19 (ix2 e ch) k = ix2 k ch :=
  funext fun a => Fin.ext (by match a with | ⟨0, _⟩ => rfl | ⟨1, _⟩ => rfl)
/-- Every edge reads the one bias row. -/
theorem msg1_bidx (e : Fin 80000) (ch : Fin 128) : idx_main_v21 (ix2 e ch) = ix2 0 ch :=
  funext fun a => Fin.ext (by match a with | ⟨0, _⟩ => rfl | ⟨1, _⟩ => rfl)
/-- The bias row at channel `ch` is the bias vector at `ch`. -/
theorem msg1_vidx (r : Fin 1) (ch : Fin 128) : idx_main_v20 (ix2 r ch) = ix1 ch :=
  funext fun a => Fin.ext (by match a with | ⟨0, _⟩ => rfl)

/-- Layer 1's messages in the reference: `relu (rel @ W_in + b_in) * x[src]` is `Geo.edgeMsg` of the relative positions,
    the gathered features, the weights and the bias read as a row. -/
theorem msg1_eq (x0 : (⟨S10000x128, .f32⟩ : BufTy).Contents (Elt Ideal)) (x1 : (⟨S10000x2, .f32⟩ : BufTy).Contents (Elt Ideal)) (x2 : (⟨S2x80000, .i32⟩ : BufTy).Contents (Elt Ideal)) (x3 : (⟨S2x128, .f32⟩ : BufTy).Contents (Elt Ideal)) (x4 : (⟨S128, .f32⟩ : BufTy).Contents (Elt Ideal)) :
    val_main_v31 (F := Ideal) x0 x1 x2 x3 x4
      = Cert.Geo.edgeMsg (E := 80000) (C := 128) (val_main_v18 (F := Ideal) x1 x2) (val_main_v30 (F := Ideal) x0 x2) x3 (Cert.Geo.rowOf x4) := by
  funext i
  obtain ⟨e, ch, rfl⟩ : ∃ (e : Fin 80000) (ch : Fin 128), i = ix2 e ch := ⟨i 0, i 1, eq_ix2 i⟩
  -- the product of the rectified affine image with the gathered feature, stage by stage
  rw [val_main_v31_apply, val_main_v23_apply, val_main_v22_apply, val_main_v19_apply, val_main_v21_apply,
    val_main_v20_apply, val_main_call0_v0_apply, val_main_call0_cst_apply, Cert.Geo.edgeMsg_apply, Cert.Geo.rowOf_apply]
  generalize val_main_v18 (F := Ideal) x1 x2 = rel
  generalize val_main_v30 (F := Ideal) x0 x2 = xs
  -- the contraction over the two coordinates is the two-term sum; the zero word is 0
  rw [Fin.sum_univ_two, msg1_bidx, msg1_vidx]
  simp only [msg1_lidx, msg1_ridx, Ideal.mulf_def, Ideal.addf_def, Ideal.maximumf_def, Ideal.ofBits_def, Ideal.ofBits_zero_f32]

/-- The contraction of node `n`'s aggregate against channel `ch` reads the aggregate at `(n, k)`. -/
theorem h1_lidx (n : Fin 10000) (ch : Fin 2048) (k : Fin 128) : lidx_main_v35 (ix2 n ch) k = ix2 n k :=
  funext fun a => Fin.ext (by match a with | ⟨0, _⟩ => rfl | ⟨1, _⟩ => rfl)
/-- … and the weight at `(k, ch)`. -/
theorem h1_ridx (n : Fin 10000) (ch : Fin 2048) (k : Fin 128) : ridx_main_v35 (ix2 n ch) k = ix2 k ch :=
  funext fun a => Fin.ext (by match a with | ⟨0, _⟩ => rfl | ⟨1, _⟩ => rfl)
/-- Every node reads the one bias row. -/
theorem h1_bidx (n : Fin 10000) (ch : Fin 2048) : idx_main_v37 (ix2 n ch) = ix2 0 ch :=
  funext fun a => Fin.ext (by match a with | ⟨0, _⟩ => rfl | ⟨1, _⟩ => rfl)
/-- The bias row at channel `ch` is the bias vector at `ch`. -/
theorem h1_vidx (r : Fin 1) (ch : Fin 2048) : idx_main_v36 (ix2 r ch) = ix1 ch :=
  funext fun a => Fin.ext (by match a with | ⟨0, _⟩ => rfl)

/-- Layer 1's node outputs in the reference: `relu (agg @ W_out + b_out)` is `Geo.nodeOut` of the aggregate. -/
theorem h1_eq (x0 : (⟨S10000x128, .f32⟩ : BufTy).Contents (Elt Ideal)) (x1 : (⟨S10000x2, .f32⟩ : BufTy).Contents (Elt Ideal)) (x2 : (⟨S2x80000, .i32⟩ : BufTy).Contents (Elt Ideal)) (x3 : (⟨S2x128, .f32⟩ : BufTy).Contents (Elt Ideal)) (x4 : (⟨S128, .f32⟩ : BufTy).Contents (Elt Ideal)) (x5 : (⟨S128x2048, .f32⟩ : BufTy).Contents (Elt Ideal)) (x6 : (⟨S2048, .f32⟩ : BufTy).Contents (Elt Ideal)) :
    val_main_v39 (F := Ideal) x0 x1 x2 x3 x4 x5 x6
      = Cert.Geo.nodeOut (N := 10000) (K := 128) (C := 2048) (val_main_v34 (F := Ideal) x0 x1 x2 x3 x4) x5 (Cert.Geo.rowOf x6) := by
  funext i
  obtain ⟨n, ch, rfl⟩ : ∃ (n : Fin 10000) (ch : Fin 2048), i = ix2 n ch := ⟨i 0, i 1, eq_ix2 i⟩
  -- the rectified affine image of the aggregate, stage by stage; the contraction stays a sum over k
  rw [val_main_v39_apply, val_main_v38_apply, val_main_v35_apply, val_main_v37_apply,
    val_main_v36_apply, val_main_call1_v0_apply, val_main_call1_cst_apply, Cert.Geo.nodeOut_apply, Cert.Geo.rowOf_apply]
  generalize val_main_v34 (F := Ideal) x0 x1 x2 x3 x4 = agg
  rw [h1_bidx, h1_vidx]
  simp only [h1_lidx, h1_ridx, Ideal.addf_def, Ideal.maximumf_def, Ideal.ofBits_def, Ideal.ofBits_zero_f32]

/-- The contraction of edge `e`'s two coordinates against channel `ch` reads the relative position at `(e, k)`. -/
theorem msg2_lidx (e : Fin 80000) (ch : Fin 2048) (k : Fin 2) : lidx_main_v55 (ix2 e ch) k = ix2 e k :=
  funext fun a => Fin.ext (by match a with | ⟨0, _⟩ => rfl | ⟨1, _⟩ => rfl)
/-- … and the weight at `(k, ch)`. -/
theorem msg2_ridx (e : Fin 80000) (ch : Fin 2048) (k : Fin 2) : ridx_main_v55 (ix2 e ch) k = ix2 k ch :=
  funext fun a => Fin.ext (by match a with | ⟨0, _⟩ => rfl | ⟨1, _⟩ => rfl)
/-- Every edge reads the one bias row. -/
theorem msg2_bidx (e : Fin 80000) (ch : Fin 2048) : idx_main_v57 (ix2 e ch) = ix2 0 ch :=
  funext fun a => Fin.ext (by match a with | ⟨0, _⟩ => rfl | ⟨1, _⟩ => rfl)
/-- The bias row at channel `ch` is the bias vector at `ch`. -/
theorem msg2_vidx (r : Fin 1) (ch : Fin 2048) : idx_main_v56 (ix2 r ch) = ix1 ch :=
  funext fun a => Fin.ext (by match a with | ⟨0, _⟩ => rfl)

/-- Layer 2's messages in the reference. -/
theorem msg2_eq (x0 : (⟨S10000x128, .f32⟩ : BufTy).Contents (Elt Ideal)) (x1 : (⟨S10000x2, .f32⟩ : BufTy).Contents (Elt Ideal)) (x2 : (⟨S2x80000, .i32⟩ : BufTy).Contents (Elt Ideal)) (x3 : (⟨S2x128, .f32⟩ : BufTy).Contents (Elt Ideal)) (x4 : (⟨S128, .f32⟩ : BufTy).Contents (Elt Ideal)) (x5 : (⟨S128x2048, .f32⟩ : BufTy).Contents (Elt Ideal)) (x6 : (⟨S2048, .f32⟩ : BufTy).Contents (Elt Ideal)) (x7 : (⟨S2x2048, .f32⟩ : BufTy).Contents (Elt Ideal)) (x8 : (⟨S2048, .f32⟩ : BufTy).Contents (Elt Ideal)) :
    val_main_v67 (F := Ideal) x0 x1 x2 x3 x4 x5 x6 x7 x8
      = Cert.Geo.edgeMsg (E := 80000) (C := 2048) (val_main_v54 (F := Ideal) x1 x2) (val_main_v66 (F := Ideal) x0 x1 x2 x3 x4 x5 x6) x7 (Cert.Geo.rowOf x8) := by
  funext i
  obtain ⟨e, ch, rfl⟩ : ∃ (e : Fin 80000) (ch : Fin 2048), i = ix2 e ch := ⟨i 0, i 1, eq_ix2 i⟩
  -- the product of the rectified affine image with the gathered feature, stage by stage
  rw [val_main_v67_apply, val_main_v59_apply, val_main_v58_apply, val_main_v55_apply, val_main_v57_apply,
    val_main_v56_apply, val_main_call2_v0_apply, val_main_call2_cst_apply, Cert.Geo.edgeMsg_apply, Cert.Geo.rowOf_apply]
  generalize val_main_v54 (F := Ideal) x1 x2 = rel
  generalize val_main_v66 (F := Ideal) x0 x1 x2 x3 x4 x5 x6 = xs
  -- the contraction over the two coordinates is the two-term sum; the zero word is 0
  rw [Fin.sum_univ_two, msg2_bidx, msg2_vidx]
  simp only [msg2_lidx, msg2_ridx, Ideal.mulf_def, Ideal.addf_def, Ideal.maximumf_def, Ideal.ofBits_def, Ideal.ofBits_zero_f32]

/-- The contraction of node `n`'s aggregate against channel `ch` reads the aggregate at `(n, k)`. -/
theorem h2_lidx (n : Fin 10000) (ch : Fin 2048) (k : Fin 2048) : lidx_main_v71 (ix2 n ch) k = ix2 n k :=
  funext fun a => Fin.ext (by match a with | ⟨0, _⟩ => rfl | ⟨1, _⟩ => rfl)
/-- … and the weight at `(k, ch)`. -/
theorem h2_ridx (n : Fin 10000) (ch : Fin 2048) (k : Fin 2048) : ridx_main_v71 (ix2 n ch) k = ix2 k ch :=
  funext fun a => Fin.ext (by match a with | ⟨0, _⟩ => rfl | ⟨1, _⟩ => rfl)
/-- Every node reads the one bias row. -/
theorem h2_bidx (n : Fin 10000) (ch : Fin 2048) : idx_main_v73 (ix2 n ch) = ix2 0 ch :=
  funext fun a => Fin.ext (by match a with | ⟨0, _⟩ => rfl | ⟨1, _⟩ => rfl)
/-- The bias row at channel `ch` is the bias vector at `ch`. -/
theorem h2_vidx (r : Fin 1) (ch : Fin 2048) : idx_main_v72 (ix2 r ch) = ix1 ch :=
  funext fun a => Fin.ext (by match a with | ⟨0, _⟩ => rfl)

/-- Layer 2's node outputs in the reference. -/
theorem h2_eq (x0 : (⟨S10000x128, .f32⟩ : BufTy).Contents (Elt Ideal)) (x1 : (⟨S10000x2, .f32⟩ : BufTy).Contents (Elt Ideal)) (x2 : (⟨S2x80000, .i32⟩ : BufTy).Contents (Elt Ideal)) (x3 : (⟨S2x128, .f32⟩ : BufTy).Contents (Elt Ideal)) (x4 : (⟨S128, .f32⟩ : BufTy).Contents (Elt Ideal)) (x5 : (⟨S128x2048, .f32⟩ : BufTy).Contents (Elt Ideal)) (x6 : (⟨S2048, .f32⟩ : BufTy).Contents (Elt Ideal)) (x7 : (⟨S2x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) :
    val_main_v75 (F := Ideal) x0 x1 x2 x3 x4 x5 x6 x7 x8 x9 x10
      = Cert.Geo.nodeOut (N := 10000) (K := 2048) (C := 2048) (val_main_v70 (F := Ideal) x0 x1 x2 x3 x4 x5 x6 x7 x8) x9 (Cert.Geo.rowOf x10) := by
  funext i
  obtain ⟨n, ch, rfl⟩ : ∃ (n : Fin 10000) (ch : Fin 2048), i = ix2 n ch := ⟨i 0, i 1, eq_ix2 i⟩
  -- the rectified affine image of the aggregate, stage by stage; the contraction stays a sum over k
  rw [val_main_v75_apply, val_main_v74_apply, val_main_v71_apply, val_main_v73_apply,
    val_main_v72_apply, val_main_call3_v0_apply, val_main_call3_cst_apply, Cert.Geo.nodeOut_apply, Cert.Geo.rowOf_apply]
  generalize val_main_v70 (F := Ideal) x0 x1 x2 x3 x4 x5 x6 x7 x8 = agg
  rw [h2_bidx, h2_vidx]
  simp only [h2_lidx, h2_ridx, Ideal.addf_def, Ideal.maximumf_def, Ideal.ofBits_def, Ideal.ofBits_zero_f32]

/-- The contraction of edge `e`'s two coordinates against channel `ch` reads the relative position at `(e, k)`. -/
theorem msg3_lidx (e : Fin 80000) (ch : Fin 2048) (k : Fin 2) : lidx_main_v91 (ix2 e ch) k = ix2 e k :=
  funext fun a => Fin.ext (by match a with | ⟨0, _⟩ => rfl | ⟨1, _⟩ => rfl)
/-- … and the weight at `(k, ch)`. -/
theorem msg3_ridx (e : Fin 80000) (ch : Fin 2048) (k : Fin 2) : ridx_main_v91 (ix2 e ch) k = ix2 k ch :=
  funext fun a => Fin.ext (by match a with | ⟨0, _⟩ => rfl | ⟨1, _⟩ => rfl)
/-- Every edge reads the one bias row. -/
theorem msg3_bidx (e : Fin 80000) (ch : Fin 2048) : idx_main_v93 (ix2 e ch) = ix2 0 ch :=
  funext fun a => Fin.ext (by match a with | ⟨0, _⟩ => rfl | ⟨1, _⟩ => rfl)
/-- The bias row at channel `ch` is the bias vector at `ch`. -/
theorem msg3_vidx (r : Fin 1) (ch : Fin 2048) : idx_main_v92 (ix2 r ch) = ix1 ch :=
  funext fun a => Fin.ext (by match a with | ⟨0, _⟩ => rfl)

/-- Layer 3's messages in the reference. -/
theorem msg3_eq (x0 : (⟨S10000x128, .f32⟩ : BufTy).Contents (Elt Ideal)) (x1 : (⟨S10000x2, .f32⟩ : BufTy).Contents (Elt Ideal)) (x2 : (⟨S2x80000, .i32⟩ : BufTy).Contents (Elt Ideal)) (x3 : (⟨S2x128, .f32⟩ : BufTy).Contents (Elt Ideal)) (x4 : (⟨S128, .f32⟩ : BufTy).Contents (Elt Ideal)) (x5 : (⟨S128x2048, .f32⟩ : BufTy).Contents (Elt Ideal)) (x6 : (⟨S2048, .f32⟩ : BufTy).Contents (Elt Ideal)) (x7 : (⟨S2x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2x2048, .f32⟩ : BufTy).Contents (Elt Ideal)) (x12 : (⟨S2048, .f32⟩ : BufTy).Contents (Elt Ideal)) :
    val_main_v103 (F := Ideal) x0 x1 x2 x3 x4 x5 x6 x7 x8 x9 x10 x11 x12
      = Cert.Geo.edgeMsg (E := 80000) (C := 2048) (val_main_v90 (F := Ideal) x1 x2) (val_main_v102 (F := Ideal) x0 x1 x2 x3 x4 x5 x6 x7 x8 x9 x10) x11 (Cert.Geo.rowOf x12) := by
  funext i
  obtain ⟨e, ch, rfl⟩ : ∃ (e : Fin 80000) (ch : Fin 2048), i = ix2 e ch := ⟨i 0, i 1, eq_ix2 i⟩
  -- the product of the rectified affine image with the gathered feature, stage by stage
  rw [val_main_v103_apply, val_main_v95_apply, val_main_v94_apply, val_main_v91_apply, val_main_v93_apply,
    val_main_v92_apply, val_main_call4_v0_apply, val_main_call4_cst_apply, Cert.Geo.edgeMsg_apply, Cert.Geo.rowOf_apply]
  generalize val_main_v90 (F := Ideal) x1 x2 = rel
  generalize val_main_v102 (F := Ideal) x0 x1 x2 x3 x4 x5 x6 x7 x8 x9 x10 = xs
  -- the contraction over the two coordinates is the two-term sum; the zero word is 0
  rw [Fin.sum_univ_two, msg3_bidx, msg3_vidx]
  simp only [msg3_lidx, msg3_ridx, Ideal.mulf_def, Ideal.addf_def, Ideal.maximumf_def, Ideal.ofBits_def, Ideal.ofBits_zero_f32]

/-- The contraction of node `n`'s aggregate against channel `ch` reads the aggregate at `(n, k)`. -/
theorem h3_lidx (n : Fin 10000) (ch : Fin 1024) (k : Fin 2048) : lidx_main_v107 (ix2 n ch) k = ix2 n k :=
  funext fun a => Fin.ext (by match a with | ⟨0, _⟩ => rfl | ⟨1, _⟩ => rfl)
/-- … and the weight at `(k, ch)`. -/
theorem h3_ridx (n : Fin 10000) (ch : Fin 1024) (k : Fin 2048) : ridx_main_v107 (ix2 n ch) k = ix2 k ch :=
  funext fun a => Fin.ext (by match a with | ⟨0, _⟩ => rfl | ⟨1, _⟩ => rfl)
/-- Every node reads the one bias row. -/
theorem h3_bidx (n : Fin 10000) (ch : Fin 1024) : idx_main_v109 (ix2 n ch) = ix2 0 ch :=
  funext fun a => Fin.ext (by match a with | ⟨0, _⟩ => rfl | ⟨1, _⟩ => rfl)
/-- The bias row at channel `ch` is the bias vector at `ch`. -/
theorem h3_vidx (r : Fin 1) (ch : Fin 1024) : idx_main_v108 (ix2 r ch) = ix1 ch :=
  funext fun a => Fin.ext (by match a with | ⟨0, _⟩ => rfl)

/-- Layer 3's node outputs in the reference, before the normalization. -/
theorem h3_eq (x0 : (⟨S10000x128, .f32⟩ : BufTy).Contents (Elt Ideal)) (x1 : (⟨S10000x2, .f32⟩ : BufTy).Contents (Elt Ideal)) (x2 : (⟨S2x80000, .i32⟩ : BufTy).Contents (Elt Ideal)) (x3 : (⟨S2x128, .f32⟩ : BufTy).Contents (Elt Ideal)) (x4 : (⟨S128, .f32⟩ : BufTy).Contents (Elt Ideal)) (x5 : (⟨S128x2048, .f32⟩ : BufTy).Contents (Elt Ideal)) (x6 : (⟨S2048, .f32⟩ : BufTy).Contents (Elt Ideal)) (x7 : (⟨S2x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2x2048, .f32⟩ : BufTy).Contents (Elt Ideal)) (x12 : (⟨S2048, .f32⟩ : BufTy).Contents (Elt Ideal)) (x13 : (⟨S2048x1024, .f32⟩ : BufTy).Contents (Elt Ideal)) (x14 : (⟨S1024, .f32⟩ : BufTy).Contents (Elt Ideal)) :
    val_main_v111 (F := Ideal) x0 x1 x2 x3 x4 x5 x6 x7 x8 x9 x10 x11 x12 x13 x14
      = Cert.Geo.nodeOut (N := 10000) (K := 2048) (C := 1024) (val_main_v106 (F := Ideal) x0 x1 x2 x3 x4 x5 x6 x7 x8 x9 x10 x11 x12) x13 (Cert.Geo.rowOf x14) := by
  funext i
  obtain ⟨n, ch, rfl⟩ : ∃ (n : Fin 10000) (ch : Fin 1024), i = ix2 n ch := ⟨i 0, i 1, eq_ix2 i⟩
  -- the rectified affine image of the aggregate, stage by stage; the contraction stays a sum over k
  rw [val_main_v111_apply, val_main_v110_apply, val_main_v107_apply, val_main_v109_apply,
    val_main_v108_apply, val_main_call5_v0_apply, val_main_call5_cst_apply, Cert.Geo.nodeOut_apply, Cert.Geo.rowOf_apply]
  generalize val_main_v106 (F := Ideal) x0 x1 x2 x3 x4 x5 x6 x7 x8 x9 x10 x11 x12 = agg
  rw [h3_bidx, h3_vidx]
  simp only [h3_lidx, h3_ridx, Ideal.addf_def, Ideal.maximumf_def, Ideal.ofBits_def, Ideal.ofBits_zero_f32]

/-- Every channel of node `n` divides by the one norm entry of row `n`. -/
theorem out_nidx (n : Fin 10000) (ch : Fin 1024) : idx_main_v115 (ix2 n ch) = ix2 n 0 :=
  funext fun a => Fin.ext (by match a with | ⟨0, _⟩ => rfl | ⟨1, _⟩ => rfl)
/-- The norm column at row `n` is the vector of row sums at `n`. -/
theorem out_ridx (n : Fin 10000) (r : Fin 1) : idx_main_call6_v2 (ix2 n r) = ix1 n :=
  funext fun a => Fin.ext (by match a with | ⟨0, _⟩ => rfl)
/-- The row sum at `n` runs over the entries `(n, k)`. -/
theorem out_kidx (n : Fin 10000) (k : Fin 1024) : idx_main_call6_v1 (ix1 n) k = ix2 n k :=
  funext fun a => Fin.ext (by match a with | ⟨0, _⟩ => rfl | ⟨1, _⟩ => rfl)

/-- The reference's result: layer 3's node outputs, each row over the larger of its norm and the floor literal. -/
theorem out_eq (x0 : (⟨S10000x128, .f32⟩ : BufTy).Contents (Elt Ideal)) (x1 : (⟨S10000x2, .f32⟩ : BufTy).Contents (Elt Ideal)) (x2 : (⟨S2x80000, .i32⟩ : BufTy).Contents (Elt Ideal)) (x3 : (⟨S2x128, .f32⟩ : BufTy).Contents (Elt Ideal)) (x4 : (⟨S128, .f32⟩ : BufTy).Contents (Elt Ideal)) (x5 : (⟨S128x2048, .f32⟩ : BufTy).Contents (Elt Ideal)) (x6 : (⟨S2048, .f32⟩ : BufTy).Contents (Elt Ideal)) (x7 : (⟨S2x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2x2048, .f32⟩ : BufTy).Contents (Elt Ideal)) (x12 : (⟨S2048, .f32⟩ : BufTy).Contents (Elt Ideal)) (x13 : (⟨S2048x1024, .f32⟩ : BufTy).Contents (Elt Ideal)) (x14 : (⟨S1024, .f32⟩ : BufTy).Contents (Elt Ideal)) :
    val_main_v116 (F := Ideal) x0 x1 x2 x3 x4 x5 x6 x7 x8 x9 x10 x11 x12 x13 x14
      = Cert.Geo.rowNormalize Cert.Geo.normFloor
          (Cert.Geo.nodeOut (N := 10000) (K := 2048) (C := 1024) (val_main_v106 (F := Ideal) x0 x1 x2 x3 x4 x5 x6 x7 x8 x9 x10 x11 x12) x13 (Cert.Geo.rowOf x14)) := by
  funext i
  obtain ⟨n, ch, rfl⟩ : ∃ (n : Fin 10000) (ch : Fin 1024), i = ix2 n ch := ⟨i 0, i 1, eq_ix2 i⟩
  -- the quotient of the entry by the larger of the row's norm and the floor literal, stage by stage
  rw [val_main_v116_apply, val_main_v115_apply, out_nidx, val_main_v114_apply, val_main_v112_apply, val_main_v113_apply,
    val_main_cst_19_apply, val_main_call6_v2_apply, out_ridx, val_main_call6_v1_apply, val_main_call6_cst_apply,
    Cert.Geo.rowNormalize_apply]
  simp only [out_kidx, val_main_call6_v0_apply]
  -- every entry of the layer's output is the node function's; from here it is one opaque array
  rw [h3_eq]
  generalize Cert.Geo.nodeOut (N := 10000) (K := 2048) (C := 1024) (val_main_v106 (F := Ideal) x0 x1 x2 x3 x4 x5 x6 x7 x8 x9 x10 x11 x12) x13 (Cert.Geo.rowOf x14) = h
  -- the sum of squares starts from the zero word, which is 0
  simp only [Ideal.hostDivf_def, Ideal.hostUnary_sqrt_def, Ideal.mulf_def, Ideal.maximumf_def, Ideal.ofBits_def,
    Ideal.ofBits_zero_f32, zero_add]

end Cert.ReferenceIdeal.Stages

end
-- ==== Proof.RegionEdge0.lean ====
import proofs.«412862_j81758997447248_1_alg».proof.Proof.Gen.KernelIdeal.Frame
import proofs.«412862_j81758997447248_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at one edge and channel -/

/-- A one-column array spread over `b` columns reads, at `(p, c)`, the operand's one column at row `p`. -/
theorem edge0_col_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The value the body stores, at row `r` and channel `ch` of a block: the two columns of the relative positions
    against the two weight rows, plus the bias, rectified at zero (the zero word is the real 0), times the gathered
    feature (its change of float format is the identity on extended reals). -/
theorem edge0_pay_apply (x0 : Vec Ideal S400x2 .f32) (w0 w1 b : Vec Ideal S1x128 .f32) (x1 : Vec Ideal S400x128 .bf16)
    (r : Fin 400) (ch : Fin 128) :
    k0_pay1 (F := Ideal) x0 w0 w1 b x1 (ix2 r ch)
      = max (x0 (ix2 r 0) * w0 (ix2 0 ch) + x0 (ix2 r 1) * w1 (ix2 0 ch) + b (ix2 0 ch)) 0 * x1 (ix2 r ch) := by
  unfold k0_pay1
  simp only [shapeCast_self]
  simp only [mulf_apply, addf_apply, maximumf_apply, extf_apply, broadcast_apply, broadcastTo_1b_ab_apply,
    edge0_col_broadcast_apply, slice2_axis1_eq]
  have hzero : (FloatOps.ofBits (F := Ideal) FTy.f32 0#32 : EReal) = 0 := Ideal.ofBits_zero_f32
  rw [hzero]
  rfl

/-! ## The windows' index maps over the grid -/

theorem edge0_hz : (![0, 0] : Fin 2 → Nat) = fun _ => 0 := funext fun a => by fin_cases a <;> rfl

/-- The windows' block indices at every grid point: the blocks of the relative positions and of the gathered features
    move with the output's along the edges, the weights and the bias stay at their one block, and the output's block
    index stays below 200. -/
theorem edge0_idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 199 :=
  (by decide +kernel : ∀ t : Fin grid0.N, _)

/-- Every block of 400 edges is some point's. -/
theorem edge0_idx_onto : ∀ q : Fin 200, ∃ t : Fin cfg0.N, win0_4.index t = ![q.val, 0] :=
  (by decide +kernel : ∀ q : Fin 200, ∃ t : Fin grid0.N, win0_4.index t = ![q.val, 0])

/-! ## Each input block as rows of its array -/

/-- The arrays the region finds in its four input windows, at their literal types. -/
abbrev edge0_rel (c : Dev nD) : Vec Ideal S80000x2 .f32 := V c main_v6
abbrev edge0_xs (c : Dev nD) : Vec Ideal S80000x128 .bf16 := V c main_v8
abbrev edge0_w (c : Dev nD) : Vec Ideal S2x128 .f32 := V c main_arg3
abbrev edge0_b (c : Dev nD) : Vec Ideal S1x128 .f32 := V c main_v9

/-- The block of relative positions at point `t` is rows `400·q … 400·q + 399` of the array, `q` the output's block
    index: row `r` of the block is edge `e = 400·q + r`. -/
theorem edge0_rel_blk (c : Dev nD) (t : Fin cfg0.N) (r : Fin 400) (k : Fin 2) (e : Fin 80000)
    (he : e.val = win0_4.index t (0 : Fin 2) * 400 + r.val) :
    (iblk0 (F := Ideal) V c 0 t : Vec Ideal S400x2 .f32) (ix2 r k) = edge0_rel V c (ix2 e k) := by
  obtain ⟨e0, e1, -⟩ := edge0_idx_facts t
  unfold iblk0
  rw [View.read_apply]
  show V c main_v6 _ = V c main_v6 _
  congr 1
  funext a
  apply Fin.ext
  match a with
  | ⟨0, _⟩ => show win0_0.index t (0 : Fin 2) * 400 + 1 * r.val = e.val; omega
  | ⟨1, _⟩ => show win0_0.index t (1 : Fin 2) * 2 + 1 * k.val = k.val; omega

/-- The block of gathered features at point `t` is the same rows of its array. -/
theorem edge0_xs_blk (c : Dev nD) (t : Fin cfg0.N) (r : Fin 400) (ch : Fin 128) (e : Fin 80000)
    (he : e.val = win0_4.index t (0 : Fin 2) * 400 + r.val) :
    (iblk0 (F := Ideal) V c 1 t : Vec Ideal S400x128 .bf16) (ix2 r ch) = edge0_xs V c (ix2 e ch) := by
  obtain ⟨-, -, e2, e3, -⟩ := edge0_idx_facts t
  unfold iblk0
  rw [View.read_apply]
  show V c main_v8 _ = V c main_v8 _
  congr 1
  funext a
  apply Fin.ext
  match a with
  | ⟨0, _⟩ => show win0_1.index t (0 : Fin 2) * 400 + 1 * r.val = e.val; omega
  | ⟨1, _⟩ => show win0_1.index t (1 : Fin 2) * 128 + 1 * ch.val = ch.val; omega

/-- The weights' block at every point is the whole two-row array. -/
theorem edge0_w_blk (c : Dev nD) (t : Fin cfg0.N) (k : Fin 2) (ch : Fin 128) :
    (iblk0 (F := Ideal) V c 2 t : Vec Ideal S2x128 .f32) (ix2 k ch) = edge0_w V c (ix2 k ch) := by
  obtain ⟨-, -, -, -, e4, e5, -⟩ := edge0_idx_facts t
  unfold iblk0
  rw [View.read_apply]
  show V c main_arg3 _ = V c main_arg3 _
  congr 1
  funext a
  apply Fin.ext
  match a with
  | ⟨0, _⟩ => show win0_2.index t (0 : Fin 2) * 2 + 1 * k.val = k.val; omega
  | ⟨1, _⟩ => show win0_2.index t (1 : Fin 2) * 128 + 1 * ch.val = ch.val; omega

/-- So is the bias row's block the whole one-row array. -/
theorem edge0_b_blk (c : Dev nD) (t : Fin cfg0.N) (k : Fin 1) (ch : Fin 128) :
    (iblk0 (F := Ideal) V c 3 t : Vec Ideal S1x128 .f32) (ix2 k ch) = edge0_b V c (ix2 k ch) := by
  obtain ⟨-, -, -, -, -, -, e6, e7, -⟩ := edge0_idx_facts t
  unfold iblk0
  rw [View.read_apply]
  show V c main_v9 _ = V c main_v9 _
  congr 1
  funext a
  apply Fin.ext
  match a with
  | ⟨0, _⟩ => show win0_3.index t (0 : Fin 2) * 1 + 1 * k.val = k.val; omega
  | ⟨1, _⟩ => show win0_3.index t (1 : Fin 2) * 128 + 1 * ch.val = ch.val; omega

/-- Row 0 of a two-row block, loaded as a one-row vector, at channel `ch`. -/
theorem edge0_ld_row0 (x : Vec Ideal S2x128 .f32) (ch : Fin 128) :
    (View.ld x r0_1 : Vec Ideal S1x128 .f32) (ix2 0 ch) = x (ix2 0 ch) := by
  show x (r0_1.idx (ix2 0 ch)) = x (ix2 0 ch)
  congr 1
  funext a
  apply Fin.ext
  match a with
  | ⟨0, _⟩ => rfl
  | ⟨1, _⟩ => show 0 + 1 * ch.val = ch.val; omega

/-- Row 1 of it: the load's rectangle starts one row down. -/
theorem edge0_ld_row1 (x : Vec Ideal S2x128 .f32) (ch : Fin 128) :
    (View.ld x r0_2 : Vec Ideal S1x128 .f32) (ix2 0 ch) = x (ix2 1 ch) := by
  show x (r0_2.idx (ix2 0 ch)) = x (ix2 1 ch)
  congr 1
  funext a
  apply Fin.ext
  match a with
  | ⟨0, _⟩ => rfl
  | ⟨1, _⟩ => show 0 + 1 * ch.val = ch.val; omega

/-! ## From blocks to the array -/

/-- What point `t` writes back is block `t` of the edge messages over the arrays the region finds: the one store
    covers the staging buffer, its payload at row `r` and channel `ch` is the message's formula over the input blocks,
    and each input block's entry is its array's entry at edge `400·q + r`, where the output's block lies. -/
theorem edge0_flushed_eq (c : Dev nD) (t : Fin cfg0.N) :
    (dat0 (F := Ideal) V c).flushed 4 t
      = ((cfg0.win 4).blk t).view.read (Elt Ideal)
          (Cert.Geo.edgeMsg (E := 80000) (C := 128) (V c main_v6) (V c main_v8) (V c main_arg3) (V c main_v9)) := by
  show (cfg0.win 4).cut (grid0.coords t) ((dat0 V c).after 4 t) = _
  rw [after0_4]
  unfold out0_4
  rw [View.canon_unit_zero edge0_hz]
  simp only [View.ld_unit_zero (S := S400x2) edge0_hz, View.ld_unit_zero (S := S1x128) edge0_hz,
    View.ld_unit_zero (S := S400x128) edge0_hz]
  obtain ⟨-, -, -, -, -, -, -, -, e8, e9⟩ := edge0_idx_facts t
  funext j
  obtain ⟨r, ch, rfl⟩ : ∃ (r : Fin 400) (ch : Fin 128), j = ix2 r ch := ⟨j 0, j 1, eq_ix2 j⟩
  refine (edge0_pay_apply (iblk0 V c 0 t) (View.ld (iblk0 V c 2 t) r0_1) (View.ld (iblk0 V c 2 t) r0_2) (iblk0 V c 3 t)
    (iblk0 V c 1 t) r ch).trans ?_
  obtain ⟨e, he⟩ : ∃ e : Fin 80000, e.val = win0_4.index t (0 : Fin 2) * 400 + r.val :=
    ⟨⟨win0_4.index t (0 : Fin 2) * 400 + r.val, by have := r.isLt; omega⟩, rfl⟩
  have hemb : ((cfg0.win 4).blk t).view.emb (ix2 r ch) = (ix2 e ch : S80000x128.Idx) := by
    funext a
    apply Fin.ext
    match a with
    | ⟨0, _⟩ => show win0_4.index t (0 : Fin 2) * 400 + 1 * r.val = e.val; omega
    | ⟨1, _⟩ => show win0_4.index t (1 : Fin 2) * 128 + 1 * ch.val = ch.val; omega
  rw [View.read_apply]
  show _ = Cert.Geo.edgeMsg (E := 80000) (C := 128) (edge0_rel V c) (edge0_xs V c) (edge0_w V c) (edge0_b V c)
    (((cfg0.win 4).blk t).view.emb (ix2 r ch))
  rw [hemb, Cert.Geo.edgeMsg_apply]
  rw [edge0_rel_blk V c t r 0 e he, edge0_rel_blk V c t r 1 e he, edge0_ld_row0, edge0_ld_row1, edge0_w_blk, edge0_w_blk,
    edge0_b_blk, edge0_xs_blk V c t r ch e he]

/-- An edge-and-channel index is in point `t`'s block iff each coordinate is in the block's range on its axis. -/
theorem edge0_mem_blk (t : Fin cfg0.N) (i : S80000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v10).slice (win0_4.rect t)).set ↔ _
  rw [View.set_slice_whole, Rect.mem_set_unit]
  exact Iff.rfl

/-- Every edge is in some point's block, and every point writes back: edge `e` is in the block of index `e / 400`. -/
theorem edge0_cover (i : S80000x128.Idx) :
    ∃ t : Fin cfg0.N, (cfg0.win 4).flush t = true ∧ i ∈ ((cfg0.win 4).blk t).view.set := by
  have hi0 : (i 0).val < 80000 := (i 0).isLt
  have hi1 : (i 1).val < 128 := (i 1).isLt
  obtain ⟨t, ht⟩ := edge0_idx_onto ⟨(i 0).val / 400, by omega⟩
  have q0 : win0_4.index t (0 : Fin 2) = (i 0).val / 400 := congrFun ht 0
  have q1 : win0_4.index t (1 : Fin 2) = 0 := congrFun ht 1
  refine ⟨t, flush0_4 t, ?_⟩
  rw [edge0_mem_blk]
  intro a
  match a with
  | ⟨0, _⟩ =>
    show win0_4.index t (0 : Fin 2) * 400 ≤ (i 0).val ∧ (i 0).val < win0_4.index t (0 : Fin 2) * 400 + 400
    omega
  | ⟨1, _⟩ =>
    show win0_4.index t (1 : Fin 2) * 128 ≤ (i 1).val ∧ (i 1).val < win0_4.index t (1 : Fin 2) * 128 + 128
    omega

/-- What the edge region leaves in its output array: on every edge and channel, the message of `Geo.edgeMsg` over the
    arrays the region finds in its four input windows. -/
theorem region0_value (c : Dev nD) :
    (dat0 (F := Ideal) V c).arrAt 4 cfg0.N
      = Cert.Geo.edgeMsg (E := 80000) (C := 128) (V c main_v6) (V c main_v8) (V c main_arg3) (V c main_v9) :=
  (dat0 (F := Ideal) V c).arrAt_eq_of_cover 4
    (Cert.Geo.edgeMsg (E := 80000) (C := 128) (V c main_v6) (V c main_v8) (V c main_arg3) (V c main_v9))
    (fun t _ => edge0_flushed_eq V c t) edge0_cover

end Cert.KernelIdeal.Val

end
-- ==== Proof.RegionNode1.lean ====
import proofs.«412862_j81758997447248_1_alg».proof.Proof.Gen.KernelIdeal.Frame
import proofs.«412862_j81758997447248_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product of the aggregate block with the weights, at an index -/

/-- The left operand's row is the output's row. -/
theorem lhs_node1_0 (i : S400x2048.Idx) (q : dot_S400x128_S128x2048_S400x2048_1_0_0_1_n_n.contr.Idx) :
    (dot_S400x128_S128x2048_S400x2048_1_0_0_1_n_n.lhsIdx i q 0).val = (i 0).val := by
  unfold DotDims.lhsIdx
  rw [dif_neg (show ¬(0 : Fin S400x128.rank) ∈ dot_S400x128_S128x2048_S400x2048_1_0_0_1_n_n.lhsBatch by decide), dif_pos (show (0 : Fin S400x128.rank) ∈ dot_S400x128_S128x2048_S400x2048_1_0_0_1_n_n.lhsNonContracting by decide)]
  rfl
/-- The left operand's column is the contraction index. -/
theorem lhs_node1_1 (i : S400x2048.Idx) (q : dot_S400x128_S128x2048_S400x2048_1_0_0_1_n_n.contr.Idx) :
    (dot_S400x128_S128x2048_S400x2048_1_0_0_1_n_n.lhsIdx i q 1).val = (q ⟨0, by decide⟩).val :=
  dot_S400x128_S128x2048_S400x2048_1_0_0_1_n_n.lhsIdx_val_of_single rfl i q
/-- The right operand's row is the contraction index. -/
theorem rhs_node1_0 (i : S400x2048.Idx) (q : dot_S400x128_S128x2048_S400x2048_1_0_0_1_n_n.contr.Idx) :
    (dot_S400x128_S128x2048_S400x2048_1_0_0_1_n_n.rhsIdx i q 0).val = (q ⟨0, by decide⟩).val :=
  dot_S400x128_S128x2048_S400x2048_1_0_0_1_n_n.rhsIdx_val_of_single rfl i q
/-- The right operand's column is the output's column. -/
theorem rhs_node1_1 (i : S400x2048.Idx) (q : dot_S400x128_S128x2048_S400x2048_1_0_0_1_n_n.contr.Idx) :
    (dot_S400x128_S128x2048_S400x2048_1_0_0_1_n_n.rhsIdx i q 1).val = (i 1).val := by
  unfold DotDims.rhsIdx
  rw [dif_neg (show ¬(1 : Fin S128x2048.rank) ∈ dot_S400x128_S128x2048_S400x2048_1_0_0_1_n_n.rhsBatch by decide), dif_pos (show (1 : Fin S128x2048.rank) ∈ dot_S400x128_S128x2048_S400x2048_1_0_0_1_n_n.rhsNonContracting by decide)]
  rfl

/-- The matrix product into the zero accumulator, at row `r` and channel `ch`: the sum over the 128 aggregate
    entries of the row against the channel's column of the weights. -/
theorem node1_matmul_apply (a : FVec Ideal S400x128 .bf16) (w : FVec Ideal S128x2048 .bf16) (r : Fin 400) (ch : Fin 2048) :
    matmul dot_S400x128_S128x2048_S400x2048_1_0_0_1_n_n none a w (constant (F := Ideal) S400x2048 .f32 0x00000000#32) (ix2 r ch)
      = ∑ k : Fin 128, a (ix2 r k) * w (ix2 k ch) := by
  show FloatOps.matmul dot_S400x128_S128x2048_S400x2048_1_0_0_1_n_n none a w (constant (F := Ideal) S400x2048 .f32 0x00000000#32) (ix2 r ch) = _
  rw [Ideal.matmul_constant_zero_apply, ← Equiv.sum_comp (ValueIdx.contrEquiv1 dot_S400x128_S128x2048_S400x2048_1_0_0_1_n_n 128 rfl rfl).symm]
  refine Finset.sum_congr rfl fun k _ => ?_
  have hk := ValueIdx.contrEquiv1_symm_val dot_S400x128_S128x2048_S400x2048_1_0_0_1_n_n 128 rfl rfl k
  have el : dot_S400x128_S128x2048_S400x2048_1_0_0_1_n_n.lhsIdx (ix2 r ch) ((ValueIdx.contrEquiv1 dot_S400x128_S128x2048_S400x2048_1_0_0_1_n_n 128 rfl rfl).symm k) = ix2 r k := funext fun x => Fin.ext (by
    match x with
    | ⟨0, _⟩ => exact lhs_node1_0 _ _
    | ⟨1, _⟩ => exact (lhs_node1_1 _ _).trans hk)
  have er : dot_S400x128_S128x2048_S400x2048_1_0_0_1_n_n.rhsIdx (ix2 r ch) ((ValueIdx.contrEquiv1 dot_S400x128_S128x2048_S400x2048_1_0_0_1_n_n 128 rfl rfl).symm k) = ix2 k ch := funext fun x => Fin.ext (by
    match x with
    | ⟨0, _⟩ => exact (rhs_node1_0 _ _).trans hk
    | ⟨1, _⟩ => exact rhs_node1_1 _ _)
  rw [el, er]

/-- The bias row broadcast down the 400 rows reads the row's entry of the channel. -/
theorem node1_bias_apply (b : FVec Ideal S1x2048 .f32) (r : Fin 400) (ch : Fin 2048) :
    broadcastTo S400x2048 b broadcasts_S1x2048_S400x2048 (ix2 r ch) = b (ix2 0 ch) :=
  broadcastTo_apply b broadcasts_S1x2048_S400x2048 (ix2 r ch) (ix2 0 ch) (fun x => by
    match x with
    | ⟨0, _⟩ => rfl
    | ⟨1, _⟩ => rfl)

/-- The body's arithmetic at row `r` and channel `ch`: the rectified sum of the product and the bias. -/
theorem node1_payload_apply (a : Vec Ideal S400x128 .bf16) (w : Vec Ideal S128x2048 .bf16) (b : Vec Ideal S1x2048 .f32)
    (r : Fin 400) (ch : Fin 2048) :
    k1_pay1 (F := Ideal) a w b (ix2 r ch) = max ((∑ k : Fin 128, a (ix2 r k) * w (ix2 k ch)) + b (ix2 0 ch)) 0 := by
  unfold k1_pay1
  simp only [shapeCast_self]
  rw [maximumf_apply, addf_apply, broadcast_apply]
  rw [node1_matmul_apply, node1_bias_apply]
  show max _ (Ideal.ofBits .f32 0x00000000#32) = _
  rw [Ideal.ofBits_zero_f32]

/-- The body at row `r` and channel `ch` of a block whose row `r` is node `n` of the aggregate, whose weights are
    the whole weight array and whose bias row is the whole bias row: the node's output in that channel. -/
theorem node1_point_apply (a : Vec Ideal S400x128 .bf16) (w : Vec Ideal S128x2048 .bf16) (b : Vec Ideal S1x2048 .f32)
    (A : Cert.Geo.Mat 10000 128) (W : Cert.Geo.Mat 128 2048) (B : Cert.Geo.Mat 1 2048)
    (r : Fin 400) (ch : Fin 2048) (n : Fin 10000)
    (ha : ∀ k : Fin 128, a (ix2 r k) = A (ix2 n k)) (hw : ∀ k : Fin 128, w (ix2 k ch) = W (ix2 k ch))
    (hb : b (ix2 0 ch) = B (ix2 0 ch)) :
    k1_pay1 (F := Ideal) a w b (ix2 r ch) = Cert.Geo.nodeOut A W B (ix2 n ch) := by
  rw [node1_payload_apply, Cert.Geo.nodeOut_apply, hb]
  exact congrArg (fun s => max (s + B (ix2 0 ch)) 0) (Finset.sum_congr rfl fun k _ => by rw [ha k, hw k])

/-! ## From the blocks to the array -/

/-- The zero origin of a rank-2 rectangle. -/
theorem node1_origin : (![0, 0] : Fin 2 → Nat) = fun _ => 0 := funext fun a => by fin_cases a <;> rfl

/-- The aggregate the region finds in its first window. -/
abbrev agg1 (c : Dev nD) : Cert.Geo.Mat 10000 128 := V c main_v14
/-- The weights it finds in its second window. -/
abbrev wts1 (c : Dev nD) : Cert.Geo.Mat 128 2048 := V c main_v15
/-- The bias row it finds in its third window. -/
abbrev bias1 (c : Dev nD) : Cert.Geo.Mat 1 2048 := V c main_v16

/-- The index maps over the 25 points: the aggregate's block moves with the output's along the nodes, both stay at
    column block 0, the weights and the bias row stay at block (0, 0), and the output's row block is at most 24. -/
theorem node1_index_facts : ∀ t : Fin cfg1.N,
    win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0
    ∧ win1_3.index t (0 : Fin 2) ≤ 24 :=
  (by decide +kernel : ∀ t : Fin grid1.N, _)

/-- Every row block of the output is some point's. -/
theorem node1_index_onto : ∀ q : Fin 25, ∃ t : Fin cfg1.N, win1_3.index t = ![q.val, 0] :=
  (by decide +kernel : ∀ q : Fin 25, ∃ t : Fin grid1.N, win1_3.index t = ![q.val, 0])

/-- Row `r` of the aggregate's block at point `t` is node `400·(row block) + r` of the aggregate. -/
theorem node1_agg_block (c : Dev nD) (t : Fin cfg1.N) (r : Fin 400) (k : Fin 128) (n : Fin 10000)
    (hn : n.val = win1_3.index t (0 : Fin 2) * 400 + r.val) :
    (iblk1 V c 0 t : Vec Ideal S400x128 .bf16) (ix2 r k) = agg1 V c (ix2 n k) := by
  obtain ⟨e0, e1, -⟩ := node1_index_facts t
  unfold iblk1
  rw [View.read_apply]
  show V c main_v14 _ = V c main_v14 _
  congr 1
  funext a
  apply Fin.ext
  match a with
  | ⟨0, _⟩ => show win1_0.index t (0 : Fin 2) * 400 + 1 * r.val = n.val; rw [e0, hn]; omega
  | ⟨1, _⟩ => show win1_0.index t (1 : Fin 2) * 128 + 1 * k.val = k.val; rw [e1]; omega

/-- The weights' block at every point is the whole weight array. -/
theorem node1_wts_block (c : Dev nD) (t : Fin cfg1.N) (k : Fin 128) (ch : Fin 2048) :
    (iblk1 V c 1 t : Vec Ideal S128x2048 .bf16) (ix2 k ch) = wts1 V c (ix2 k ch) := by
  obtain ⟨-, -, e2, e3, -⟩ := node1_index_facts t
  unfold iblk1
  rw [View.read_apply]
  show V c main_v15 _ = V c main_v15 _
  congr 1
  funext a
  apply Fin.ext
  match a with
  | ⟨0, _⟩ => show win1_1.index t (0 : Fin 2) * 128 + 1 * k.val = k.val; rw [e2]; omega
  | ⟨1, _⟩ => show win1_1.index t (1 : Fin 2) * 2048 + 1 * ch.val = ch.val; rw [e3]; omega

/-- The bias row's block at every point is the whole bias row. -/
theorem node1_bias_block (c : Dev nD) (t : Fin cfg1.N) (ch : Fin 2048) :
    (iblk1 V c 2 t : Vec Ideal S1x2048 .f32) (ix2 0 ch) = bias1 V c (ix2 0 ch) := by
  obtain ⟨-, -, -, -, e4, e5, -⟩ := node1_index_facts t
  unfold iblk1
  rw [View.read_apply]
  show V c main_v16 _ = V c main_v16 _
  congr 1
  funext a
  apply Fin.ext
  match a with
  | ⟨0, _⟩ => show win1_2.index t (0 : Fin 2) * 1 + 1 * 0 = 0; rw [e4]
  | ⟨1, _⟩ => show win1_2.index t (1 : Fin 2) * 2048 + 1 * ch.val = ch.val; rw [e5]; omega

/-- What point `t` writes back is its block of the node outputs over the arrays the region finds. -/
theorem node1_flushed (c : Dev nD) (t : Fin cfg1.N) :
    (dat1 (F := Ideal) V c).flushed 3 t
      = ((cfg1.win 3).blk t).view.read (Elt Ideal) (Cert.Geo.nodeOut (agg1 V c) (wts1 V c) (bias1 V c)) := by
  show (cfg1.win 3).cut (grid1.coords t) ((dat1 V c).after 3 t) = _
  rw [after1_3]
  unfold out1_3
  rw [View.canon_unit_zero node1_origin]
  simp only [View.ld_unit_zero (S := S400x128) node1_origin, View.ld_unit_zero (S := S128x2048) node1_origin,
    View.ld_unit_zero (S := S1x2048) node1_origin]
  obtain ⟨-, -, -, -, -, -, e6, e7⟩ := node1_index_facts t
  funext j
  obtain ⟨r, ch, rfl⟩ : ∃ (r : Fin 400) (ch : Fin 2048), j = ix2 r ch := ⟨j 0, j 1, eq_ix2 j⟩
  have hr : r.val < 400 := r.isLt
  have hn : win1_3.index t (0 : Fin 2) * 400 + r.val < 10000 := by omega
  have hi : ((cfg1.win 3).blk t).view.emb (ix2 r ch)
      = ix2 (⟨win1_3.index t (0 : Fin 2) * 400 + r.val, hn⟩ : Fin 10000) ch := by
    funext a
    apply Fin.ext
    match a with
    | ⟨0, _⟩ => show win1_3.index t (0 : Fin 2) * 400 + 1 * r.val = win1_3.index t (0 : Fin 2) * 400 + r.val; omega
    | ⟨1, _⟩ => show win1_3.index t (1 : Fin 2) * 2048 + 1 * ch.val = ch.val; rw [e6]; omega
  show k1_pay1 (F := Ideal) (iblk1 V c 0 t) (iblk1 V c 1 t) (iblk1 V c 2 t) (ix2 r ch)
    = Cert.Geo.nodeOut (agg1 V c) (wts1 V c) (bias1 V c) (((cfg1.win 3).blk t).view.emb (ix2 r ch))
  refine Eq.trans ?_ (congrArg (Cert.Geo.nodeOut (agg1 V c) (wts1 V c) (bias1 V c)) hi.symm)
  exact node1_point_apply (iblk1 V c 0 t) (iblk1 V c 1 t) (iblk1 V c 2 t) (agg1 V c) (wts1 V c) (bias1 V c) r ch
    ⟨win1_3.index t (0 : Fin 2) * 400 + r.val, hn⟩
    (fun k => node1_agg_block V c t r k ⟨win1_3.index t (0 : Fin 2) * 400 + r.val, hn⟩ rfl)
    (fun k => node1_wts_block V c t k ch) (node1_bias_block V c t ch)

/-- An index of the output array is in point `t`'s block iff each coordinate is in the block's range on its axis. -/
theorem node1_mem_blk (t : Fin cfg1.N) (i : S10000x2048.Idx) :
    i ∈ ((cfg1.win 3).blk t).view.set ↔ ∀ a : Fin 2, win1_3.index t a * S400x2048.size a ≤ (i a).val ∧ (i a).val < win1_3.index t a * S400x2048.size a + S400x2048.size a := by
  show i ∈ ((View.whole main_v17).slice (win1_3.rect t)).set ↔ _
  rw [View.set_slice_whole, Rect.mem_set_unit]
  exact Iff.rfl

/-- Node `n` lies in the block of the point whose row block is `n / 400`: the 25 blocks cover the output array. -/
theorem node1_cover (i : S10000x2048.Idx) :
    ∃ t : Fin cfg1.N, (cfg1.win 3).flush t = true ∧ i ∈ ((cfg1.win 3).blk t).view.set := by
  have hi0 : (i 0).val < 10000 := (i 0).isLt
  have hi1 : (i 1).val < 2048 := (i 1).isLt
  obtain ⟨t, ht⟩ := node1_index_onto ⟨(i 0).val / 400, by omega⟩
  have q0 : win1_3.index t (0 : Fin 2) = (i 0).val / 400 := congrFun ht 0
  have q1 : win1_3.index t (1 : Fin 2) = 0 := congrFun ht 1
  refine ⟨t, flush1_3 t, ?_⟩
  rw [node1_mem_blk]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 2048 ≤ (i 1).val ∧ (i 1).val < win1_3.index t (1 : Fin 2) * 2048 + 2048; omega

/-- What the node region leaves in its output array: on every node and channel, `Geo.nodeOut` over the arrays
    the region finds in its three input windows (the aggregate, the weights, the bias row). -/
theorem region1_value (c : Dev nD) :
    (dat1 (F := Ideal) V c).arrAt 3 cfg1.N
      = Cert.Geo.nodeOut (N := 10000) (K := 128) (C := 2048) (V c main_v14) (V c main_v15) (V c main_v16) :=
  (dat1 (F := Ideal) V c).arrAt_eq_of_cover 3 (Cert.Geo.nodeOut (agg1 V c) (wts1 V c) (bias1 V c))
    (fun t _ => node1_flushed V c t) node1_cover

end Cert.KernelIdeal.Val

end
-- ==== Proof.Chain1.lean ====
import proofs.«412862_j81758997447248_1_alg».proof.Proof.ChainBase
import proofs.«412862_j81758997447248_1_alg».proof.Proof.Take
import proofs.«412862_j81758997447248_1_alg».proof.Proof.RefStages
import proofs.«412862_j81758997447248_1_alg».proof.Proof.Gen.ReferenceIdeal.Read
import Idealize.ShloMosaic.Lib.Pipeline.Value
import Idealize.ShloMosaic.Lib.ValueIdx
import Idealize.ShloMosaic.Lib.ValueLayout
import proofs.«412862_j81758997447248_1_alg».proof.Proof.RegionEdge0
import proofs.«412862_j81758997447248_1_alg».proof.Proof.RegionNode1

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## Each host stretch, read from any entry contents -/

/-- The first stretch cuts the two rows out of the index array: the sources … -/
theorem l1_stretch0_src (V : Valuation τ sig (Elt Ideal)) :
    StableHlo.after hostOps0 V (Proc.devRef .tc main_v1) = srcOf (V (Proc.devRef .tc main_arg2)) := by
  after_results; rfl
/-- … and the destinations. -/
theorem l1_stretch0_dst (V : Valuation τ sig (Elt Ideal)) :
    StableHlo.after hostOps0 V (Proc.devRef .tc main_v3) = dstOf (V (Proc.devRef .tc main_arg2)) := by
  after_results; rfl

/-- The positions taken at the sources. -/
theorem l1_stretch0_1 (V : Valuation τ sig (Elt Ideal)) :
    StableHlo.after hostOps0_1 V (Proc.devRef .tc main_v4)
      = take2 (V (Proc.devRef .tc main_arg1)) (V (Proc.devRef .tc main_v1)) := by
  after_results_simp
  simp only [StableHlo.TRef.toBuf, StableHlo.TRef.ofBuf, cast_eq]
  rfl
/-- The positions taken at the destinations. -/
theorem l1_stretch0_2 (V : Valuation τ sig (Elt Ideal)) :
    StableHlo.after hostOps0_2 V (Proc.devRef .tc main_v5)
      = take2 (V (Proc.devRef .tc main_arg1)) (V (Proc.devRef .tc main_v3)) := by
  after_results_simp
  simp only [StableHlo.TRef.toBuf, StableHlo.TRef.ofBuf, cast_eq]
  rfl
/-- The relative positions: the difference of the two. -/
theorem l1_stretch0_3 (V : Valuation τ sig (Elt Ideal)) :
    StableHlo.after hostOps0_3 V (Proc.devRef .tc main_v6)
      = subf (F := Ideal) (s := S80000x2) (φ := .f32) (V (Proc.devRef .tc main_v4)) (V (Proc.devRef .tc main_v5)) := by
  after_results
/-- The node features taken at the sources. -/
theorem l1_stretch0_4 (V : Valuation τ sig (Elt Ideal)) :
    StableHlo.after hostOps0_4 V (Proc.devRef .tc main_v7)
      = take128 (V (Proc.devRef .tc main_arg0)) (V (Proc.devRef .tc main_v1)) := by
  after_results_simp
  simp only [StableHlo.TRef.toBuf, StableHlo.TRef.ofBuf, cast_eq]
  rfl
/-- The gathered features in the narrower format … -/
theorem l1_stretch0_5_feat (V : Valuation τ sig (Elt Ideal)) :
    StableHlo.after hostOps0_5 V (Proc.devRef .tc main_v8)
      = truncf (F := Ideal) (s := S80000x128) (φ := .f32) .bf16 (V (Proc.devRef .tc main_v7)) bitsLt_bf16_f32 := by
  after_results
/-- … and the first bias as one row. -/
theorem l1_stretch0_5_bias (V : Valuation τ sig (Elt Ideal)) :
    StableHlo.after hostOps0_5 V (Proc.devRef .tc main_v9)
      = shapeCast S1x128 (V (Proc.devRef .tc main_arg4)) shapeCasts_S128_S1x128 := by
  after_results; rfl

/-- The stretch between the two regions: the messages added up at their destinations, in the narrower format … -/
theorem l1_stretch1_agg (V : Valuation τ sig (Elt Ideal)) :
    StableHlo.after hostOps1 V (Proc.devRef .tc main_v14)
      = truncf .bf16 (Host.scatterAdd scatter_S10000x128_S80000x1_S80000x128_1_0_0_1
          (broadcastInDim S10000x128 ![] bcast_S_S10000x128 (constant (F := Ideal) S_ .f32 0x00000000#32))
          (broadcastInDim S80000x1 ![0] bcast_S80000_S80000x1_0 (V (Proc.devRef .tc main_v3)))
          (V (Proc.devRef .tc main_v10))) bitsLt_bf16_f32 := by
  after_results
/-- … the second weights in the narrower format … -/
theorem l1_stretch1_wts (V : Valuation τ sig (Elt Ideal)) :
    StableHlo.after hostOps1 V (Proc.devRef .tc main_v15)
      = truncf (F := Ideal) (s := S128x2048) (φ := .f32) .bf16 (V (Proc.devRef .tc main_arg5)) bitsLt_bf16_f32 := by
  after_results
/-- … and the second bias as one row. -/
theorem l1_stretch1_bias (V : Valuation τ sig (Elt Ideal)) :
    StableHlo.after hostOps1 V (Proc.devRef .tc main_v16)
      = shapeCast S1x2048 (V (Proc.devRef .tc main_arg6)) shapeCasts_S2048_S1x2048 := by
  after_results; rfl

/-! ## The reference's stages are the same operations -/

/-- At the ideal instance a change to a narrower format leaves every entry as it is. -/
theorem l1_truncf_bf16_id {s : Shape} (x : FVec Ideal s .f32) (h : FTy.bf16.bits < FTy.f32.bits) :
    (truncf .bf16 x h : FVec Ideal s .bf16) = x := rfl

/-- The reference gathers the positions at the wrapped sources: the same gather at the same wrapped index. -/
theorem l1_gather_ref_pos_src (pos : Vec Ideal S10000x2 .f32) (ei : IVec S2x80000 32) :
    Host.gather gather_S10000x2_S80000x1_S80000x2_1_0_n_n_0_1_12 pos (wrapB (srcOf ei))
      = Cert.ReferenceIdeal.Read.val_main_v10 (F := Ideal) pos ei := by
  unfold Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v1 Cert.ReferenceIdeal.Read.val_main_v0 Cert.ReferenceIdeal.Read.val_main_c Cert.ReferenceIdeal.Read.val_main_c_0 wrapB srcOf
  rfl
/-- Likewise at the wrapped destinations. -/
theorem l1_gather_ref_pos_dst (pos : Vec Ideal S10000x2 .f32) (ei : IVec S2x80000 32) :
    Host.gather gather_S10000x2_S80000x1_S80000x2_1_0_n_n_0_1_12 pos (wrapB (dstOf ei))
      = Cert.ReferenceIdeal.Read.val_main_v17 (F := Ideal) pos ei := by
  unfold Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_v11 Cert.ReferenceIdeal.Read.val_main_v3 Cert.ReferenceIdeal.Read.val_main_v2 Cert.ReferenceIdeal.Read.val_main_c_1 Cert.ReferenceIdeal.Read.val_main_c_2 wrapB dstOf
  rfl
/-- The relative positions are the difference of the two gathers. -/
theorem l1_rel_ref (pos : Vec Ideal S10000x2 .f32) (ei : IVec S2x80000 32) :
    subf (F := Ideal) (s := S80000x2) (φ := .f32) (Cert.ReferenceIdeal.Read.val_main_v10 (F := Ideal) pos ei) (Cert.ReferenceIdeal.Read.val_main_v17 (F := Ideal) pos ei)
      = Cert.ReferenceIdeal.Read.val_main_v18 (F := Ideal) pos ei := by
  unfold Cert.ReferenceIdeal.Read.val_main_v18
  rfl
/-- The reference gathers the node features at the wrapped sources. -/
theorem l1_gather_ref_feat_src (x : Vec Ideal S10000x128 .f32) (ei : IVec S2x80000 32) :
    Host.gather gather_S10000x128_S80000x1_S80000x128_1_0_n_n_0_1_1128 x (wrapB (srcOf ei))
      = Cert.ReferenceIdeal.Read.val_main_v30 (F := Ideal) x ei := by
  unfold Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_v1 Cert.ReferenceIdeal.Read.val_main_v0 Cert.ReferenceIdeal.Read.val_main_c_3 Cert.ReferenceIdeal.Read.val_main_c_4 wrapB srcOf
  rfl
/-- The reference adds the messages up at their destinations, from zero: the same scatter of the same three arrays. -/
theorem l1_scatter_ref (x0 : Vec Ideal S10000x128 .f32) (x1 : Vec Ideal S10000x2 .f32) (ei : IVec S2x80000 32)
    (x3 : Vec Ideal S2x128 .f32) (x4 : Vec Ideal S128 .f32) :
    Host.scatterAdd scatter_S10000x128_S80000x1_S80000x128_1_0_0_1
        (broadcastInDim S10000x128 ![] bcast_S_S10000x128 (constant (F := Ideal) S_ .f32 0x00000000#32))
        (broadcastInDim S80000x1 ![0] bcast_S80000_S80000x1_0 (dstOf ei))
        (Cert.ReferenceIdeal.Read.val_main_v31 (F := Ideal) x0 x1 ei x3 x4)
      = Cert.ReferenceIdeal.Read.val_main_v34 (F := Ideal) x0 x1 ei x3 x4 := by
  unfold Cert.ReferenceIdeal.Read.val_main_v34 Cert.ReferenceIdeal.Read.val_main_v32 Cert.ReferenceIdeal.Read.val_main_cst Cert.ReferenceIdeal.Read.val_main_v33 Cert.ReferenceIdeal.Read.val_main_v3 Cert.ReferenceIdeal.Read.val_main_v2 dstOf
  rfl

/-! ## Buffers carried unchanged to where they are read

One boundary at a time: a host stretch none of whose operations writes the buffer, or a region that does not own it,
leaves it as entered. -/

theorem l1_k_arg1_1 (c : Dev nD) : W1 m ρ c (Proc.devRef .tc main_arg1) = W0 m ρ c (Proc.devRef .tc main_arg1) := by keep_host
theorem l1_k_arg1_2 (c : Dev nD) : W2 m ρ c (Proc.devRef .tc main_arg1) = W1 m ρ c (Proc.devRef .tc main_arg1) := by keep_host
theorem l1_k_arg0_1 (c : Dev nD) : W1 m ρ c (Proc.devRef .tc main_arg0) = W0 m ρ c (Proc.devRef .tc main_arg0) := by keep_host
theorem l1_k_arg0_2 (c : Dev nD) : W2 m ρ c (Proc.devRef .tc main_arg0) = W1 m ρ c (Proc.devRef .tc main_arg0) := by keep_host
theorem l1_k_arg0_3 (c : Dev nD) : W3 m ρ c (Proc.devRef .tc main_arg0) = W2 m ρ c (Proc.devRef .tc main_arg0) := by keep_host
theorem l1_k_arg0_4 (c : Dev nD) : W4 m ρ c (Proc.devRef .tc main_arg0) = W3 m ρ c (Proc.devRef .tc main_arg0) := by keep_host
theorem l1_k_arg4_1 (c : Dev nD) : W1 m ρ c (Proc.devRef .tc main_arg4) = W0 m ρ c (Proc.devRef .tc main_arg4) := by keep_host
theorem l1_k_arg4_2 (c : Dev nD) : W2 m ρ c (Proc.devRef .tc main_arg4) = W1 m ρ c (Proc.devRef .tc main_arg4) := by keep_host
theorem l1_k_arg4_3 (c : Dev nD) : W3 m ρ c (Proc.devRef .tc main_arg4) = W2 m ρ c (Proc.devRef .tc main_arg4) := by keep_host
theorem l1_k_arg4_4 (c : Dev nD) : W4 m ρ c (Proc.devRef .tc main_arg4) = W3 m ρ c (Proc.devRef .tc main_arg4) := by keep_host
theorem l1_k_arg4_5 (c : Dev nD) : W5 m ρ c (Proc.devRef .tc main_arg4) = W4 m ρ c (Proc.devRef .tc main_arg4) := by keep_host
theorem l1_k_arg3_1 (c : Dev nD) : W1 m ρ c (Proc.devRef .tc main_arg3) = W0 m ρ c (Proc.devRef .tc main_arg3) := by keep_host
theorem l1_k_arg3_2 (c : Dev nD) : W2 m ρ c (Proc.devRef .tc main_arg3) = W1 m ρ c (Proc.devRef .tc main_arg3) := by keep_host
theorem l1_k_arg3_3 (c : Dev nD) : W3 m ρ c (Proc.devRef .tc main_arg3) = W2 m ρ c (Proc.devRef .tc main_arg3) := by keep_host
theorem l1_k_arg3_4 (c : Dev nD) : W4 m ρ c (Proc.devRef .tc main_arg3) = W3 m ρ c (Proc.devRef .tc main_arg3) := by keep_host
theorem l1_k_arg3_5 (c : Dev nD) : W5 m ρ c (Proc.devRef .tc main_arg3) = W4 m ρ c (Proc.devRef .tc main_arg3) := by keep_host
theorem l1_k_arg3_6 (c : Dev nD) : W6 m ρ c (Proc.devRef .tc main_arg3) = W5 m ρ c (Proc.devRef .tc main_arg3) := by keep_host
theorem l1_k_arg5_1 (c : Dev nD) : W1 m ρ c (Proc.devRef .tc main_arg5) = W0 m ρ c (Proc.devRef .tc main_arg5) := by keep_host
theorem l1_k_arg5_2 (c : Dev nD) : W2 m ρ c (Proc.devRef .tc main_arg5) = W1 m ρ c (Proc.devRef .tc main_arg5) := by keep_host
theorem l1_k_arg5_3 (c : Dev nD) : W3 m ρ c (Proc.devRef .tc main_arg5) = W2 m ρ c (Proc.devRef .tc main_arg5) := by keep_host
theorem l1_k_arg5_4 (c : Dev nD) : W4 m ρ c (Proc.devRef .tc main_arg5) = W3 m ρ c (Proc.devRef .tc main_arg5) := by keep_host
theorem l1_k_arg5_5 (c : Dev nD) : W5 m ρ c (Proc.devRef .tc main_arg5) = W4 m ρ c (Proc.devRef .tc main_arg5) := by keep_host
theorem l1_k_arg5_6 (c : Dev nD) : W6 m ρ c (Proc.devRef .tc main_arg5) = W5 m ρ c (Proc.devRef .tc main_arg5) := by keep_host
theorem l1_k_arg5_7 (c : Dev nD) : W7 m ρ c (Proc.devRef .tc main_arg5) = W6 m ρ c (Proc.devRef .tc main_arg5) := W7_of_ne m ρ c main_arg5 (by decide)
theorem l1_k_arg6_1 (c : Dev nD) : W1 m ρ c (Proc.devRef .tc main_arg6) = W0 m ρ c (Proc.devRef .tc main_arg6) := by keep_host
theorem l1_k_arg6_2 (c : Dev nD) : W2 m ρ c (Proc.devRef .tc main_arg6) = W1 m ρ c (Proc.devRef .tc main_arg6) := by keep_host
theorem l1_k_arg6_3 (c : Dev nD) : W3 m ρ c (Proc.devRef .tc main_arg6) = W2 m ρ c (Proc.devRef .tc main_arg6) := by keep_host
theorem l1_k_arg6_4 (c : Dev nD) : W4 m ρ c (Proc.devRef .tc main_arg6) = W3 m ρ c (Proc.devRef .tc main_arg6) := by keep_host
theorem l1_k_arg6_5 (c : Dev nD) : W5 m ρ c (Proc.devRef .tc main_arg6) = W4 m ρ c (Proc.devRef .tc main_arg6) := by keep_host
theorem l1_k_arg6_6 (c : Dev nD) : W6 m ρ c (Proc.devRef .tc main_arg6) = W5 m ρ c (Proc.devRef .tc main_arg6) := by keep_host
theorem l1_k_arg6_7 (c : Dev nD) : W7 m ρ c (Proc.devRef .tc main_arg6) = W6 m ρ c (Proc.devRef .tc main_arg6) := W7_of_ne m ρ c main_arg6 (by decide)
theorem l1_k_v3_2 (c : Dev nD) : W2 m ρ c (Proc.devRef .tc main_v3) = W1 m ρ c (Proc.devRef .tc main_v3) := by keep_host
theorem l1_k_v3_3 (c : Dev nD) : W3 m ρ c (Proc.devRef .tc main_v3) = W2 m ρ c (Proc.devRef .tc main_v3) := by keep_host
theorem l1_k_v3_4 (c : Dev nD) : W4 m ρ c (Proc.devRef .tc main_v3) = W3 m ρ c (Proc.devRef .tc main_v3) := by keep_host
theorem l1_k_v3_5 (c : Dev nD) : W5 m ρ c (Proc.devRef .tc main_v3) = W4 m ρ c (Proc.devRef .tc main_v3) := by keep_host
theorem l1_k_v3_6 (c : Dev nD) : W6 m ρ c (Proc.devRef .tc main_v3) = W5 m ρ c (Proc.devRef .tc main_v3) := by keep_host
theorem l1_k_v3_7 (c : Dev nD) : W7 m ρ c (Proc.devRef .tc main_v3) = W6 m ρ c (Proc.devRef .tc main_v3) := W7_of_ne m ρ c main_v3 (by decide)
theorem l1_k_v1_2 (c : Dev nD) : W2 m ρ c (Proc.devRef .tc main_v1) = W1 m ρ c (Proc.devRef .tc main_v1) := by keep_host
theorem l1_k_v1_3 (c : Dev nD) : W3 m ρ c (Proc.devRef .tc main_v1) = W2 m ρ c (Proc.devRef .tc main_v1) := by keep_host
theorem l1_k_v1_4 (c : Dev nD) : W4 m ρ c (Proc.devRef .tc main_v1) = W3 m ρ c (Proc.devRef .tc main_v1) := by keep_host
theorem l1_k_v4_3 (c : Dev nD) : W3 m ρ c (Proc.devRef .tc main_v4) = W2 m ρ c (Proc.devRef .tc main_v4) := by keep_host
theorem l1_k_v6_5 (c : Dev nD) : W5 m ρ c (Proc.devRef .tc main_v6) = W4 m ρ c (Proc.devRef .tc main_v6) := by keep_host
theorem l1_k_v6_6 (c : Dev nD) : W6 m ρ c (Proc.devRef .tc main_v6) = W5 m ρ c (Proc.devRef .tc main_v6) := by keep_host

/-- The positions are as launched when the first take reads them … -/
theorem l1_carry_arg1_1 (c : Dev nD) : W1 m ρ c (Proc.devRef .tc main_arg1) = A1 m c :=
  l1_k_arg1_1 m ρ c

/-- … and when the second does. -/
theorem l1_carry_arg1_2 (c : Dev nD) : W2 m ρ c (Proc.devRef .tc main_arg1) = A1 m c :=
  (l1_k_arg1_2 m ρ c).trans (l1_k_arg1_1 m ρ c)

/-- The node features are as launched when their take reads them. -/
theorem l1_carry_arg0_4 (c : Dev nD) : W4 m ρ c (Proc.devRef .tc main_arg0) = A0 m c :=
  (l1_k_arg0_4 m ρ c).trans ((l1_k_arg0_3 m ρ c).trans ((l1_k_arg0_2 m ρ c).trans (l1_k_arg0_1 m ρ c)))

/-- The first bias is as launched when it is reshaped. -/
theorem l1_carry_arg4_5 (c : Dev nD) : W5 m ρ c (Proc.devRef .tc main_arg4) = A4 m c :=
  (l1_k_arg4_5 m ρ c).trans ((l1_k_arg4_4 m ρ c).trans ((l1_k_arg4_3 m ρ c).trans ((l1_k_arg4_2 m ρ c).trans (l1_k_arg4_1 m ρ c))))

/-- The first edge weights are as launched at the edge region's entry. -/
theorem l1_carry_arg3_6 (c : Dev nD) : W6 m ρ c (Proc.devRef .tc main_arg3) = A3 m c :=
  (l1_k_arg3_6 m ρ c).trans ((l1_k_arg3_5 m ρ c).trans ((l1_k_arg3_4 m ρ c).trans ((l1_k_arg3_3 m ρ c).trans ((l1_k_arg3_2 m ρ c).trans (l1_k_arg3_1 m ρ c)))))

/-- The second weights are as launched after the edge region … -/
theorem l1_carry_arg5_7 (c : Dev nD) : W7 m ρ c (Proc.devRef .tc main_arg5) = A5 m c :=
  (l1_k_arg5_7 m ρ c).trans ((l1_k_arg5_6 m ρ c).trans ((l1_k_arg5_5 m ρ c).trans ((l1_k_arg5_4 m ρ c).trans ((l1_k_arg5_3 m ρ c).trans ((l1_k_arg5_2 m ρ c).trans (l1_k_arg5_1 m ρ c))))))

/-- … and so is the second bias. -/
theorem l1_carry_arg6_7 (c : Dev nD) : W7 m ρ c (Proc.devRef .tc main_arg6) = A6 m c :=
  (l1_k_arg6_7 m ρ c).trans ((l1_k_arg6_6 m ρ c).trans ((l1_k_arg6_5 m ρ c).trans ((l1_k_arg6_4 m ρ c).trans ((l1_k_arg6_3 m ρ c).trans ((l1_k_arg6_2 m ρ c).trans (l1_k_arg6_1 m ρ c))))))

/-- The destinations are as first cut when the second take reads them … -/
theorem l1_carry_v3_2 (c : Dev nD) : W2 m ρ c (Proc.devRef .tc main_v3) = W1 m ρ c (Proc.devRef .tc main_v3) :=
  l1_k_v3_2 m ρ c

/-- … and when the scatter does, after the edge region. -/
theorem l1_carry_v3_7 (c : Dev nD) : W7 m ρ c (Proc.devRef .tc main_v3) = W1 m ρ c (Proc.devRef .tc main_v3) :=
  (l1_k_v3_7 m ρ c).trans ((l1_k_v3_6 m ρ c).trans ((l1_k_v3_5 m ρ c).trans ((l1_k_v3_4 m ρ c).trans ((l1_k_v3_3 m ρ c).trans (l1_k_v3_2 m ρ c)))))

/-- The sources are as first cut when the feature take reads them. -/
theorem l1_carry_v1_4 (c : Dev nD) : W4 m ρ c (Proc.devRef .tc main_v1) = W1 m ρ c (Proc.devRef .tc main_v1) :=
  (l1_k_v1_4 m ρ c).trans ((l1_k_v1_3 m ρ c).trans (l1_k_v1_2 m ρ c))

/-- The positions at the sources wait for the subtraction. -/
theorem l1_carry_v4_3 (c : Dev nD) : W3 m ρ c (Proc.devRef .tc main_v4) = W2 m ρ c (Proc.devRef .tc main_v4) :=
  l1_k_v4_3 m ρ c

/-- The relative positions wait for the edge region. -/
theorem l1_carry_v6_6 (c : Dev nD) : W6 m ρ c (Proc.devRef .tc main_v6) = W4 m ρ c (Proc.devRef .tc main_v6) :=
  (l1_k_v6_6 m ρ c).trans (l1_k_v6_5 m ρ c)

/-! ## The layer, stage by stage -/

/-- The sources are row 0 of the launched index array … -/
theorem l1_src_at1 (c : Dev nD) : W1 m ρ c (Proc.devRef .tc main_v1) = srcOf (A2 m c) := l1_stretch0_src (W0 m ρ c)
/-- … and the destinations row 1. -/
theorem l1_dst_at1 (c : Dev nD) : W1 m ρ c (Proc.devRef .tc main_v3) = dstOf (A2 m c) := l1_stretch0_dst (W0 m ρ c)

/-- The positions at the sources: with every endpoint a node the take fills nothing, and the plain gather is the
    reference's. -/
theorem l1_pos_src (c : Dev nD) (hidx : Cert.Geo.IdxInRange (A2 m c)) :
    W2 m ρ c (Proc.devRef .tc main_v4) = Cert.ReferenceIdeal.Read.val_main_v10 (F := Ideal) (A1 m c) (A2 m c) := by
  refine (l1_stretch0_1 (W1 m ρ c)).trans ?_
  rw [l1_carry_arg1_1 m ρ c, l1_src_at1 m ρ c, take2_eq _ _ (srcOf_inRange _ hidx)]
  exact l1_gather_ref_pos_src _ _
/-- The positions at the destinations. -/
theorem l1_pos_dst (c : Dev nD) (hidx : Cert.Geo.IdxInRange (A2 m c)) :
    W3 m ρ c (Proc.devRef .tc main_v5) = Cert.ReferenceIdeal.Read.val_main_v17 (F := Ideal) (A1 m c) (A2 m c) := by
  refine (l1_stretch0_2 (W2 m ρ c)).trans ?_
  rw [l1_carry_arg1_2 m ρ c, l1_carry_v3_2 m ρ c, l1_dst_at1 m ρ c, take2_eq _ _ (dstOf_inRange _ hidx)]
  exact l1_gather_ref_pos_dst _ _
/-- The relative positions. -/
theorem l1_rel_at4 (c : Dev nD) (hidx : Cert.Geo.IdxInRange (A2 m c)) :
    W4 m ρ c (Proc.devRef .tc main_v6) = Cert.ReferenceIdeal.Read.val_main_v18 (F := Ideal) (A1 m c) (A2 m c) := by
  refine (l1_stretch0_3 (W3 m ρ c)).trans ?_
  rw [l1_carry_v4_3 m ρ c, l1_pos_src m ρ c hidx, l1_pos_dst m ρ c hidx]
  exact l1_rel_ref _ _
/-- The node features at the sources. -/
theorem l1_feat_at5 (c : Dev nD) (hidx : Cert.Geo.IdxInRange (A2 m c)) :
    W5 m ρ c (Proc.devRef .tc main_v7) = Cert.ReferenceIdeal.Read.val_main_v30 (F := Ideal) (A0 m c) (A2 m c) := by
  refine (l1_stretch0_4 (W4 m ρ c)).trans ?_
  rw [l1_carry_arg0_4 m ρ c, l1_carry_v1_4 m ρ c, l1_src_at1 m ρ c, take128_eq _ _ (srcOf_inRange _ hidx)]
  exact l1_gather_ref_feat_src _ _
/-- The same in the narrower format: at the ideal instance, the same array. -/
theorem l1_feat_at6 (c : Dev nD) (hidx : Cert.Geo.IdxInRange (A2 m c)) :
    W6 m ρ c (Proc.devRef .tc main_v8) = Cert.ReferenceIdeal.Read.val_main_v30 (F := Ideal) (A0 m c) (A2 m c) := by
  refine (l1_stretch0_5_feat (W5 m ρ c)).trans ?_
  rw [l1_feat_at5 m ρ c hidx]
  exact l1_truncf_bf16_id _ _
/-- The first bias as one row. -/
theorem l1_bias_at6 (c : Dev nD) : W6 m ρ c (Proc.devRef .tc main_v9) = Cert.Geo.rowOf (A4 m c) := by
  refine (l1_stretch0_5_bias (W5 m ρ c)).trans ?_
  rw [l1_carry_arg4_5 m ρ c]
  exact reshape_row128 _

/-- The edge region leaves the reference's messages: its four windows hold the reference's relative positions and
    gathered features, the launched weights and the bias row. -/
theorem l1_msg_at7 (c : Dev nD) (hidx : Cert.Geo.IdxInRange (A2 m c)) :
    W7 m ρ c (Proc.devRef .tc main_v10)
      = Cert.ReferenceIdeal.Read.val_main_v31 (F := Ideal) (A0 m c) (A1 m c) (A2 m c) (A3 m c) (A4 m c) := by
  refine ((W7_arr m ρ c 4).trans (region0_value (V6 m ρ) c)).trans ?_
  show Cert.Geo.edgeMsg (E := 80000) (C := 128) (W6 m ρ c (Proc.devRef .tc main_v6)) (W6 m ρ c (Proc.devRef .tc main_v8))
    (W6 m ρ c (Proc.devRef .tc main_arg3)) (W6 m ρ c (Proc.devRef .tc main_v9)) = _
  rw [l1_carry_v6_6 m ρ c, l1_rel_at4 m ρ c hidx, l1_feat_at6 m ρ c hidx, l1_carry_arg3_6 m ρ c, l1_bias_at6 m ρ c]
  exact (Cert.ReferenceIdeal.Stages.msg1_eq _ _ _ _ _).symm

/-- The aggregate: the same scatter of the reference's messages at the same destinations. -/
theorem l1_agg_at8 (c : Dev nD) (hidx : Cert.Geo.IdxInRange (A2 m c)) :
    W8 m ρ c (Proc.devRef .tc main_v14)
      = Cert.ReferenceIdeal.Read.val_main_v34 (F := Ideal) (A0 m c) (A1 m c) (A2 m c) (A3 m c) (A4 m c) := by
  refine (l1_stretch1_agg (W7 m ρ c)).trans ?_
  rw [l1_carry_v3_7 m ρ c, l1_dst_at1 m ρ c, l1_msg_at7 m ρ c hidx, l1_scatter_ref]
  exact l1_truncf_bf16_id _ _
/-- The second weights. -/
theorem l1_wts_at8 (c : Dev nD) : W8 m ρ c (Proc.devRef .tc main_v15) = A5 m c := by
  refine (l1_stretch1_wts (W7 m ρ c)).trans ?_
  rw [l1_carry_arg5_7 m ρ c]
  exact l1_truncf_bf16_id _ _
/-- The second bias as one row. -/
theorem l1_bias_at8 (c : Dev nD) : W8 m ρ c (Proc.devRef .tc main_v16) = Cert.Geo.rowOf (A6 m c) := by
  refine (l1_stretch1_bias (W7 m ρ c)).trans ?_
  rw [l1_carry_arg6_7 m ρ c]
  exact reshape_row2048 _

/-- LAYER 1 of the kernel's run, read: after the second region the buffer `main_v17` holds the reference's first hidden
    layer `relu (segment_sum (relu (rel @ W_in1 + b_in1) * x[src]) @ W_out1 + b_out1)` of the launched arguments, when
    every edge endpoint names a node. -/
theorem layer1 (c : Dev nD) (hidx : Cert.Geo.IdxInRange (A2 m c)) :
    W9 m ρ c (Proc.devRef .tc main_v17)
      = Cert.ReferenceIdeal.Read.val_main_v39 (F := Ideal) (A0 m c) (A1 m c) (A2 m c) (A3 m c) (A4 m c) (A5 m c) (A6 m c) := by
  refine ((W9_arr m ρ c 3).trans (region1_value (V8 m ρ) c)).trans ?_
  show Cert.Geo.nodeOut (N := 10000) (K := 128) (C := 2048) (W8 m ρ c (Proc.devRef .tc main_v14)) (W8 m ρ c (Proc.devRef .tc main_v15))
    (W8 m ρ c (Proc.devRef .tc main_v16)) = _
  rw [l1_agg_at8 m ρ c hidx, l1_wts_at8 m ρ c, l1_bias_at8 m ρ c]
  exact (Cert.ReferenceIdeal.Stages.h1_eq _ _ _ _ _ _ _).symm

end Cert.KernelIdeal.Val

end
-- ==== Proof.RegionEdge2.lean ====
import proofs.«412862_j81758997447248_1_alg».proof.Proof.Gen.KernelIdeal.Frame
import proofs.«412862_j81758997447248_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at one edge and channel -/

/-- A one-column array spread over `b` columns reads, at `(p, c)`, the operand's one column at row `p`. -/
theorem edge2_col_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The value the body stores, at row `r` and channel `ch` of a block: the two columns of the relative positions
    against the two weight rows, plus the bias, rectified at zero (the zero word is the real 0), times the gathered
    feature (its change of float format is the identity on extended reals). -/
theorem edge2_pay_apply (x0 : Vec Ideal S400x2 .f32) (w0 w1 b : Vec Ideal S1x2048 .f32) (x1 : Vec Ideal S400x2048 .bf16)
    (r : Fin 400) (ch : Fin 2048) :
    k2_pay1 (F := Ideal) x0 w0 w1 b x1 (ix2 r ch)
      = max (x0 (ix2 r 0) * w0 (ix2 0 ch) + x0 (ix2 r 1) * w1 (ix2 0 ch) + b (ix2 0 ch)) 0 * x1 (ix2 r ch) := by
  unfold k2_pay1
  simp only [shapeCast_self]
  simp only [mulf_apply, addf_apply, maximumf_apply, extf_apply, broadcast_apply, broadcastTo_1b_ab_apply,
    edge2_col_broadcast_apply, slice2_axis1_eq]
  have hzero : (FloatOps.ofBits (F := Ideal) FTy.f32 0#32 : EReal) = 0 := Ideal.ofBits_zero_f32
  rw [hzero]
  rfl

/-! ## The windows' index maps over the grid -/

theorem edge2_hz : (![0, 0] : Fin 2 → Nat) = fun _ => 0 := funext fun a => by fin_cases a <;> rfl

/-- The windows' block indices at every grid point: the blocks of the relative positions and of the gathered features
    move with the output's along the edges, the weights and the bias stay at their one block, and the output's block
    index stays below 200. -/
theorem edge2_idx_facts : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) ≤ 199 :=
  (by decide +kernel : ∀ t : Fin grid2.N, _)

/-- Every block of 400 edges is some point's. -/
theorem edge2_idx_onto : ∀ q : Fin 200, ∃ t : Fin cfg2.N, win2_4.index t = ![q.val, 0] :=
  (by decide +kernel : ∀ q : Fin 200, ∃ t : Fin grid2.N, win2_4.index t = ![q.val, 0])

/-! ## Each input block as rows of its array -/

/-- The arrays the region finds in its four input windows, at their literal types. -/
abbrev edge2_rel (c : Dev nD) : Vec Ideal S80000x2 .f32 := V c main_v20
abbrev edge2_xs (c : Dev nD) : Vec Ideal S80000x2048 .bf16 := V c main_v22
abbrev edge2_w (c : Dev nD) : Vec Ideal S2x2048 .f32 := V c main_arg7
abbrev edge2_b (c : Dev nD) : Vec Ideal S1x2048 .f32 := V c main_v23

/-- The block of relative positions at point `t` is rows `400·q … 400·q + 399` of the array, `q` the output's block
    index: row `r` of the block is edge `e = 400·q + r`. -/
theorem edge2_rel_blk (c : Dev nD) (t : Fin cfg2.N) (r : Fin 400) (k : Fin 2) (e : Fin 80000)
    (he : e.val = win2_4.index t (0 : Fin 2) * 400 + r.val) :
    (iblk2 (F := Ideal) V c 0 t : Vec Ideal S400x2 .f32) (ix2 r k) = edge2_rel V c (ix2 e k) := by
  obtain ⟨e0, e1, -⟩ := edge2_idx_facts t
  unfold iblk2
  rw [View.read_apply]
  show V c main_v20 _ = V c main_v20 _
  congr 1
  funext a
  apply Fin.ext
  match a with
  | ⟨0, _⟩ => show win2_0.index t (0 : Fin 2) * 400 + 1 * r.val = e.val; omega
  | ⟨1, _⟩ => show win2_0.index t (1 : Fin 2) * 2 + 1 * k.val = k.val; omega

/-- The block of gathered features at point `t` is the same rows of its array. -/
theorem edge2_xs_blk (c : Dev nD) (t : Fin cfg2.N) (r : Fin 400) (ch : Fin 2048) (e : Fin 80000)
    (he : e.val = win2_4.index t (0 : Fin 2) * 400 + r.val) :
    (iblk2 (F := Ideal) V c 1 t : Vec Ideal S400x2048 .bf16) (ix2 r ch) = edge2_xs V c (ix2 e ch) := by
  obtain ⟨-, -, e2, e3, -⟩ := edge2_idx_facts t
  unfold iblk2
  rw [View.read_apply]
  show V c main_v22 _ = V c main_v22 _
  congr 1
  funext a
  apply Fin.ext
  match a with
  | ⟨0, _⟩ => show win2_1.index t (0 : Fin 2) * 400 + 1 * r.val = e.val; omega
  | ⟨1, _⟩ => show win2_1.index t (1 : Fin 2) * 2048 + 1 * ch.val = ch.val; omega

/-- The weights' block at every point is the whole two-row array. -/
theorem edge2_w_blk (c : Dev nD) (t : Fin cfg2.N) (k : Fin 2) (ch : Fin 2048) :
    (iblk2 (F := Ideal) V c 2 t : Vec Ideal S2x2048 .f32) (ix2 k ch) = edge2_w V c (ix2 k ch) := by
  obtain ⟨-, -, -, -, e4, e5, -⟩ := edge2_idx_facts t
  unfold iblk2
  rw [View.read_apply]
  show V c main_arg7 _ = V c main_arg7 _
  congr 1
  funext a
  apply Fin.ext
  match a with
  | ⟨0, _⟩ => show win2_2.index t (0 : Fin 2) * 2 + 1 * k.val = k.val; omega
  | ⟨1, _⟩ => show win2_2.index t (1 : Fin 2) * 2048 + 1 * ch.val = ch.val; omega

/-- So is the bias row's block the whole one-row array. -/
theorem edge2_b_blk (c : Dev nD) (t : Fin cfg2.N) (k : Fin 1) (ch : Fin 2048) :
    (iblk2 (F := Ideal) V c 3 t : Vec Ideal S1x2048 .f32) (ix2 k ch) = edge2_b V c (ix2 k ch) := by
  obtain ⟨-, -, -, -, -, -, e6, e7, -⟩ := edge2_idx_facts t
  unfold iblk2
  rw [View.read_apply]
  show V c main_v23 _ = V c main_v23 _
  congr 1
  funext a
  apply Fin.ext
  match a with
  | ⟨0, _⟩ => show win2_3.index t (0 : Fin 2) * 1 + 1 * k.val = k.val; omega
  | ⟨1, _⟩ => show win2_3.index t (1 : Fin 2) * 2048 + 1 * ch.val = ch.val; omega

/-- Row 0 of a two-row block, loaded as a one-row vector, at channel `ch`. -/
theorem edge2_ld_row0 (x : Vec Ideal S2x2048 .f32) (ch : Fin 2048) :
    (View.ld x r2_1 : Vec Ideal S1x2048 .f32) (ix2 0 ch) = x (ix2 0 ch) := by
  show x (r2_1.idx (ix2 0 ch)) = x (ix2 0 ch)
  congr 1
  funext a
  apply Fin.ext
  match a with
  | ⟨0, _⟩ => rfl
  | ⟨1, _⟩ => show 0 + 1 * ch.val = ch.val; omega

/-- Row 1 of it: the load's rectangle starts one row down. -/
theorem edge2_ld_row1 (x : Vec Ideal S2x2048 .f32) (ch : Fin 2048) :
    (View.ld x r2_2 : Vec Ideal S1x2048 .f32) (ix2 0 ch) = x (ix2 1 ch) := by
  show x (r2_2.idx (ix2 0 ch)) = x (ix2 1 ch)
  congr 1
  funext a
  apply Fin.ext
  match a with
  | ⟨0, _⟩ => rfl
  | ⟨1, _⟩ => show 0 + 1 * ch.val = ch.val; omega

/-! ## From blocks to the array -/

/-- What point `t` writes back is block `t` of the edge messages over the arrays the region finds: the one store
    covers the staging buffer, its payload at row `r` and channel `ch` is the message's formula over the input blocks,
    and each input block's entry is its array's entry at edge `400·q + r`, where the output's block lies. -/
theorem edge2_flushed_eq (c : Dev nD) (t : Fin cfg2.N) :
    (dat2 (F := Ideal) V c).flushed 4 t
      = ((cfg2.win 4).blk t).view.read (Elt Ideal)
          (Cert.Geo.edgeMsg (E := 80000) (C := 2048) (V c main_v20) (V c main_v22) (V c main_arg7) (V c main_v23)) := by
  show (cfg2.win 4).cut (grid2.coords t) ((dat2 V c).after 4 t) = _
  rw [after2_4]
  unfold out2_4
  rw [View.canon_unit_zero edge2_hz]
  simp only [View.ld_unit_zero (S := S400x2) edge2_hz, View.ld_unit_zero (S := S1x2048) edge2_hz,
    View.ld_unit_zero (S := S400x2048) edge2_hz]
  obtain ⟨-, -, -, -, -, -, -, -, e8, e9⟩ := edge2_idx_facts t
  funext j
  obtain ⟨r, ch, rfl⟩ : ∃ (r : Fin 400) (ch : Fin 2048), j = ix2 r ch := ⟨j 0, j 1, eq_ix2 j⟩
  refine (edge2_pay_apply (iblk2 V c 0 t) (View.ld (iblk2 V c 2 t) r2_1) (View.ld (iblk2 V c 2 t) r2_2) (iblk2 V c 3 t)
    (iblk2 V c 1 t) r ch).trans ?_
  obtain ⟨e, he⟩ : ∃ e : Fin 80000, e.val = win2_4.index t (0 : Fin 2) * 400 + r.val :=
    ⟨⟨win2_4.index t (0 : Fin 2) * 400 + r.val, by have := r.isLt; omega⟩, rfl⟩
  have hemb : ((cfg2.win 4).blk t).view.emb (ix2 r ch) = (ix2 e ch : S80000x2048.Idx) := by
    funext a
    apply Fin.ext
    match a with
    | ⟨0, _⟩ => show win2_4.index t (0 : Fin 2) * 400 + 1 * r.val = e.val; omega
    | ⟨1, _⟩ => show win2_4.index t (1 : Fin 2) * 2048 + 1 * ch.val = ch.val; omega
  rw [View.read_apply]
  show _ = Cert.Geo.edgeMsg (E := 80000) (C := 2048) (edge2_rel V c) (edge2_xs V c) (edge2_w V c) (edge2_b V c)
    (((cfg2.win 4).blk t).view.emb (ix2 r ch))
  rw [hemb, Cert.Geo.edgeMsg_apply]
  rw [edge2_rel_blk V c t r 0 e he, edge2_rel_blk V c t r 1 e he, edge2_ld_row0, edge2_ld_row1, edge2_w_blk, edge2_w_blk,
    edge2_b_blk, edge2_xs_blk V c t r ch e he]

/-- An edge-and-channel index is in point `t`'s block iff each coordinate is in the block's range on its axis. -/
theorem edge2_mem_blk (t : Fin cfg2.N) (i : S80000x2048.Idx) :
    i ∈ ((cfg2.win 4).blk t).view.set ↔ ∀ a : Fin 2, win2_4.index t a * S400x2048.size a ≤ (i a).val
      ∧ (i a).val < win2_4.index t a * S400x2048.size a + S400x2048.size a := by
  show i ∈ ((View.whole main_v24).slice (win2_4.rect t)).set ↔ _
  rw [View.set_slice_whole, Rect.mem_set_unit]
  exact Iff.rfl

/-- Every edge is in some point's block, and every point writes back: edge `e` is in the block of index `e / 400`. -/
theorem edge2_cover (i : S80000x2048.Idx) :
    ∃ t : Fin cfg2.N, (cfg2.win 4).flush t = true ∧ i ∈ ((cfg2.win 4).blk t).view.set := by
  have hi0 : (i 0).val < 80000 := (i 0).isLt
  have hi1 : (i 1).val < 2048 := (i 1).isLt
  obtain ⟨t, ht⟩ := edge2_idx_onto ⟨(i 0).val / 400, by omega⟩
  have q0 : win2_4.index t (0 : Fin 2) = (i 0).val / 400 := congrFun ht 0
  have q1 : win2_4.index t (1 : Fin 2) = 0 := congrFun ht 1
  refine ⟨t, flush2_4 t, ?_⟩
  rw [edge2_mem_blk]
  intro a
  match a with
  | ⟨0, _⟩ =>
    show win2_4.index t (0 : Fin 2) * 400 ≤ (i 0).val ∧ (i 0).val < win2_4.index t (0 : Fin 2) * 400 + 400
    omega
  | ⟨1, _⟩ =>
    show win2_4.index t (1 : Fin 2) * 2048 ≤ (i 1).val ∧ (i 1).val < win2_4.index t (1 : Fin 2) * 2048 + 2048
    omega

/-- What the edge region leaves in its output array: on every edge and channel, the message of `Geo.edgeMsg` over the
    arrays the region finds in its four input windows. -/
theorem region2_value (c : Dev nD) :
    (dat2 (F := Ideal) V c).arrAt 4 cfg2.N
      = Cert.Geo.edgeMsg (E := 80000) (C := 2048) (V c main_v20) (V c main_v22) (V c main_arg7) (V c main_v23) :=
  (dat2 (F := Ideal) V c).arrAt_eq_of_cover 4
    (Cert.Geo.edgeMsg (E := 80000) (C := 2048) (V c main_v20) (V c main_v22) (V c main_arg7) (V c main_v23))
    (fun t _ => edge2_flushed_eq V c t) edge2_cover

end Cert.KernelIdeal.Val

end
-- ==== Proof.RegionNode3.lean ====
import proofs.«412862_j81758997447248_1_alg».proof.Proof.Gen.KernelIdeal.Frame
import proofs.«412862_j81758997447248_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The product of the aggregate block with the weights, at an index -/

/-- The left operand's row is the output's row. -/
theorem lhs_node3_0 (i : S400x2048.Idx) (q : dot_S400x2048_S2048x2048_S400x2048_1_0_0_1_n_n.contr.Idx) :
    (dot_S400x2048_S2048x2048_S400x2048_1_0_0_1_n_n.lhsIdx i q 0).val = (i 0).val := by
  unfold DotDims.lhsIdx
  rw [dif_neg (show ¬(0 : Fin S400x2048.rank) ∈ dot_S400x2048_S2048x2048_S400x2048_1_0_0_1_n_n.lhsBatch by decide), dif_pos (show (0 : Fin S400x2048.rank) ∈ dot_S400x2048_S2048x2048_S400x2048_1_0_0_1_n_n.lhsNonContracting by decide)]
  rfl
/-- The left operand's column is the contraction index. -/
theorem lhs_node3_1 (i : S400x2048.Idx) (q : dot_S400x2048_S2048x2048_S400x2048_1_0_0_1_n_n.contr.Idx) :
    (dot_S400x2048_S2048x2048_S400x2048_1_0_0_1_n_n.lhsIdx i q 1).val = (q ⟨0, by decide⟩).val :=
  dot_S400x2048_S2048x2048_S400x2048_1_0_0_1_n_n.lhsIdx_val_of_single rfl i q
/-- The right operand's row is the contraction index. -/
theorem rhs_node3_0 (i : S400x2048.Idx) (q : dot_S400x2048_S2048x2048_S400x2048_1_0_0_1_n_n.contr.Idx) :
    (dot_S400x2048_S2048x2048_S400x2048_1_0_0_1_n_n.rhsIdx i q 0).val = (q ⟨0, by decide⟩).val :=
  dot_S400x2048_S2048x2048_S400x2048_1_0_0_1_n_n.rhsIdx_val_of_single rfl i q
/-- The right operand's column is the output's column. -/
theorem rhs_node3_1 (i : S400x2048.Idx) (q : dot_S400x2048_S2048x2048_S400x2048_1_0_0_1_n_n.contr.Idx) :
    (dot_S400x2048_S2048x2048_S400x2048_1_0_0_1_n_n.rhsIdx i q 1).val = (i 1).val := by
  unfold DotDims.rhsIdx
  rw [dif_neg (show ¬(1 : Fin S2048x2048.rank) ∈ dot_S400x2048_S2048x2048_S400x2048_1_0_0_1_n_n.rhsBatch by decide), dif_pos (show (1 : Fin S2048x2048.rank) ∈ dot_S400x2048_S2048x2048_S400x2048_1_0_0_1_n_n.rhsNonContracting by decide)]
  rfl

/-- The matrix product into the zero accumulator, at row `r` and channel `ch`: the sum over the 2048 aggregate
    entries of the row against the channel's column of the weights. -/
theorem node3_matmul_apply (a : FVec Ideal S400x2048 .bf16) (w : FVec Ideal S2048x2048 .bf16) (r : Fin 400) (ch : Fin 2048) :
    matmul dot_S400x2048_S2048x2048_S400x2048_1_0_0_1_n_n none a w (constant (F := Ideal) S400x2048 .f32 0x00000000#32) (ix2 r ch)
      = ∑ k : Fin 2048, a (ix2 r k) * w (ix2 k ch) := by
  show FloatOps.matmul dot_S400x2048_S2048x2048_S400x2048_1_0_0_1_n_n none a w (constant (F := Ideal) S400x2048 .f32 0x00000000#32) (ix2 r ch) = _
  rw [Ideal.matmul_constant_zero_apply, ← Equiv.sum_comp (ValueIdx.contrEquiv1 dot_S400x2048_S2048x2048_S400x2048_1_0_0_1_n_n 2048 rfl rfl).symm]
  refine Finset.sum_congr rfl fun k _ => ?_
  have hk := ValueIdx.contrEquiv1_symm_val dot_S400x2048_S2048x2048_S400x2048_1_0_0_1_n_n 2048 rfl rfl k
  have el : dot_S400x2048_S2048x2048_S400x2048_1_0_0_1_n_n.lhsIdx (ix2 r ch) ((ValueIdx.contrEquiv1 dot_S400x2048_S2048x2048_S400x2048_1_0_0_1_n_n 2048 rfl rfl).symm k) = ix2 r k := funext fun x => Fin.ext (by
    match x with
    | ⟨0, _⟩ => exact lhs_node3_0 _ _
    | ⟨1, _⟩ => exact (lhs_node3_1 _ _).trans hk)
  have er : dot_S400x2048_S2048x2048_S400x2048_1_0_0_1_n_n.rhsIdx (ix2 r ch) ((ValueIdx.contrEquiv1 dot_S400x2048_S2048x2048_S400x2048_1_0_0_1_n_n 2048 rfl rfl).symm k) = ix2 k ch := funext fun x => Fin.ext (by
    match x with
    | ⟨0, _⟩ => exact (rhs_node3_0 _ _).trans hk
    | ⟨1, _⟩ => exact rhs_node3_1 _ _)
  rw [el, er]

/-- The bias row broadcast down the 400 rows reads the row's entry of the channel. -/
theorem node3_bias_apply (b : FVec Ideal S1x2048 .f32) (r : Fin 400) (ch : Fin 2048) :
    broadcastTo S400x2048 b broadcasts_S1x2048_S400x2048 (ix2 r ch) = b (ix2 0 ch) :=
  broadcastTo_apply b broadcasts_S1x2048_S400x2048 (ix2 r ch) (ix2 0 ch) (fun x => by
    match x with
    | ⟨0, _⟩ => rfl
    | ⟨1, _⟩ => rfl)

/-- The body's arithmetic at row `r` and channel `ch`: the rectified sum of the product and the bias. -/
theorem node3_payload_apply (a : Vec Ideal S400x2048 .bf16) (w : Vec Ideal S2048x2048 .bf16) (b : Vec Ideal S1x2048 .f32)
    (r : Fin 400) (ch : Fin 2048) :
    k3_pay1 (F := Ideal) a w b (ix2 r ch) = max ((∑ k : Fin 2048, a (ix2 r k) * w (ix2 k ch)) + b (ix2 0 ch)) 0 := by
  unfold k3_pay1
  simp only [shapeCast_self]
  rw [maximumf_apply, addf_apply, broadcast_apply]
  rw [node3_matmul_apply, node3_bias_apply]
  show max _ (Ideal.ofBits .f32 0x00000000#32) = _
  rw [Ideal.ofBits_zero_f32]

/-- The body at row `r` and channel `ch` of a block whose row `r` is node `n` of the aggregate, whose weights are
    the whole weight array and whose bias row is the whole bias row: the node's output in that channel. -/
theorem node3_point_apply (a : Vec Ideal S400x2048 .bf16) (w : Vec Ideal S2048x2048 .bf16) (b : Vec Ideal S1x2048 .f32)
    (A : Cert.Geo.Mat 10000 2048) (W : Cert.Geo.Mat 2048 2048) (B : Cert.Geo.Mat 1 2048)
    (r : Fin 400) (ch : Fin 2048) (n : Fin 10000)
    (ha : ∀ k : Fin 2048, a (ix2 r k) = A (ix2 n k)) (hw : ∀ k : Fin 2048, w (ix2 k ch) = W (ix2 k ch))
    (hb : b (ix2 0 ch) = B (ix2 0 ch)) :
    k3_pay1 (F := Ideal) a w b (ix2 r ch) = Cert.Geo.nodeOut A W B (ix2 n ch) := by
  rw [node3_payload_apply, Cert.Geo.nodeOut_apply, hb]
  exact congrArg (fun s => max (s + B (ix2 0 ch)) 0) (Finset.sum_congr rfl fun k _ => by rw [ha k, hw k])

/-! ## From the blocks to the array -/

/-- The zero origin of a rank-2 rectangle. -/
theorem node3_origin : (![0, 0] : Fin 2 → Nat) = fun _ => 0 := funext fun a => by fin_cases a <;> rfl

/-- The aggregate the region finds in its first window. -/
abbrev agg3 (c : Dev nD) : Cert.Geo.Mat 10000 2048 := V c main_v28
/-- The weights it finds in its second window. -/
abbrev wts3 (c : Dev nD) : Cert.Geo.Mat 2048 2048 := V c main_v29
/-- The bias row it finds in its third window. -/
abbrev bias3 (c : Dev nD) : Cert.Geo.Mat 1 2048 := V c main_v30

/-- The index maps over the 25 points: the aggregate's block moves with the output's along the nodes, both stay at
    column block 0, the weights and the bias row stay at block (0, 0), and the output's row block is at most 24. -/
theorem node3_index_facts : ∀ t : Fin cfg3.N,
    win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0
    ∧ win3_3.index t (0 : Fin 2) ≤ 24 :=
  (by decide +kernel : ∀ t : Fin grid3.N, _)

/-- Every row block of the output is some point's. -/
theorem node3_index_onto : ∀ q : Fin 25, ∃ t : Fin cfg3.N, win3_3.index t = ![q.val, 0] :=
  (by decide +kernel : ∀ q : Fin 25, ∃ t : Fin grid3.N, win3_3.index t = ![q.val, 0])

/-- Row `r` of the aggregate's block at point `t` is node `400·(row block) + r` of the aggregate. -/
theorem node3_agg_block (c : Dev nD) (t : Fin cfg3.N) (r : Fin 400) (k : Fin 2048) (n : Fin 10000)
    (hn : n.val = win3_3.index t (0 : Fin 2) * 400 + r.val) :
    (iblk3 V c 0 t : Vec Ideal S400x2048 .bf16) (ix2 r k) = agg3 V c (ix2 n k) := by
  obtain ⟨e0, e1, -⟩ := node3_index_facts t
  unfold iblk3
  rw [View.read_apply]
  show V c main_v28 _ = V c main_v28 _
  congr 1
  funext a
  apply Fin.ext
  match a with
  | ⟨0, _⟩ => show win3_0.index t (0 : Fin 2) * 400 + 1 * r.val = n.val; rw [e0, hn]; omega
  | ⟨1, _⟩ => show win3_0.index t (1 : Fin 2) * 2048 + 1 * k.val = k.val; rw [e1]; omega

/-- The weights' block at every point is the whole weight array. -/
theorem node3_wts_block (c : Dev nD) (t : Fin cfg3.N) (k : Fin 2048) (ch : Fin 2048) :
    (iblk3 V c 1 t : Vec Ideal S2048x2048 .bf16) (ix2 k ch) = wts3 V c (ix2 k ch) := by
  obtain ⟨-, -, e2, e3, -⟩ := node3_index_facts t
  unfold iblk3
  rw [View.read_apply]
  show V c main_v29 _ = V c main_v29 _
  congr 1
  funext a
  apply Fin.ext
  match a with
  | ⟨0, _⟩ => show win3_1.index t (0 : Fin 2) * 2048 + 1 * k.val = k.val; rw [e2]; omega
  | ⟨1, _⟩ => show win3_1.index t (1 : Fin 2) * 2048 + 1 * ch.val = ch.val; rw [e3]; omega

/-- The bias row's block at every point is the whole bias row. -/
theorem node3_bias_block (c : Dev nD) (t : Fin cfg3.N) (ch : Fin 2048) :
    (iblk3 V c 2 t : Vec Ideal S1x2048 .f32) (ix2 0 ch) = bias3 V c (ix2 0 ch) := by
  obtain ⟨-, -, -, -, e4, e5, -⟩ := node3_index_facts t
  unfold iblk3
  rw [View.read_apply]
  show V c main_v30 _ = V c main_v30 _
  congr 1
  funext a
  apply Fin.ext
  match a with
  | ⟨0, _⟩ => show win3_2.index t (0 : Fin 2) * 1 + 1 * 0 = 0; rw [e4]
  | ⟨1, _⟩ => show win3_2.index t (1 : Fin 2) * 2048 + 1 * ch.val = ch.val; rw [e5]; omega

/-- What point `t` writes back is its block of the node outputs over the arrays the region finds. -/
theorem node3_flushed (c : Dev nD) (t : Fin cfg3.N) :
    (dat3 (F := Ideal) V c).flushed 3 t
      = ((cfg3.win 3).blk t).view.read (Elt Ideal) (Cert.Geo.nodeOut (agg3 V c) (wts3 V c) (bias3 V c)) := by
  show (cfg3.win 3).cut (grid3.coords t) ((dat3 V c).after 3 t) = _
  rw [after3_3]
  unfold out3_3
  rw [View.canon_unit_zero node3_origin]
  simp only [View.ld_unit_zero (S := S400x2048) node3_origin, View.ld_unit_zero (S := S2048x2048) node3_origin,
    View.ld_unit_zero (S := S1x2048) node3_origin]
  obtain ⟨-, -, -, -, -, -, e6, e7⟩ := node3_index_facts t
  funext j
  obtain ⟨r, ch, rfl⟩ : ∃ (r : Fin 400) (ch : Fin 2048), j = ix2 r ch := ⟨j 0, j 1, eq_ix2 j⟩
  have hr : r.val < 400 := r.isLt
  have hn : win3_3.index t (0 : Fin 2) * 400 + r.val < 10000 := by omega
  have hi : ((cfg3.win 3).blk t).view.emb (ix2 r ch)
      = ix2 (⟨win3_3.index t (0 : Fin 2) * 400 + r.val, hn⟩ : Fin 10000) ch := by
    funext a
    apply Fin.ext
    match a with
    | ⟨0, _⟩ => show win3_3.index t (0 : Fin 2) * 400 + 1 * r.val = win3_3.index t (0 : Fin 2) * 400 + r.val; omega
    | ⟨1, _⟩ => show win3_3.index t (1 : Fin 2) * 2048 + 1 * ch.val = ch.val; rw [e6]; omega
  show k3_pay1 (F := Ideal) (iblk3 V c 0 t) (iblk3 V c 1 t) (iblk3 V c 2 t) (ix2 r ch)
    = Cert.Geo.nodeOut (agg3 V c) (wts3 V c) (bias3 V c) (((cfg3.win 3).blk t).view.emb (ix2 r ch))
  refine Eq.trans ?_ (congrArg (Cert.Geo.nodeOut (agg3 V c) (wts3 V c) (bias3 V c)) hi.symm)
  exact node3_point_apply (iblk3 V c 0 t) (iblk3 V c 1 t) (iblk3 V c 2 t) (agg3 V c) (wts3 V c) (bias3 V c) r ch
    ⟨win3_3.index t (0 : Fin 2) * 400 + r.val, hn⟩
    (fun k => node3_agg_block V c t r k ⟨win3_3.index t (0 : Fin 2) * 400 + r.val, hn⟩ rfl)
    (fun k => node3_wts_block V c t k ch) (node3_bias_block V c t ch)

/-- An index of the output array is in point `t`'s block iff each coordinate is in the block's range on its axis. -/
theorem node3_mem_blk (t : Fin cfg3.N) (i : S10000x2048.Idx) :
    i ∈ ((cfg3.win 3).blk t).view.set ↔ ∀ a : Fin 2, win3_3.index t a * S400x2048.size a ≤ (i a).val ∧ (i a).val < win3_3.index t a * S400x2048.size a + S400x2048.size a := by
  show i ∈ ((View.whole main_v31).slice (win3_3.rect t)).set ↔ _
  rw [View.set_slice_whole, Rect.mem_set_unit]
  exact Iff.rfl

/-- Node `n` lies in the block of the point whose row block is `n / 400`: the 25 blocks cover the output array. -/
theorem node3_cover (i : S10000x2048.Idx) :
    ∃ t : Fin cfg3.N, (cfg3.win 3).flush t = true ∧ i ∈ ((cfg3.win 3).blk t).view.set := by
  have hi0 : (i 0).val < 10000 := (i 0).isLt
  have hi1 : (i 1).val < 2048 := (i 1).isLt
  obtain ⟨t, ht⟩ := node3_index_onto ⟨(i 0).val / 400, by omega⟩
  have q0 : win3_3.index t (0 : Fin 2) = (i 0).val / 400 := congrFun ht 0
  have q1 : win3_3.index t (1 : Fin 2) = 0 := congrFun ht 1
  refine ⟨t, flush3_3 t, ?_⟩
  rw [node3_mem_blk]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 2048 ≤ (i 1).val ∧ (i 1).val < win3_3.index t (1 : Fin 2) * 2048 + 2048; omega

/-- What the node region leaves in its output array: on every node and channel, `Geo.nodeOut` over the arrays
    the region finds in its three input windows (the aggregate, the weights, the bias row). -/
theorem region3_value (c : Dev nD) :
    (dat3 (F := Ideal) V c).arrAt 3 cfg3.N
      = Cert.Geo.nodeOut (N := 10000) (K := 2048) (C := 2048) (V c main_v28) (V c main_v29) (V c main_v30) :=
  (dat3 (F := Ideal) V c).arrAt_eq_of_cover 3 (Cert.Geo.nodeOut (agg3 V c) (wts3 V c) (bias3 V c))
    (fun t _ => node3_flushed V c t) node3_cover

end Cert.KernelIdeal.Val

end
-- ==== Proof.Chain2.lean ====
import proofs.«412862_j81758997447248_1_alg».proof.Proof.ChainBase
import proofs.«412862_j81758997447248_1_alg».proof.Proof.Take
import proofs.«412862_j81758997447248_1_alg».proof.Proof.RefStages
import proofs.«412862_j81758997447248_1_alg».proof.Proof.Gen.ReferenceIdeal.Read
import Idealize.ShloMosaic.Lib.Pipeline.Value
import Idealize.ShloMosaic.Lib.ValueIdx
import Idealize.ShloMosaic.Lib.ValueLayout
import proofs.«412862_j81758997447248_1_alg».proof.Proof.RegionEdge2
import proofs.«412862_j81758997447248_1_alg».proof.Proof.RegionNode3

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## What each host stretch of the layer computes, from any entry contents -/

/-- The first stretch's two results: the rows of the index array, as flat vectors. -/
theorem l2_src0 (V : Valuation τ sig (Elt Ideal)) :
    StableHlo.after hostOps0 V (Proc.devRef .tc main_v1) = srcOf (V (Proc.devRef .tc main_arg2)) := by
  after_results
  rfl
theorem l2_dst0 (V : Valuation τ sig (Elt Ideal)) :
    StableHlo.after hostOps0 V (Proc.devRef .tc main_v3) = dstOf (V (Proc.devRef .tc main_arg2)) := by
  after_results
  rfl

/-- The first take of the layer: the positions at the edges' source nodes. -/
theorem l2_take_src (V : Valuation τ sig (Elt Ideal)) :
    StableHlo.after hostOps2 V (Proc.devRef .tc main_v18) = take2 (V (Proc.devRef .tc main_arg1)) (V (Proc.devRef .tc main_v1)) := by
  after_results_simp
  simp only [StableHlo.TRef.toBuf, StableHlo.TRef.ofBuf, cast_eq]
  rfl

/-- The second take: the positions at the edges' destination nodes. -/
theorem l2_take_dst (V : Valuation τ sig (Elt Ideal)) :
    StableHlo.after hostOps2_1 V (Proc.devRef .tc main_v19) = take2 (V (Proc.devRef .tc main_arg1)) (V (Proc.devRef .tc main_v3)) := by
  after_results_simp
  simp only [StableHlo.TRef.toBuf, StableHlo.TRef.ofBuf, cast_eq]
  rfl

/-- The third take: the previous layer's node outputs at the edges' source nodes. -/
theorem l2_take_h (V : Valuation τ sig (Elt Ideal)) :
    StableHlo.after hostOps2_3 V (Proc.devRef .tc main_v21) = take2048 (V (Proc.devRef .tc main_v17)) (V (Proc.devRef .tc main_v1)) := by
  after_results_simp
  simp only [StableHlo.TRef.toBuf, StableHlo.TRef.ofBuf, cast_eq]
  rfl

/-- The one-operation stretch: the relative positions are the difference of the two gathered position arrays. -/
theorem l2_sub (V : Valuation τ sig (Elt Ideal)) :
    StableHlo.after hostOps2_2 V (Proc.devRef .tc main_v20)
      = subf (F := Ideal) (s := S80000x2) (φ := .f32) (V (Proc.devRef .tc main_v18)) (V (Proc.devRef .tc main_v19)) := by
  after_results

/-- The gathered features enter the edge region in the narrower format. -/
theorem l2_trunc (V : Valuation τ sig (Elt Ideal)) :
    StableHlo.after hostOps2_4 V (Proc.devRef .tc main_v22)
      = truncf (F := Ideal) (s := S80000x2048) (φ := .f32) .bf16 (V (Proc.devRef .tc main_v21)) bitsLt_bf16_f32 := by
  after_results

/-- The edge region's bias window is the bias vector laid out as one row. -/
theorem l2_biasrow (V : Valuation τ sig (Elt Ideal)) :
    StableHlo.after hostOps2_4 V (Proc.devRef .tc main_v23) = shapeCast S1x2048 (V (Proc.devRef .tc main_arg8)) shapeCasts_S2048_S1x2048 := by
  after_results
  rfl

/-- The aggregate: the messages scatter-added into zeros at the destination nodes, then narrowed. -/
theorem l2_scatter (V : Valuation τ sig (Elt Ideal)) :
    StableHlo.after hostOps3 V (Proc.devRef .tc main_v28)
      = truncf .bf16 (Host.scatterAdd scatter_S10000x2048_S80000x1_S80000x2048_1_0_0_1
          (broadcastInDim S10000x2048 ![] bcast_S_S10000x2048 (constant (F := Ideal) S_ .f32 0x00000000#32))
          (broadcastInDim S80000x1 ![0] bcast_S80000_S80000x1_0 (V (Proc.devRef .tc main_v3)))
          (V (Proc.devRef .tc main_v24))) bitsLt_bf16_f32 := by
  after_results

/-- The node region's weights are the argument, narrowed. -/
theorem l2_wts (V : Valuation τ sig (Elt Ideal)) :
    StableHlo.after hostOps3 V (Proc.devRef .tc main_v29)
      = truncf (F := Ideal) (s := S2048x2048) (φ := .f32) .bf16 (V (Proc.devRef .tc main_arg9)) bitsLt_bf16_f32 := by
  after_results

/-- The node region's bias window is the bias vector laid out as one row. -/
theorem l2_biasrow3 (V : Valuation τ sig (Elt Ideal)) :
    StableHlo.after hostOps3 V (Proc.devRef .tc main_v30) = shapeCast S1x2048 (V (Proc.devRef .tc main_arg10)) shapeCasts_S2048_S1x2048 := by
  after_results
  rfl

/-! ## Buffers carried unchanged across segment boundaries -/

/-- One step back across a host stretch none of whose operations writes the buffer: its contents are the
    stretch's entry contents. -/
local macro "l2_host_keep " ops:ident : tactic => `(tactic|
  (refine StableHlo.after_of_forall_not_mem _ _ (List.forall_iff_forall_mem.mp ?_)
   simp only [$ops:ident, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

theorem l2_k_v1_9_5 (c : Dev nD) : W9 m ρ c (Proc.devRef .tc main_v1) = W5 m ρ c (Proc.devRef .tc main_v1) :=
  calc W9 m ρ c (Proc.devRef .tc main_v1)
    _ = W8 m ρ c (Proc.devRef .tc main_v1) := W9_of_ne m ρ c main_v1 (by decide)
    _ = W7 m ρ c (Proc.devRef .tc main_v1) := by l2_host_keep hostOps1
    _ = W6 m ρ c (Proc.devRef .tc main_v1) := W7_of_ne m ρ c main_v1 (by decide)
    _ = W5 m ρ c (Proc.devRef .tc main_v1) := by l2_host_keep hostOps0_5
theorem l2_k_v1_5_1 (c : Dev nD) : W5 m ρ c (Proc.devRef .tc main_v1) = W1 m ρ c (Proc.devRef .tc main_v1) :=
  calc W5 m ρ c (Proc.devRef .tc main_v1)
    _ = W4 m ρ c (Proc.devRef .tc main_v1) := by l2_host_keep hostOps0_4
    _ = W3 m ρ c (Proc.devRef .tc main_v1) := by l2_host_keep hostOps0_3
    _ = W2 m ρ c (Proc.devRef .tc main_v1) := by l2_host_keep hostOps0_2
    _ = W1 m ρ c (Proc.devRef .tc main_v1) := by l2_host_keep hostOps0_1
theorem l2_k_v1_12_10 (c : Dev nD) : W12 m ρ c (Proc.devRef .tc main_v1) = W10 m ρ c (Proc.devRef .tc main_v1) :=
  calc W12 m ρ c (Proc.devRef .tc main_v1)
    _ = W11 m ρ c (Proc.devRef .tc main_v1) := by l2_host_keep hostOps2_2
    _ = W10 m ρ c (Proc.devRef .tc main_v1) := by l2_host_keep hostOps2_1
theorem l2_k_v1_10_9 (c : Dev nD) : W10 m ρ c (Proc.devRef .tc main_v1) = W9 m ρ c (Proc.devRef .tc main_v1) :=
  calc W10 m ρ c (Proc.devRef .tc main_v1)
    _ = W9 m ρ c (Proc.devRef .tc main_v1) := by l2_host_keep hostOps2
theorem l2_k_v3_10_5 (c : Dev nD) : W10 m ρ c (Proc.devRef .tc main_v3) = W5 m ρ c (Proc.devRef .tc main_v3) :=
  calc W10 m ρ c (Proc.devRef .tc main_v3)
    _ = W9 m ρ c (Proc.devRef .tc main_v3) := by l2_host_keep hostOps2
    _ = W8 m ρ c (Proc.devRef .tc main_v3) := W9_of_ne m ρ c main_v3 (by decide)
    _ = W7 m ρ c (Proc.devRef .tc main_v3) := by l2_host_keep hostOps1
    _ = W6 m ρ c (Proc.devRef .tc main_v3) := W7_of_ne m ρ c main_v3 (by decide)
    _ = W5 m ρ c (Proc.devRef .tc main_v3) := by l2_host_keep hostOps0_5
theorem l2_k_v3_5_1 (c : Dev nD) : W5 m ρ c (Proc.devRef .tc main_v3) = W1 m ρ c (Proc.devRef .tc main_v3) :=
  calc W5 m ρ c (Proc.devRef .tc main_v3)
    _ = W4 m ρ c (Proc.devRef .tc main_v3) := by l2_host_keep hostOps0_4
    _ = W3 m ρ c (Proc.devRef .tc main_v3) := by l2_host_keep hostOps0_3
    _ = W2 m ρ c (Proc.devRef .tc main_v3) := by l2_host_keep hostOps0_2
    _ = W1 m ρ c (Proc.devRef .tc main_v3) := by l2_host_keep hostOps0_1
theorem l2_k_v3_15_10 (c : Dev nD) : W15 m ρ c (Proc.devRef .tc main_v3) = W10 m ρ c (Proc.devRef .tc main_v3) :=
  calc W15 m ρ c (Proc.devRef .tc main_v3)
    _ = W14 m ρ c (Proc.devRef .tc main_v3) := W15_of_ne m ρ c main_v3 (by decide)
    _ = W13 m ρ c (Proc.devRef .tc main_v3) := by l2_host_keep hostOps2_4
    _ = W12 m ρ c (Proc.devRef .tc main_v3) := by l2_host_keep hostOps2_3
    _ = W11 m ρ c (Proc.devRef .tc main_v3) := by l2_host_keep hostOps2_2
    _ = W10 m ρ c (Proc.devRef .tc main_v3) := by l2_host_keep hostOps2_1
theorem l2_k_arg1_9_5 (c : Dev nD) : W9 m ρ c (Proc.devRef .tc main_arg1) = W5 m ρ c (Proc.devRef .tc main_arg1) :=
  calc W9 m ρ c (Proc.devRef .tc main_arg1)
    _ = W8 m ρ c (Proc.devRef .tc main_arg1) := W9_of_ne m ρ c main_arg1 (by decide)
    _ = W7 m ρ c (Proc.devRef .tc main_arg1) := by l2_host_keep hostOps1
    _ = W6 m ρ c (Proc.devRef .tc main_arg1) := W7_of_ne m ρ c main_arg1 (by decide)
    _ = W5 m ρ c (Proc.devRef .tc main_arg1) := by l2_host_keep hostOps0_5
theorem l2_k_arg1_5_0 (c : Dev nD) : W5 m ρ c (Proc.devRef .tc main_arg1) = W0 m ρ c (Proc.devRef .tc main_arg1) :=
  calc W5 m ρ c (Proc.devRef .tc main_arg1)
    _ = W4 m ρ c (Proc.devRef .tc main_arg1) := by l2_host_keep hostOps0_4
    _ = W3 m ρ c (Proc.devRef .tc main_arg1) := by l2_host_keep hostOps0_3
    _ = W2 m ρ c (Proc.devRef .tc main_arg1) := by l2_host_keep hostOps0_2
    _ = W1 m ρ c (Proc.devRef .tc main_arg1) := by l2_host_keep hostOps0_1
    _ = W0 m ρ c (Proc.devRef .tc main_arg1) := by l2_host_keep hostOps0
theorem l2_k_arg1_10_9 (c : Dev nD) : W10 m ρ c (Proc.devRef .tc main_arg1) = W9 m ρ c (Proc.devRef .tc main_arg1) :=
  calc W10 m ρ c (Proc.devRef .tc main_arg1)
    _ = W9 m ρ c (Proc.devRef .tc main_arg1) := by l2_host_keep hostOps2
theorem l2_k_arg7_14_10 (c : Dev nD) : W14 m ρ c (Proc.devRef .tc main_arg7) = W10 m ρ c (Proc.devRef .tc main_arg7) :=
  calc W14 m ρ c (Proc.devRef .tc main_arg7)
    _ = W13 m ρ c (Proc.devRef .tc main_arg7) := by l2_host_keep hostOps2_4
    _ = W12 m ρ c (Proc.devRef .tc main_arg7) := by l2_host_keep hostOps2_3
    _ = W11 m ρ c (Proc.devRef .tc main_arg7) := by l2_host_keep hostOps2_2
    _ = W10 m ρ c (Proc.devRef .tc main_arg7) := by l2_host_keep hostOps2_1
theorem l2_k_arg7_10_5 (c : Dev nD) : W10 m ρ c (Proc.devRef .tc main_arg7) = W5 m ρ c (Proc.devRef .tc main_arg7) :=
  calc W10 m ρ c (Proc.devRef .tc main_arg7)
    _ = W9 m ρ c (Proc.devRef .tc main_arg7) := by l2_host_keep hostOps2
    _ = W8 m ρ c (Proc.devRef .tc main_arg7) := W9_of_ne m ρ c main_arg7 (by decide)
    _ = W7 m ρ c (Proc.devRef .tc main_arg7) := by l2_host_keep hostOps1
    _ = W6 m ρ c (Proc.devRef .tc main_arg7) := W7_of_ne m ρ c main_arg7 (by decide)
    _ = W5 m ρ c (Proc.devRef .tc main_arg7) := by l2_host_keep hostOps0_5
theorem l2_k_arg7_5_0 (c : Dev nD) : W5 m ρ c (Proc.devRef .tc main_arg7) = W0 m ρ c (Proc.devRef .tc main_arg7) :=
  calc W5 m ρ c (Proc.devRef .tc main_arg7)
    _ = W4 m ρ c (Proc.devRef .tc main_arg7) := by l2_host_keep hostOps0_4
    _ = W3 m ρ c (Proc.devRef .tc main_arg7) := by l2_host_keep hostOps0_3
    _ = W2 m ρ c (Proc.devRef .tc main_arg7) := by l2_host_keep hostOps0_2
    _ = W1 m ρ c (Proc.devRef .tc main_arg7) := by l2_host_keep hostOps0_1
    _ = W0 m ρ c (Proc.devRef .tc main_arg7) := by l2_host_keep hostOps0
theorem l2_k_arg8_13_10 (c : Dev nD) : W13 m ρ c (Proc.devRef .tc main_arg8) = W10 m ρ c (Proc.devRef .tc main_arg8) :=
  calc W13 m ρ c (Proc.devRef .tc main_arg8)
    _ = W12 m ρ c (Proc.devRef .tc main_arg8) := by l2_host_keep hostOps2_3
    _ = W11 m ρ c (Proc.devRef .tc main_arg8) := by l2_host_keep hostOps2_2
    _ = W10 m ρ c (Proc.devRef .tc main_arg8) := by l2_host_keep hostOps2_1
theorem l2_k_arg8_10_5 (c : Dev nD) : W10 m ρ c (Proc.devRef .tc main_arg8) = W5 m ρ c (Proc.devRef .tc main_arg8) :=
  calc W10 m ρ c (Proc.devRef .tc main_arg8)
    _ = W9 m ρ c (Proc.devRef .tc main_arg8) := by l2_host_keep hostOps2
    _ = W8 m ρ c (Proc.devRef .tc main_arg8) := W9_of_ne m ρ c main_arg8 (by decide)
    _ = W7 m ρ c (Proc.devRef .tc main_arg8) := by l2_host_keep hostOps1
    _ = W6 m ρ c (Proc.devRef .tc main_arg8) := W7_of_ne m ρ c main_arg8 (by decide)
    _ = W5 m ρ c (Proc.devRef .tc main_arg8) := by l2_host_keep hostOps0_5
theorem l2_k_arg8_5_0 (c : Dev nD) : W5 m ρ c (Proc.devRef .tc main_arg8) = W0 m ρ c (Proc.devRef .tc main_arg8) :=
  calc W5 m ρ c (Proc.devRef .tc main_arg8)
    _ = W4 m ρ c (Proc.devRef .tc main_arg8) := by l2_host_keep hostOps0_4
    _ = W3 m ρ c (Proc.devRef .tc main_arg8) := by l2_host_keep hostOps0_3
    _ = W2 m ρ c (Proc.devRef .tc main_arg8) := by l2_host_keep hostOps0_2
    _ = W1 m ρ c (Proc.devRef .tc main_arg8) := by l2_host_keep hostOps0_1
    _ = W0 m ρ c (Proc.devRef .tc main_arg8) := by l2_host_keep hostOps0
theorem l2_k_arg9_15_10 (c : Dev nD) : W15 m ρ c (Proc.devRef .tc main_arg9) = W10 m ρ c (Proc.devRef .tc main_arg9) :=
  calc W15 m ρ c (Proc.devRef .tc main_arg9)
    _ = W14 m ρ c (Proc.devRef .tc main_arg9) := W15_of_ne m ρ c main_arg9 (by decide)
    _ = W13 m ρ c (Proc.devRef .tc main_arg9) := by l2_host_keep hostOps2_4
    _ = W12 m ρ c (Proc.devRef .tc main_arg9) := by l2_host_keep hostOps2_3
    _ = W11 m ρ c (Proc.devRef .tc main_arg9) := by l2_host_keep hostOps2_2
    _ = W10 m ρ c (Proc.devRef .tc main_arg9) := by l2_host_keep hostOps2_1
theorem l2_k_arg9_10_5 (c : Dev nD) : W10 m ρ c (Proc.devRef .tc main_arg9) = W5 m ρ c (Proc.devRef .tc main_arg9) :=
  calc W10 m ρ c (Proc.devRef .tc main_arg9)
    _ = W9 m ρ c (Proc.devRef .tc main_arg9) := by l2_host_keep hostOps2
    _ = W8 m ρ c (Proc.devRef .tc main_arg9) := W9_of_ne m ρ c main_arg9 (by decide)
    _ = W7 m ρ c (Proc.devRef .tc main_arg9) := by l2_host_keep hostOps1
    _ = W6 m ρ c (Proc.devRef .tc main_arg9) := W7_of_ne m ρ c main_arg9 (by decide)
    _ = W5 m ρ c (Proc.devRef .tc main_arg9) := by l2_host_keep hostOps0_5
theorem l2_k_arg9_5_0 (c : Dev nD) : W5 m ρ c (Proc.devRef .tc main_arg9) = W0 m ρ c (Proc.devRef .tc main_arg9) :=
  calc W5 m ρ c (Proc.devRef .tc main_arg9)
    _ = W4 m ρ c (Proc.devRef .tc main_arg9) := by l2_host_keep hostOps0_4
    _ = W3 m ρ c (Proc.devRef .tc main_arg9) := by l2_host_keep hostOps0_3
    _ = W2 m ρ c (Proc.devRef .tc main_arg9) := by l2_host_keep hostOps0_2
    _ = W1 m ρ c (Proc.devRef .tc main_arg9) := by l2_host_keep hostOps0_1
    _ = W0 m ρ c (Proc.devRef .tc main_arg9) := by l2_host_keep hostOps0
theorem l2_k_arg10_15_10 (c : Dev nD) : W15 m ρ c (Proc.devRef .tc main_arg10) = W10 m ρ c (Proc.devRef .tc main_arg10) :=
  calc W15 m ρ c (Proc.devRef .tc main_arg10)
    _ = W14 m ρ c (Proc.devRef .tc main_arg10) := W15_of_ne m ρ c main_arg10 (by decide)
    _ = W13 m ρ c (Proc.devRef .tc main_arg10) := by l2_host_keep hostOps2_4
    _ = W12 m ρ c (Proc.devRef .tc main_arg10) := by l2_host_keep hostOps2_3
    _ = W11 m ρ c (Proc.devRef .tc main_arg10) := by l2_host_keep hostOps2_2
    _ = W10 m ρ c (Proc.devRef .tc main_arg10) := by l2_host_keep hostOps2_1
theorem l2_k_arg10_10_5 (c : Dev nD) : W10 m ρ c (Proc.devRef .tc main_arg10) = W5 m ρ c (Proc.devRef .tc main_arg10) :=
  calc W10 m ρ c (Proc.devRef .tc main_arg10)
    _ = W9 m ρ c (Proc.devRef .tc main_arg10) := by l2_host_keep hostOps2
    _ = W8 m ρ c (Proc.devRef .tc main_arg10) := W9_of_ne m ρ c main_arg10 (by decide)
    _ = W7 m ρ c (Proc.devRef .tc main_arg10) := by l2_host_keep hostOps1
    _ = W6 m ρ c (Proc.devRef .tc main_arg10) := W7_of_ne m ρ c main_arg10 (by decide)
    _ = W5 m ρ c (Proc.devRef .tc main_arg10) := by l2_host_keep hostOps0_5
theorem l2_k_arg10_5_0 (c : Dev nD) : W5 m ρ c (Proc.devRef .tc main_arg10) = W0 m ρ c (Proc.devRef .tc main_arg10) :=
  calc W5 m ρ c (Proc.devRef .tc main_arg10)
    _ = W4 m ρ c (Proc.devRef .tc main_arg10) := by l2_host_keep hostOps0_4
    _ = W3 m ρ c (Proc.devRef .tc main_arg10) := by l2_host_keep hostOps0_3
    _ = W2 m ρ c (Proc.devRef .tc main_arg10) := by l2_host_keep hostOps0_2
    _ = W1 m ρ c (Proc.devRef .tc main_arg10) := by l2_host_keep hostOps0_1
    _ = W0 m ρ c (Proc.devRef .tc main_arg10) := by l2_host_keep hostOps0
theorem l2_k_v17_12_10 (c : Dev nD) : W12 m ρ c (Proc.devRef .tc main_v17) = W10 m ρ c (Proc.devRef .tc main_v17) :=
  calc W12 m ρ c (Proc.devRef .tc main_v17)
    _ = W11 m ρ c (Proc.devRef .tc main_v17) := by l2_host_keep hostOps2_2
    _ = W10 m ρ c (Proc.devRef .tc main_v17) := by l2_host_keep hostOps2_1
theorem l2_k_v17_10_9 (c : Dev nD) : W10 m ρ c (Proc.devRef .tc main_v17) = W9 m ρ c (Proc.devRef .tc main_v17) :=
  calc W10 m ρ c (Proc.devRef .tc main_v17)
    _ = W9 m ρ c (Proc.devRef .tc main_v17) := by l2_host_keep hostOps2
theorem l2_k_v18_11_10 (c : Dev nD) : W11 m ρ c (Proc.devRef .tc main_v18) = W10 m ρ c (Proc.devRef .tc main_v18) :=
  calc W11 m ρ c (Proc.devRef .tc main_v18)
    _ = W10 m ρ c (Proc.devRef .tc main_v18) := by l2_host_keep hostOps2_1
theorem l2_k_v20_14_12 (c : Dev nD) : W14 m ρ c (Proc.devRef .tc main_v20) = W12 m ρ c (Proc.devRef .tc main_v20) :=
  calc W14 m ρ c (Proc.devRef .tc main_v20)
    _ = W13 m ρ c (Proc.devRef .tc main_v20) := by l2_host_keep hostOps2_4
    _ = W12 m ρ c (Proc.devRef .tc main_v20) := by l2_host_keep hostOps2_3

/-- At the layer's entry the source-node vector is row 0 of the launched index array. -/
theorem l2_src9 (c : Dev nD) : W9 m ρ c (Proc.devRef .tc main_v1) = srcOf (A2 m c) :=
  ((l2_k_v1_9_5 m ρ c).trans (l2_k_v1_5_1 m ρ c)).trans (l2_src0 (W0 m ρ c))
/-- … and still is when the third take reads it. -/
theorem l2_src12 (c : Dev nD) : W12 m ρ c (Proc.devRef .tc main_v1) = srcOf (A2 m c) :=
  ((l2_k_v1_12_10 m ρ c).trans (l2_k_v1_10_9 m ρ c)).trans (l2_src9 m ρ c)
/-- The destination-node vector is row 1, when the second take reads it and when the scatter does. -/
theorem l2_dst10 (c : Dev nD) : W10 m ρ c (Proc.devRef .tc main_v3) = dstOf (A2 m c) :=
  ((l2_k_v3_10_5 m ρ c).trans (l2_k_v3_5_1 m ρ c)).trans (l2_dst0 (W0 m ρ c))
theorem l2_dst15 (c : Dev nD) : W15 m ρ c (Proc.devRef .tc main_v3) = dstOf (A2 m c) :=
  (l2_k_v3_15_10 m ρ c).trans (l2_dst10 m ρ c)
/-- The arguments are as launched wherever the layer reads them. -/
theorem l2_pos9 (c : Dev nD) : W9 m ρ c (Proc.devRef .tc main_arg1) = A1 m c := ((l2_k_arg1_9_5 m ρ c).trans (l2_k_arg1_5_0 m ρ c))
theorem l2_pos10 (c : Dev nD) : W10 m ρ c (Proc.devRef .tc main_arg1) = A1 m c := (l2_k_arg1_10_9 m ρ c).trans (l2_pos9 m ρ c)
theorem l2_w7 (c : Dev nD) : W14 m ρ c (Proc.devRef .tc main_arg7) = A7 m c := (((l2_k_arg7_14_10 m ρ c).trans (l2_k_arg7_10_5 m ρ c)).trans (l2_k_arg7_5_0 m ρ c))
theorem l2_b8 (c : Dev nD) : W13 m ρ c (Proc.devRef .tc main_arg8) = A8 m c := (((l2_k_arg8_13_10 m ρ c).trans (l2_k_arg8_10_5 m ρ c)).trans (l2_k_arg8_5_0 m ρ c))
theorem l2_w9 (c : Dev nD) : W15 m ρ c (Proc.devRef .tc main_arg9) = A9 m c := (((l2_k_arg9_15_10 m ρ c).trans (l2_k_arg9_10_5 m ρ c)).trans (l2_k_arg9_5_0 m ρ c))
theorem l2_b10 (c : Dev nD) : W15 m ρ c (Proc.devRef .tc main_arg10) = A10 m c := (((l2_k_arg10_15_10 m ρ c).trans (l2_k_arg10_10_5 m ρ c)).trans (l2_k_arg10_5_0 m ρ c))

/-- The previous layer's output is still in place when the third take reads it. -/
theorem l2_h12 (c : Dev nD)
    (h1 : W9 m ρ c (Proc.devRef .tc main_v17) = Cert.ReferenceIdeal.Read.val_main_v39 (F := Ideal) (A0 m c) (A1 m c) (A2 m c) (A3 m c) (A4 m c) (A5 m c) (A6 m c)) :
    W12 m ρ c (Proc.devRef .tc main_v17) = Cert.ReferenceIdeal.Read.val_main_v39 (F := Ideal) (A0 m c) (A1 m c) (A2 m c) (A3 m c) (A4 m c) (A5 m c) (A6 m c) :=
  ((l2_k_v17_12_10 m ρ c).trans (l2_k_v17_10_9 m ρ c)).trans h1

/-! ## The reference's stages of this layer, as the same operations -/

/-- The reference's first gather of this layer reads the positions at the same wrapped source index. -/
theorem l2_gather_src (pos : Vec Ideal S10000x2 .f32) (ei : IVec S2x80000 32) :
    Host.gather gather_S10000x2_S80000x1_S80000x2_1_0_n_n_0_1_12 pos (wrapB (srcOf ei))
      = Cert.ReferenceIdeal.Read.val_main_v46 (F := Ideal) pos ei := by
  unfold Cert.ReferenceIdeal.Read.val_main_v46 Cert.ReferenceIdeal.Read.val_main_v45 Cert.ReferenceIdeal.Read.val_main_v44 Cert.ReferenceIdeal.Read.val_main_v43 Cert.ReferenceIdeal.Read.val_main_v42 Cert.ReferenceIdeal.Read.val_main_v41 Cert.ReferenceIdeal.Read.val_main_v40 Cert.ReferenceIdeal.Read.val_main_v1 Cert.ReferenceIdeal.Read.val_main_v0 Cert.ReferenceIdeal.Read.val_main_c_5 Cert.ReferenceIdeal.Read.val_main_c_6 wrapB srcOf
  rfl

/-- … its second at the same wrapped destination index. -/
theorem l2_gather_dst (pos : Vec Ideal S10000x2 .f32) (ei : IVec S2x80000 32) :
    Host.gather gather_S10000x2_S80000x1_S80000x2_1_0_n_n_0_1_12 pos (wrapB (dstOf ei))
      = Cert.ReferenceIdeal.Read.val_main_v53 (F := Ideal) pos ei := by
  unfold Cert.ReferenceIdeal.Read.val_main_v53 Cert.ReferenceIdeal.Read.val_main_v52 Cert.ReferenceIdeal.Read.val_main_v51 Cert.ReferenceIdeal.Read.val_main_v50 Cert.ReferenceIdeal.Read.val_main_v49 Cert.ReferenceIdeal.Read.val_main_v48 Cert.ReferenceIdeal.Read.val_main_v47 Cert.ReferenceIdeal.Read.val_main_v3 Cert.ReferenceIdeal.Read.val_main_v2 Cert.ReferenceIdeal.Read.val_main_c_7 Cert.ReferenceIdeal.Read.val_main_c_8 wrapB dstOf
  rfl

/-- … and its third, of the previous layer's output, again at the wrapped source index. -/
theorem l2_wrap_src (ei : IVec S2x80000 32) : wrapB (srcOf ei) = Cert.ReferenceIdeal.Read.val_main_v65 (F := Ideal) ei := by
  unfold Cert.ReferenceIdeal.Read.val_main_v65 Cert.ReferenceIdeal.Read.val_main_v64 Cert.ReferenceIdeal.Read.val_main_v63 Cert.ReferenceIdeal.Read.val_main_v62 Cert.ReferenceIdeal.Read.val_main_v61 Cert.ReferenceIdeal.Read.val_main_v60 Cert.ReferenceIdeal.Read.val_main_v1 Cert.ReferenceIdeal.Read.val_main_v0 Cert.ReferenceIdeal.Read.val_main_c_9 Cert.ReferenceIdeal.Read.val_main_c_10 wrapB srcOf
  rfl

/-- The scatter's index column is the destination vector laid out as a column, in both programs. -/
theorem l2_scatter_idx (ei : IVec S2x80000 32) :
    broadcastInDim S80000x1 ![0] bcast_S80000_S80000x1_0 (dstOf ei) = Cert.ReferenceIdeal.Read.val_main_v69 (F := Ideal) ei := by
  unfold Cert.ReferenceIdeal.Read.val_main_v69 Cert.ReferenceIdeal.Read.val_main_v3 Cert.ReferenceIdeal.Read.val_main_v2 dstOf
  rfl

/-- The scatter starts from the same zeros. -/
theorem l2_zeros :
    broadcastInDim S10000x2048 ![] bcast_S_S10000x2048 (constant (F := Ideal) S_ .f32 0x00000000#32) = Cert.ReferenceIdeal.Read.val_main_v68 (F := Ideal) := by
  unfold Cert.ReferenceIdeal.Read.val_main_v68 Cert.ReferenceIdeal.Read.val_main_cst_11
  rfl

/-! ## The windows the two regions find, and the layer -/

/-- At Ideal a change of float format is the identity. -/
theorem l2_narrow_id {s : Shape} (x : FVec Ideal s .f32) : truncf .bf16 x bitsLt_bf16_f32 = x := rfl

/-- The relative positions the edge region finds are the reference's: both gathers read where the reference's do, since
    every endpoint names a node and so nothing is filled. -/
theorem l2_rel (c : Dev nD) (hidx : Cert.Geo.IdxInRange (A2 m c)) :
    V14 m ρ c main_v20 = Cert.ReferenceIdeal.Read.val_main_v54 (F := Ideal) (A1 m c) (A2 m c) := by
  have e18 : W11 m ρ c (Proc.devRef .tc main_v18) = Cert.ReferenceIdeal.Read.val_main_v46 (F := Ideal) (A1 m c) (A2 m c) :=
    (l2_k_v18_11_10 m ρ c).trans ((l2_take_src (W9 m ρ c)).trans (by
      rw [l2_pos9, l2_src9, take2_eq _ _ (srcOf_inRange _ hidx), l2_gather_src]))
  have e19 : W11 m ρ c (Proc.devRef .tc main_v19) = Cert.ReferenceIdeal.Read.val_main_v53 (F := Ideal) (A1 m c) (A2 m c) :=
    (l2_take_dst (W10 m ρ c)).trans (by
      rw [l2_pos10, l2_dst10, take2_eq _ _ (dstOf_inRange _ hidx), l2_gather_dst])
  exact (l2_k_v20_14_12 m ρ c).trans ((l2_sub (W11 m ρ c)).trans (by rw [e18, e19]; rfl))

/-- The gathered features the edge region finds are the reference's gather of its first hidden layer. -/
theorem l2_xs (c : Dev nD) (hidx : Cert.Geo.IdxInRange (A2 m c))
    (h1 : W9 m ρ c (Proc.devRef .tc main_v17) = Cert.ReferenceIdeal.Read.val_main_v39 (F := Ideal) (A0 m c) (A1 m c) (A2 m c) (A3 m c) (A4 m c) (A5 m c) (A6 m c)) :
    (V14 m ρ c main_v22 : Cert.Geo.Mat 80000 2048) = Cert.ReferenceIdeal.Read.val_main_v66 (F := Ideal) (A0 m c) (A1 m c) (A2 m c) (A3 m c) (A4 m c) (A5 m c) (A6 m c) := by
  have e21 : W13 m ρ c (Proc.devRef .tc main_v21) = Cert.ReferenceIdeal.Read.val_main_v66 (F := Ideal) (A0 m c) (A1 m c) (A2 m c) (A3 m c) (A4 m c) (A5 m c) (A6 m c) :=
    (l2_take_h (W12 m ρ c)).trans (by
      rw [l2_h12 m ρ c h1, l2_src12, take2048_eq _ _ (srcOf_inRange _ hidx), l2_wrap_src]
      rfl)
  exact (l2_trunc (W13 m ρ c)).trans ((l2_narrow_id _).trans e21)

/-- The edge region's weight window is the argument. -/
theorem l2_w7v (c : Dev nD) : (V14 m ρ c main_arg7 : Cert.Geo.Mat 2 2048) = A7 m c := l2_w7 m ρ c

/-- The edge region's bias window is the bias argument read as a row. -/
theorem l2_brow (c : Dev nD) : (V14 m ρ c main_v23 : Cert.Geo.Mat 1 2048) = Cert.Geo.rowOf (A8 m c) :=
  (l2_biasrow (W13 m ρ c)).trans (by rw [l2_b8]; exact reshape_row2048 _)

/-- The edge region leaves the reference's messages of this layer. -/
theorem l2_msgs (c : Dev nD) (hidx : Cert.Geo.IdxInRange (A2 m c))
    (h1 : W9 m ρ c (Proc.devRef .tc main_v17) = Cert.ReferenceIdeal.Read.val_main_v39 (F := Ideal) (A0 m c) (A1 m c) (A2 m c) (A3 m c) (A4 m c) (A5 m c) (A6 m c)) :
    W15 m ρ c (Proc.devRef .tc main_v24) = Cert.ReferenceIdeal.Read.val_main_v67 (F := Ideal) (A0 m c) (A1 m c) (A2 m c) (A3 m c) (A4 m c) (A5 m c) (A6 m c) (A7 m c) (A8 m c) :=
  ((W15_arr m ρ c 4).trans (region2_value (V14 m ρ) c)).trans (by
    rw [l2_rel m ρ c hidx, l2_xs m ρ c hidx h1, l2_w7v, l2_brow]
    exact (Cert.ReferenceIdeal.Stages.msg2_eq _ _ _ _ _ _ _ _ _).symm)

/-- The aggregate the node region finds is the reference's scatter-add of those messages. -/
theorem l2_agg (c : Dev nD) (hidx : Cert.Geo.IdxInRange (A2 m c))
    (h1 : W9 m ρ c (Proc.devRef .tc main_v17) = Cert.ReferenceIdeal.Read.val_main_v39 (F := Ideal) (A0 m c) (A1 m c) (A2 m c) (A3 m c) (A4 m c) (A5 m c) (A6 m c)) :
    (V16 m ρ c main_v28 : Cert.Geo.Mat 10000 2048) = Cert.ReferenceIdeal.Read.val_main_v70 (F := Ideal) (A0 m c) (A1 m c) (A2 m c) (A3 m c) (A4 m c) (A5 m c) (A6 m c) (A7 m c) (A8 m c) :=
  (l2_scatter (W15 m ρ c)).trans ((l2_narrow_id _).trans (by
    rw [l2_dst15, l2_msgs m ρ c hidx h1, l2_scatter_idx, l2_zeros]
    rfl))

/-- The node region's weight window is the argument (narrowed, which changes nothing). -/
theorem l2_wts3 (c : Dev nD) : (V16 m ρ c main_v29 : Cert.Geo.Mat 2048 2048) = A9 m c :=
  (l2_wts (W15 m ρ c)).trans ((l2_narrow_id _).trans (l2_w9 m ρ c))

/-- The node region's bias window is the bias argument read as a row. -/
theorem l2_brow3 (c : Dev nD) : (V16 m ρ c main_v30 : Cert.Geo.Mat 1 2048) = Cert.Geo.rowOf (A10 m c) :=
  (l2_biasrow3 (W15 m ρ c)).trans (by rw [l2_b10]; exact reshape_row2048 _)

/-- LAYER 2 of the kernel's run, read: if the second region left the reference's first hidden layer in `main_v17`, the
    fourth region leaves its second hidden layer in `main_v31`. -/
theorem layer2 (c : Dev nD) (hidx : Cert.Geo.IdxInRange (A2 m c))
    (h1 : W9 m ρ c (Proc.devRef .tc main_v17) = Cert.ReferenceIdeal.Read.val_main_v39 (F := Ideal) (A0 m c) (A1 m c) (A2 m c) (A3 m c) (A4 m c) (A5 m c) (A6 m c)) :
    W17 m ρ c (Proc.devRef .tc main_v31)
      = Cert.ReferenceIdeal.Read.val_main_v75 (F := Ideal) (A0 m c) (A1 m c) (A2 m c) (A3 m c) (A4 m c) (A5 m c) (A6 m c) (A7 m c) (A8 m c) (A9 m c) (A10 m c) := by
  -- the node region's output is the node function of its three windows; each window is the reference's
  refine ((W17_arr m ρ c 3).trans (region3_value (V16 m ρ) c)).trans ?_
  rw [l2_agg m ρ c hidx h1, l2_wts3, l2_brow3]
  exact (Cert.ReferenceIdeal.Stages.h2_eq _ _ _ _ _ _ _ _ _ _ _).symm

end Cert.KernelIdeal.Val

end
-- ==== Proof.RegionEdge4.lean ====
import proofs.«412862_j81758997447248_1_alg».proof.Proof.Gen.KernelIdeal.Frame
import proofs.«412862_j81758997447248_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at one edge and channel -/

/-- A one-column array spread over `b` columns reads, at `(p, c)`, the operand's one column at row `p`. -/
theorem edge4_col_broadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The value the body stores, at row `r` and channel `ch` of a block: the two columns of the relative positions
    against the two weight rows, plus the bias, rectified at zero (the zero word is the real 0), times the gathered
    feature (its change of float format is the identity on extended reals). -/
theorem edge4_pay_apply (x0 : Vec Ideal S400x2 .f32) (w0 w1 b : Vec Ideal S1x2048 .f32) (x1 : Vec Ideal S400x2048 .bf16)
    (r : Fin 400) (ch : Fin 2048) :
    k4_pay1 (F := Ideal) x0 w0 w1 b x1 (ix2 r ch)
      = max (x0 (ix2 r 0) * w0 (ix2 0 ch) + x0 (ix2 r 1) * w1 (ix2 0 ch) + b (ix2 0 ch)) 0 * x1 (ix2 r ch) := by
  unfold k4_pay1
  simp only [shapeCast_self]
  simp only [mulf_apply, addf_apply, maximumf_apply, extf_apply, broadcast_apply, broadcastTo_1b_ab_apply,
    edge4_col_broadcast_apply, slice2_axis1_eq]
  have hzero : (FloatOps.ofBits (F := Ideal) FTy.f32 0#32 : EReal) = 0 := Ideal.ofBits_zero_f32
  rw [hzero]
  rfl

/-! ## The windows' index maps over the grid -/

theorem edge4_hz : (![0, 0] : Fin 2 → Nat) = fun _ => 0 := funext fun a => by fin_cases a <;> rfl

/-- The windows' block indices at every grid point: the blocks of the relative positions and of the gathered features
    move with the output's along the edges, the weights and the bias stay at their one block, and the output's block
    index stays below 200. -/
theorem edge4_idx_facts : ∀ t : Fin cfg4.N,
    win4_0.index t (0 : Fin 2) = win4_4.index t (0 : Fin 2) ∧ win4_0.index t (1 : Fin 2) = 0
    ∧ win4_1.index t (0 : Fin 2) = win4_4.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (1 : Fin 2) = 0 ∧ win4_4.index t (0 : Fin 2) ≤ 199 :=
  (by decide +kernel : ∀ t : Fin grid4.N, _)

/-- Every block of 400 edges is some point's. -/
theorem edge4_idx_onto : ∀ q : Fin 200, ∃ t : Fin cfg4.N, win4_4.index t = ![q.val, 0] :=
  (by decide +kernel : ∀ q : Fin 200, ∃ t : Fin grid4.N, win4_4.index t = ![q.val, 0])

/-! ## Each input block as rows of its array -/

/-- The arrays the region finds in its four input windows, at their literal types. -/
abbrev edge4_rel (c : Dev nD) : Vec Ideal S80000x2 .f32 := V c main_v34
abbrev edge4_xs (c : Dev nD) : Vec Ideal S80000x2048 .bf16 := V c main_v36
abbrev edge4_w (c : Dev nD) : Vec Ideal S2x2048 .f32 := V c main_arg11
abbrev edge4_b (c : Dev nD) : Vec Ideal S1x2048 .f32 := V c main_v37

/-- The block of relative positions at point `t` is rows `400·q … 400·q + 399` of the array, `q` the output's block
    index: row `r` of the block is edge `e = 400·q + r`. -/
theorem edge4_rel_blk (c : Dev nD) (t : Fin cfg4.N) (r : Fin 400) (k : Fin 2) (e : Fin 80000)
    (he : e.val = win4_4.index t (0 : Fin 2) * 400 + r.val) :
    (iblk4 (F := Ideal) V c 0 t : Vec Ideal S400x2 .f32) (ix2 r k) = edge4_rel V c (ix2 e k) := by
  obtain ⟨e0, e1, -⟩ := edge4_idx_facts t
  unfold iblk4
  rw [View.read_apply]
  show V c main_v34 _ = V c main_v34 _
  congr 1
  funext a
  apply Fin.ext
  match a with
  | ⟨0, _⟩ => show win4_0.index t (0 : Fin 2) * 400 + 1 * r.val = e.val; omega
  | ⟨1, _⟩ => show win4_0.index t (1 : Fin 2) * 2 + 1 * k.val = k.val; omega

/-- The block of gathered features at point `t` is the same rows of its array. -/
theorem edge4_xs_blk (c : Dev nD) (t : Fin cfg4.N) (r : Fin 400) (ch : Fin 2048) (e : Fin 80000)
    (he : e.val = win4_4.index t (0 : Fin 2) * 400 + r.val) :
    (iblk4 (F := Ideal) V c 1 t : Vec Ideal S400x2048 .bf16) (ix2 r ch) = edge4_xs V c (ix2 e ch) := by
  obtain ⟨-, -, e2, e3, -⟩ := edge4_idx_facts t
  unfold iblk4
  rw [View.read_apply]
  show V c main_v36 _ = V c main_v36 _
  congr 1
  funext a
  apply Fin.ext
  match a with
  | ⟨0, _⟩ => show win4_1.index t (0 : Fin 2) * 400 + 1 * r.val = e.val; omega
  | ⟨1, _⟩ => show win4_1.index t (1 : Fin 2) * 2048 + 1 * ch.val = ch.val; omega

/-- The weights' block at every point is the whole two-row array. -/
theorem edge4_w_blk (c : Dev nD) (t : Fin cfg4.N) (k : Fin 2) (ch : Fin 2048) :
    (iblk4 (F := Ideal) V c 2 t : Vec Ideal S2x2048 .f32) (ix2 k ch) = edge4_w V c (ix2 k ch) := by
  obtain ⟨-, -, -, -, e4, e5, -⟩ := edge4_idx_facts t
  unfold iblk4
  rw [View.read_apply]
  show V c main_arg11 _ = V c main_arg11 _
  congr 1
  funext a
  apply Fin.ext
  match a with
  | ⟨0, _⟩ => show win4_2.index t (0 : Fin 2) * 2 + 1 * k.val = k.val; omega
  | ⟨1, _⟩ => show win4_2.index t (1 : Fin 2) * 2048 + 1 * ch.val = ch.val; omega

/-- So is the bias row's block the whole one-row array. -/
theorem edge4_b_blk (c : Dev nD) (t : Fin cfg4.N) (k : Fin 1) (ch : Fin 2048) :
    (iblk4 (F := Ideal) V c 3 t : Vec Ideal S1x2048 .f32) (ix2 k ch) = edge4_b V c (ix2 k ch) := by
  obtain ⟨-, -, -, -, -, -, e6, e7, -⟩ := edge4_idx_facts t
  unfold iblk4
  rw [View.read_apply]
  show V c main_v37 _ = V c main_v37 _
  congr 1
  funext a
  apply Fin.ext
  match a with
  | ⟨0, _⟩ => show win4_3.index t (0 : Fin 2) * 1 + 1 * k.val = k.val; omega
  | ⟨1, _⟩ => show win4_3.index t (1 : Fin 2) * 2048 + 1 * ch.val = ch.val; omega

/-- Row 0 of a two-row block, loaded as a one-row vector, at channel `ch`. -/
theorem edge4_ld_row0 (x : Vec Ideal S2x2048 .f32) (ch : Fin 2048) :
    (View.ld x r4_1 : Vec Ideal S1x2048 .f32) (ix2 0 ch) = x (ix2 0 ch) := by
  show x (r4_1.idx (ix2 0 ch)) = x (ix2 0 ch)
  congr 1
  funext a
  apply Fin.ext
  match a with
  | ⟨0, _⟩ => rfl
  | ⟨1, _⟩ => show 0 + 1 * ch.val = ch.val; omega

/-- Row 1 of it: the load's rectangle starts one row down. -/
theorem edge4_ld_row1 (x : Vec Ideal S2x2048 .f32) (ch : Fin 2048) :
    (View.ld x r4_2 : Vec Ideal S1x2048 .f32) (ix2 0 ch) = x (ix2 1 ch) := by
  show x (r4_2.idx (ix2 0 ch)) = x (ix2 1 ch)
  congr 1
  funext a
  apply Fin.ext
  match a with
  | ⟨0, _⟩ => rfl
  | ⟨1, _⟩ => show 0 + 1 * ch.val = ch.val; omega

/-! ## From blocks to the array -/

/-- What point `t` writes back is block `t` of the edge messages over the arrays the region finds: the one store
    covers the staging buffer, its payload at row `r` and channel `ch` is the message's formula over the input blocks,
    and each input block's entry is its array's entry at edge `400·q + r`, where the output's block lies. -/
theorem edge4_flushed_eq (c : Dev nD) (t : Fin cfg4.N) :
    (dat4 (F := Ideal) V c).flushed 4 t
      = ((cfg4.win 4).blk t).view.read (Elt Ideal)
          (Cert.Geo.edgeMsg (E := 80000) (C := 2048) (V c main_v34) (V c main_v36) (V c main_arg11) (V c main_v37)) := by
  show (cfg4.win 4).cut (grid4.coords t) ((dat4 V c).after 4 t) = _
  rw [after4_4]
  unfold out4_4
  rw [View.canon_unit_zero edge4_hz]
  simp only [View.ld_unit_zero (S := S400x2) edge4_hz, View.ld_unit_zero (S := S1x2048) edge4_hz,
    View.ld_unit_zero (S := S400x2048) edge4_hz]
  obtain ⟨-, -, -, -, -, -, -, -, e8, e9⟩ := edge4_idx_facts t
  funext j
  obtain ⟨r, ch, rfl⟩ : ∃ (r : Fin 400) (ch : Fin 2048), j = ix2 r ch := ⟨j 0, j 1, eq_ix2 j⟩
  refine (edge4_pay_apply (iblk4 V c 0 t) (View.ld (iblk4 V c 2 t) r4_1) (View.ld (iblk4 V c 2 t) r4_2) (iblk4 V c 3 t)
    (iblk4 V c 1 t) r ch).trans ?_
  obtain ⟨e, he⟩ : ∃ e : Fin 80000, e.val = win4_4.index t (0 : Fin 2) * 400 + r.val :=
    ⟨⟨win4_4.index t (0 : Fin 2) * 400 + r.val, by have := r.isLt; omega⟩, rfl⟩
  have hemb : ((cfg4.win 4).blk t).view.emb (ix2 r ch) = (ix2 e ch : S80000x2048.Idx) := by
    funext a
    apply Fin.ext
    match a with
    | ⟨0, _⟩ => show win4_4.index t (0 : Fin 2) * 400 + 1 * r.val = e.val; omega
    | ⟨1, _⟩ => show win4_4.index t (1 : Fin 2) * 2048 + 1 * ch.val = ch.val; omega
  rw [View.read_apply]
  show _ = Cert.Geo.edgeMsg (E := 80000) (C := 2048) (edge4_rel V c) (edge4_xs V c) (edge4_w V c) (edge4_b V c)
    (((cfg4.win 4).blk t).view.emb (ix2 r ch))
  rw [hemb, Cert.Geo.edgeMsg_apply]
  rw [edge4_rel_blk V c t r 0 e he, edge4_rel_blk V c t r 1 e he, edge4_ld_row0, edge4_ld_row1, edge4_w_blk, edge4_w_blk,
    edge4_b_blk, edge4_xs_blk V c t r ch e he]

/-- An edge-and-channel index is in point `t`'s block iff each coordinate is in the block's range on its axis. -/
theorem edge4_mem_blk (t : Fin cfg4.N) (i : S80000x2048.Idx) :
    i ∈ ((cfg4.win 4).blk t).view.set ↔ ∀ a : Fin 2, win4_4.index t a * S400x2048.size a ≤ (i a).val
      ∧ (i a).val < win4_4.index t a * S400x2048.size a + S400x2048.size a := by
  show i ∈ ((View.whole main_v38).slice (win4_4.rect t)).set ↔ _
  rw [View.set_slice_whole, Rect.mem_set_unit]
  exact Iff.rfl

/-- Every edge is in some point's block, and every point writes back: edge `e` is in the block of index `e / 400`. -/
theorem edge4_cover (i : S80000x2048.Idx) :
    ∃ t : Fin cfg4.N, (cfg4.win 4).flush t = true ∧ i ∈ ((cfg4.win 4).blk t).view.set := by
  have hi0 : (i 0).val < 80000 := (i 0).isLt
  have hi1 : (i 1).val < 2048 := (i 1).isLt
  obtain ⟨t, ht⟩ := edge4_idx_onto ⟨(i 0).val / 400, by omega⟩
  have q0 : win4_4.index t (0 : Fin 2) = (i 0).val / 400 := congrFun ht 0
  have q1 : win4_4.index t (1 : Fin 2) = 0 := congrFun ht 1
  refine ⟨t, flush4_4 t, ?_⟩
  rw [edge4_mem_blk]
  intro a
  match a with
  | ⟨0, _⟩ =>
    show win4_4.index t (0 : Fin 2) * 400 ≤ (i 0).val ∧ (i 0).val < win4_4.index t (0 : Fin 2) * 400 + 400
    omega
  | ⟨1, _⟩ =>
    show win4_4.index t (1 : Fin 2) * 2048 ≤ (i 1).val ∧ (i 1).val < win4_4.index t (1 : Fin 2) * 2048 + 2048
    omega

/-- What the edge region leaves in its output array: on every edge and channel, the message of `Geo.edgeMsg` over the
    arrays the region finds in its four input windows. -/
theorem region4_value (c : Dev nD) :
    (dat4 (F := Ideal) V c).arrAt 4 cfg4.N
      = Cert.Geo.edgeMsg (E := 80000) (C := 2048) (V c main_v34) (V c main_v36) (V c main_arg11) (V c main_v37) :=
  (dat4 (F := Ideal) V c).arrAt_eq_of_cover 4
    (Cert.Geo.edgeMsg (E := 80000) (C := 2048) (V c main_v34) (V c main_v36) (V c main_arg11) (V c main_v37))
    (fun t _ => edge4_flushed_eq V c t) edge4_cover

end Cert.KernelIdeal.Val

end
-- ==== Proof.RegionNode5.lean ====
import proofs.«412862_j81758997447248_1_alg».proof.Proof.Gen.KernelIdeal.Frame
import proofs.«412862_j81758997447248_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! # The last node region: a rectified affine layer, each row divided by its norm

Each of the 25 grid points takes a block of 400 nodes. On node `r` of the block and channel `ch` the body forms
`h r ch = max (∑ k, agg r k · W k ch + b ch) 0` (a product into the zero accumulator is the plain sum over the 2048
contraction coordinates, the bias row is spread over the nodes), sums `h r k · h r k` over the row's 1024 channels, takes
the square root, the larger of it and a positive literal, and divides `h r ch` by that. A node's value reads only that
node's row of the aggregate, all of the weights and the bias row; the 25 blocks tile the 10000 nodes, so the output
array ends holding the row-normalized `Geo.nodeOut` of the three arrays on every node and channel. -/

/-! ## The node kernel's matrix product at an index -/

/-- The left operand's row is the output's row. -/
theorem node5_lhs_0 (i : S400x1024.Idx) (q : dot_S400x2048_S2048x1024_S400x1024_1_0_0_1_n_n.contr.Idx) :
    (dot_S400x2048_S2048x1024_S400x1024_1_0_0_1_n_n.lhsIdx i q 0).val = (i 0).val := by
  unfold DotDims.lhsIdx
  rw [dif_neg (show ¬(0 : Fin S400x2048.rank) ∈ dot_S400x2048_S2048x1024_S400x1024_1_0_0_1_n_n.lhsBatch by decide), dif_pos (show (0 : Fin S400x2048.rank) ∈ dot_S400x2048_S2048x1024_S400x1024_1_0_0_1_n_n.lhsNonContracting by decide)]
  rfl
/-- The left operand's column is the contraction coordinate. -/
theorem node5_lhs_1 (i : S400x1024.Idx) (q : dot_S400x2048_S2048x1024_S400x1024_1_0_0_1_n_n.contr.Idx) :
    (dot_S400x2048_S2048x1024_S400x1024_1_0_0_1_n_n.lhsIdx i q 1).val = (q ⟨0, by decide⟩).val :=
  dot_S400x2048_S2048x1024_S400x1024_1_0_0_1_n_n.lhsIdx_val_of_single rfl i q
/-- The right operand's row is the contraction coordinate. -/
theorem node5_rhs_0 (i : S400x1024.Idx) (q : dot_S400x2048_S2048x1024_S400x1024_1_0_0_1_n_n.contr.Idx) :
    (dot_S400x2048_S2048x1024_S400x1024_1_0_0_1_n_n.rhsIdx i q 0).val = (q ⟨0, by decide⟩).val :=
  dot_S400x2048_S2048x1024_S400x1024_1_0_0_1_n_n.rhsIdx_val_of_single rfl i q
/-- The right operand's column is the output's column. -/
theorem node5_rhs_1 (i : S400x1024.Idx) (q : dot_S400x2048_S2048x1024_S400x1024_1_0_0_1_n_n.contr.Idx) :
    (dot_S400x2048_S2048x1024_S400x1024_1_0_0_1_n_n.rhsIdx i q 1).val = (i 1).val := by
  unfold DotDims.rhsIdx
  rw [dif_neg (show ¬(1 : Fin S2048x1024.rank) ∈ dot_S400x2048_S2048x1024_S400x1024_1_0_0_1_n_n.rhsBatch by decide), dif_pos (show (1 : Fin S2048x1024.rank) ∈ dot_S400x2048_S2048x1024_S400x1024_1_0_0_1_n_n.rhsNonContracting by decide)]
  rfl

/-- The product into the zero accumulator, at row `r` and channel `ch`: the sum over the 2048 contraction coordinates of
    the aggregate's row entry times the weight's column entry. -/
theorem node5_matmul_apply (a : FVec Ideal S400x2048 .bf16) (w : FVec Ideal S2048x1024 .bf16) (r : Fin 400) (ch : Fin 1024) :
    matmul dot_S400x2048_S2048x1024_S400x1024_1_0_0_1_n_n none a w (constant S400x1024 .f32 0x00000000#32) (ix2 r ch)
      = ∑ k : Fin 2048, a (ix2 r k) * w (ix2 k ch) := by
  simp only [matmul]
  rw [Ideal.matmul_constant_zero_apply, ← Equiv.sum_comp (ValueIdx.contrEquiv1 dot_S400x2048_S2048x1024_S400x1024_1_0_0_1_n_n 2048 rfl rfl).symm]
  refine Finset.sum_congr rfl fun k _ => ?_
  have hk := ValueIdx.contrEquiv1_symm_val dot_S400x2048_S2048x1024_S400x1024_1_0_0_1_n_n 2048 rfl rfl k
  have el : dot_S400x2048_S2048x1024_S400x1024_1_0_0_1_n_n.lhsIdx (ix2 r ch) ((ValueIdx.contrEquiv1 dot_S400x2048_S2048x1024_S400x1024_1_0_0_1_n_n 2048 rfl rfl).symm k) = ix2 r k := funext fun x => Fin.ext (by
    match x with
    | ⟨0, _⟩ => exact node5_lhs_0 _ _
    | ⟨1, _⟩ => exact (node5_lhs_1 _ _).trans hk)
  have er : dot_S400x2048_S2048x1024_S400x1024_1_0_0_1_n_n.rhsIdx (ix2 r ch) ((ValueIdx.contrEquiv1 dot_S400x2048_S2048x1024_S400x1024_1_0_0_1_n_n 2048 rfl rfl).symm k) = ix2 k ch := funext fun x => Fin.ext (by
    match x with
    | ⟨0, _⟩ => exact (node5_rhs_0 _ _).trans hk
    | ⟨1, _⟩ => exact node5_rhs_1 _ _)
  rw [el, er]

/-! ## The layout steps around the row sum -/

/-- The sum over a row's 1024 channels. -/
theorem node5_rowsum_apply (v : FVec Ideal S400x1024 .f32) (h : S400x1024.Reduces [1] S400) (hφ : FKind.Formats .f32)
    (hacc : (0x00000000#32 : BitVec 32) = FKind.add.neutral .f32 hφ) (r : Fin 400) :
    multiReduction (F := Ideal) .add [1] S400 v 0x00000000#32 h hφ hacc (ix1 r) = ∑ k : Fin 1024, v (ix2 r k) := by
  refine (Ideal.multiReduction_add_single v 0x00000000#32 h hφ hacc (ix1 r)).trans ?_
  show ∑ k : Fin 1024, v (h.lift (ix1 r) k) = _
  refine Finset.sum_congr rfl fun k _ => congrArg v (funext fun x => Fin.ext ?_)
  match x with
  | ⟨0, _⟩ => rfl
  | ⟨1, _⟩ => rfl

/-- A length-400 vector viewed as a column reads its entry at the row. -/
theorem node5_col_apply {α : Type} (x : S400.Idx → α) (h : S400.ShapeCasts S400x1) (r : Fin 400) (u : Fin 1) :
    shapeCast S400x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column spread over the 1024 channels reads, at `(r, ch)`, the column's entry at row `r`. -/
theorem node5_spread_apply {α : Type} (x : S400x1.Idx → α) (h : S400x1.Broadcasts S400x1024) (r : Fin 400) (ch : Fin 1024) :
    broadcastTo S400x1024 x h (ix2 r ch) = x (ix2 r (0 : Fin 1)) := by
  refine broadcastTo_apply x h (ix2 r ch) (ix2 r (0 : Fin 1)) fun ax => ?_
  match ax with
  | ⟨0, _⟩ => rfl
  | ⟨1, _⟩ => rfl

/-! ## The body's value at an index -/

/-- A vector's square root at an index is the extended reals' square root of the entry. -/
theorem node5_sqrt_apply {s : Shape} {φ : FTy} (x : FVec Ideal s φ) (i : s.Idx) : sqrt x i = Ideal.sqrt (x i) := rfl

/-- The rectified affine image, as the body computes it from its three loaded blocks: at row `r` and channel `ch` it is
    `Geo.nodeOut` of the blocks there (the zero word is the extended real 0). -/
theorem node5_h_apply (a : FVec Ideal S400x2048 .bf16) (w : FVec Ideal S2048x1024 .bf16) (b : FVec Ideal S1x1024 .f32)
    (hb : S1x1024.Broadcasts S400x1024) (r : Fin 400) (ch : Fin 1024) :
    maximumf (addf (matmul dot_S400x2048_S2048x1024_S400x1024_1_0_0_1_n_n none a w (constant S400x1024 .f32 0x00000000#32)) (broadcastTo S400x1024 b hb))
        (broadcast S400x1024 (Ideal.ofBits .f32 0x00000000#32)) (ix2 r ch)
      = Cert.Geo.nodeOut (N := 400) (K := 2048) (C := 1024) a w b (ix2 r ch) := by
  rw [maximumf_apply, addf_apply, broadcast_apply, node5_matmul_apply, broadcastTo_1b_ab_apply, Cert.Geo.nodeOut_apply]
  rw [Ideal.ofBits_zero_f32]

/-- THE PAYLOAD AT AN INDEX: what the body stores at row `r`, channel `ch` of its output block is the row-normalized
    `Geo.nodeOut` of its three loaded blocks there: the entry divided by the larger of the row's Euclidean norm and the
    positive literal. -/
theorem node5_pay_apply (a : Vec Ideal S400x2048 .bf16) (w : Vec Ideal S2048x1024 .bf16) (b : Vec Ideal S1x1024 .f32)
    (r : Fin 400) (ch : Fin 1024) :
    k5_pay1 (F := Ideal) a w b (ix2 r ch)
      = Cert.Geo.rowNormalize Cert.Geo.normFloor (Cert.Geo.nodeOut (N := 400) (K := 2048) (C := 1024) a w b) (ix2 r ch) := by
  unfold k5_pay1
  simp only [shapeCast_self, Ideal.ofBits_def]
  rw [divf_apply, node5_spread_apply, maximumf_apply (s := S400x1), broadcast_apply, node5_sqrt_apply, node5_col_apply,
    node5_h_apply, Cert.Geo.rowNormalize_apply]
  refine congrArg (fun s => Ideal.div _ (max (Ideal.sqrt s) _)) ?_
  refine (node5_rowsum_apply _ _ _ _ r).trans ?_
  simp only [mulf_apply, node5_h_apply]

/-! ## From the blocks to the array -/

variable (V : (c : Dev nD) → (b : Ref sig .tc) → Buf (Elt Ideal) ((c : Thread nD τ).loc b))

/-- The zero origin of every access of the body, as the constant function. -/
theorem node5_hz : (![0, 0] : Fin 2 → Nat) = fun _ => 0 := funext fun a => by fin_cases a <;> rfl

/-- The same value from a row of the whole arrays: if the block's row `r` is the aggregate's row `n`, and the weight and
    bias blocks are the weight and bias arrays, the normalized output of the blocks at `(r, ch)` is that of the arrays at
    `(n, ch)` — the value at a node reads that node's aggregate row only. -/
theorem node5_block_value (eps : EReal) (A : Cert.Geo.Mat 10000 2048) (W : Cert.Geo.Mat 2048 1024) (B : Cert.Geo.Mat 1 1024)
    (a : Cert.Geo.Mat 400 2048) (w : Cert.Geo.Mat 2048 1024) (b : Cert.Geo.Mat 1 1024) (n : Fin 10000) (r : Fin 400)
    (ha : ∀ k : Fin 2048, a (ix2 r k) = A (ix2 n k)) (hw : ∀ (k : Fin 2048) (ch : Fin 1024), w (ix2 k ch) = W (ix2 k ch))
    (hb : ∀ ch : Fin 1024, b (ix2 (0 : Fin 1) ch) = B (ix2 (0 : Fin 1) ch)) (ch : Fin 1024) :
    Cert.Geo.rowNormalize eps (Cert.Geo.nodeOut a w b) (ix2 r ch) = Cert.Geo.rowNormalize eps (Cert.Geo.nodeOut A W B) (ix2 n ch) := by
  simp only [Cert.Geo.rowNormalize_apply, Cert.Geo.nodeOut_apply, ha, hw, hb]

/-- The index maps over the 25 grid points: the aggregate's block moves with the output's along the nodes, the
    weights and the bias stay at block (0, 0), and the output's block index along the nodes is at most 24. -/
theorem node5_idx_facts : ∀ t : Fin cfg5.N, win5_0.index t (0 : Fin 2) = win5_3.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 ∧ win5_3.index t (0 : Fin 2) ≤ 24 :=
  (by decide +kernel : ∀ t : Fin grid5.N, _)

/-- Every block of 400 nodes is some point's. -/
theorem node5_idx_onto : ∀ q : Fin 25, ∃ t : Fin cfg5.N, win5_3.index t = ![q.val, 0] :=
  (by decide +kernel : ∀ q : Fin 25, ∃ t : Fin grid5.N, win5_3.index t = ![q.val, 0])

/-- The three input blocks at a point, at their literal shapes. -/
abbrev node5_ablk (c : Dev nD) (t : Fin cfg5.N) : Vec Ideal S400x2048 .bf16 := iblk5 V c 0 t
abbrev node5_wblk (c : Dev nD) (t : Fin cfg5.N) : Vec Ideal S2048x1024 .bf16 := iblk5 V c 1 t
abbrev node5_bblk (c : Dev nD) (t : Fin cfg5.N) : Vec Ideal S1x1024 .f32 := iblk5 V c 2 t

/-- The aggregate's block at point `t` holds the array's rows from 400 times the point's block index on. -/
theorem node5_ablk_apply (c : Dev nD) (t : Fin cfg5.N) (r : Fin 400) (k : Fin 2048) (n : Fin 10000)
    (hn : n.val = win5_3.index t (0 : Fin 2) * 400 + r.val) :
    node5_ablk V c t (ix2 r k) = (V c main_v42 : Cert.Geo.Mat 10000 2048) (ix2 n k) := by
  obtain ⟨e0, e1, -⟩ := node5_idx_facts t
  unfold node5_ablk iblk5
  rw [View.read_apply]
  show V c main_v42 _ = V c main_v42 _
  congr 1
  funext x
  apply Fin.ext
  match x with
  | ⟨0, _⟩ => show win5_0.index t (0 : Fin 2) * 400 + 1 * r.val = n.val; omega
  | ⟨1, _⟩ => show win5_0.index t (1 : Fin 2) * 2048 + 1 * k.val = k.val; omega

/-- The weights' block at every point is the whole array. -/
theorem node5_wblk_apply (c : Dev nD) (t : Fin cfg5.N) (k : Fin 2048) (ch : Fin 1024) :
    node5_wblk V c t (ix2 k ch) = (V c main_v43 : Cert.Geo.Mat 2048 1024) (ix2 k ch) := by
  obtain ⟨-, -, e2, e3, -⟩ := node5_idx_facts t
  unfold node5_wblk iblk5
  rw [View.read_apply]
  show V c main_v43 _ = V c main_v43 _
  congr 1
  funext x
  apply Fin.ext
  match x with
  | ⟨0, _⟩ => show win5_1.index t (0 : Fin 2) * 2048 + 1 * k.val = k.val; omega
  | ⟨1, _⟩ => show win5_1.index t (1 : Fin 2) * 1024 + 1 * ch.val = ch.val; omega

/-- The bias row's block at every point is the whole row. -/
theorem node5_bblk_apply (c : Dev nD) (t : Fin cfg5.N) (ch : Fin 1024) :
    node5_bblk V c t (ix2 (0 : Fin 1) ch) = (V c main_v44 : Cert.Geo.Mat 1 1024) (ix2 (0 : Fin 1) ch) := by
  obtain ⟨-, -, -, -, e4, e5, -⟩ := node5_idx_facts t
  unfold node5_bblk iblk5
  rw [View.read_apply]
  show V c main_v44 _ = V c main_v44 _
  congr 1
  funext x
  apply Fin.ext
  match x with
  | ⟨0, _⟩ => show win5_2.index t (0 : Fin 2) * 1 + 1 * 0 = 0; omega
  | ⟨1, _⟩ => show win5_2.index t (1 : Fin 2) * 1024 + 1 * ch.val = ch.val; omega

/-- What the output array ends holding: the row-normalized `Geo.nodeOut` of the three arrays the region finds. -/
abbrev node5_G (c : Dev nD) : Cert.Geo.Mat 10000 1024 :=
  Cert.Geo.rowNormalize Cert.Geo.normFloor (Cert.Geo.nodeOut (N := 10000) (K := 2048) (C := 1024) (V c main_v42) (V c main_v43) (V c main_v44))

/-- WHAT POINT `t` WRITES BACK is its block of 400 nodes of `node5_G`. -/
theorem node5_flushed_eq (c : Dev nD) (t : Fin cfg5.N) :
    (dat5 (F := Ideal) V c).flushed 3 t = ((cfg5.win 3).blk t).view.read (Elt Ideal) (node5_G V c) := by
  show (cfg5.win 3).cut (grid5.coords t) ((dat5 V c).after 3 t) = _
  rw [after5_3]
  unfold out5_3
  rw [View.canon_unit_zero node5_hz]
  simp only [View.ld_unit_zero (S := S400x2048) node5_hz, View.ld_unit_zero (S := S2048x1024) node5_hz,
    View.ld_unit_zero (S := S1x1024) node5_hz]
  refine funext fun (y : S400x1024.Idx) => ?_
  obtain ⟨r, ch, rfl⟩ : ∃ (r : Fin 400) (ch : Fin 1024), y = ix2 r ch := ⟨y 0, y 1, eq_ix2 y⟩
  obtain ⟨-, -, -, -, -, -, e6, e7⟩ := node5_idx_facts t
  have hn : win5_3.index t (0 : Fin 2) * 400 + r.val < 10000 := by have := r.isLt; omega
  have hemb : ((cfg5.win 3).blk t).view.emb (ix2 r ch)
      = (ix2 (⟨win5_3.index t (0 : Fin 2) * 400 + r.val, hn⟩ : Fin 10000) ch : S10000x1024.Idx) := by
    funext x
    apply Fin.ext
    match x with
    | ⟨0, _⟩ => show win5_3.index t (0 : Fin 2) * 400 + 1 * r.val = win5_3.index t (0 : Fin 2) * 400 + r.val; omega
    | ⟨1, _⟩ => show win5_3.index t (1 : Fin 2) * 1024 + 1 * ch.val = ch.val; omega
  show k5_pay1 (F := Ideal) (node5_ablk V c t) (node5_wblk V c t) (node5_bblk V c t) (ix2 r ch)
    = node5_G V c (((cfg5.win 3).blk t).view.emb (ix2 r ch))
  rw [hemb]
  refine (node5_pay_apply (node5_ablk V c t) (node5_wblk V c t) (node5_bblk V c t) r ch).trans ?_
  exact node5_block_value Cert.Geo.normFloor (V c main_v42) (V c main_v43) (V c main_v44)
    (node5_ablk V c t) (node5_wblk V c t) (node5_bblk V c t) ⟨win5_3.index t (0 : Fin 2) * 400 + r.val, hn⟩ r
    (fun k => node5_ablk_apply V c t r k _ rfl) (fun k ch' => node5_wblk_apply V c t k ch') (fun ch' => node5_bblk_apply V c t ch') ch

/-- A node and channel lie in point `t`'s block iff each coordinate is in the block's range on its axis. -/
theorem node5_mem_blk (t : Fin cfg5.N) (i : S10000x1024.Idx) :
    i ∈ ((cfg5.win 3).blk t).view.set ↔ ∀ a : Fin 2, win5_3.index t a * S400x1024.size a ≤ (i a).val
      ∧ (i a).val < win5_3.index t a * S400x1024.size a + S400x1024.size a := by
  show i ∈ ((View.whole main_v45).slice (win5_3.rect t)).set ↔ _
  rw [View.set_slice_whole, Rect.mem_set_unit]
  exact Iff.rfl

/-- Every node and channel is in the block of the point whose block index is the node's number divided by 400, and that
    point writes back. -/
theorem node5_cover (i : S10000x1024.Idx) :
    ∃ t : Fin cfg5.N, (cfg5.win 3).flush t = true ∧ i ∈ ((cfg5.win 3).blk t).view.set := by
  have hi0 : (i 0).val < 10000 := (i 0).isLt
  have hi1 : (i 1).val < 1024 := (i 1).isLt
  obtain ⟨t, ht⟩ := node5_idx_onto ⟨(i 0).val / 400, by omega⟩
  have q0 : win5_3.index t (0 : Fin 2) = (i 0).val / 400 := congrFun ht 0
  have q1 : win5_3.index t (1 : Fin 2) = 0 := congrFun ht 1
  refine ⟨t, flush5_3 t, ?_⟩
  rw [node5_mem_blk]
  intro a
  match a with
  | ⟨0, _⟩ => show win5_3.index t (0 : Fin 2) * 400 ≤ (i 0).val ∧ (i 0).val < win5_3.index t (0 : Fin 2) * 400 + 400; omega
  | ⟨1, _⟩ => show win5_3.index t (1 : Fin 2) * 1024 ≤ (i 1).val ∧ (i 1).val < win5_3.index t (1 : Fin 2) * 1024 + 1024; omega

/-- What the node region leaves in its output array: on every node and channel, the row-normalized `Geo.nodeOut` over the arrays
    the region finds in its three input windows (the aggregate, the weights, the bias row). -/
theorem region5_value (c : Dev nD) :
    (dat5 (F := Ideal) V c).arrAt 3 cfg5.N
      = Cert.Geo.rowNormalize Cert.Geo.normFloor (Cert.Geo.nodeOut (N := 10000) (K := 2048) (C := 1024) (V c main_v42) (V c main_v43) (V c main_v44)) :=
  (dat5 (F := Ideal) V c).arrAt_eq_of_cover 3 (node5_G V c) (fun t _ => node5_flushed_eq V c t) (node5_cover)

end Cert.KernelIdeal.Val

end
-- ==== Proof.Chain3.lean ====
import proofs.«412862_j81758997447248_1_alg».proof.Proof.ChainBase
import proofs.«412862_j81758997447248_1_alg».proof.Proof.Take
import proofs.«412862_j81758997447248_1_alg».proof.Proof.RefStages
import proofs.«412862_j81758997447248_1_alg».proof.Proof.Gen.ReferenceIdeal.Read
import Idealize.ShloMosaic.Lib.Pipeline.Value
import Idealize.ShloMosaic.Lib.ValueIdx
import Idealize.ShloMosaic.Lib.ValueLayout
import proofs.«412862_j81758997447248_1_alg».proof.Proof.RegionEdge4
import proofs.«412862_j81758997447248_1_alg».proof.Proof.RegionNode5

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The layer's host stretches, each read from any entry contents -/

/-- The first stretch of the whole run: the source index vector is row 0 of the edge array. -/
theorem l3_stretch_src (V : Valuation τ sig (Elt Ideal)) :
    StableHlo.after hostOps0 V (Proc.devRef .tc main_v1) = srcOf (V (Proc.devRef .tc main_arg2)) := by
  after_results
  rfl

/-- … and the destination index vector is row 1. -/
theorem l3_stretch_dst (V : Valuation τ sig (Elt Ideal)) :
    StableHlo.after hostOps0 V (Proc.devRef .tc main_v3) = dstOf (V (Proc.devRef .tc main_arg2)) := by
  after_results
  rfl

/-- The positions taken at the source nodes. -/
theorem l3_stretch_take_src (V : Valuation τ sig (Elt Ideal)) :
    StableHlo.after hostOps4 V (Proc.devRef .tc main_v32)
      = take2 (V (Proc.devRef .tc main_arg1)) (V (Proc.devRef .tc main_v1)) := by
  after_results_simp
  simp only [StableHlo.TRef.toBuf, StableHlo.TRef.ofBuf, cast_eq]
  rfl

/-- The positions taken at the destination nodes. -/
theorem l3_stretch_take_dst (V : Valuation τ sig (Elt Ideal)) :
    StableHlo.after hostOps4_1 V (Proc.devRef .tc main_v33)
      = take2 (V (Proc.devRef .tc main_arg1)) (V (Proc.devRef .tc main_v3)) := by
  after_results_simp
  simp only [StableHlo.TRef.toBuf, StableHlo.TRef.ofBuf, cast_eq]
  rfl

/-- The relative position is the difference of the two. -/
theorem l3_stretch_rel (V : Valuation τ sig (Elt Ideal)) :
    StableHlo.after hostOps4_2 V (Proc.devRef .tc main_v34)
      = subf (F := Ideal) (s := S80000x2) (φ := .f32) (V (Proc.devRef .tc main_v32)) (V (Proc.devRef .tc main_v33)) := by
  after_results

/-- The previous layer's output taken at the source nodes. -/
theorem l3_stretch_take_feat (V : Valuation τ sig (Elt Ideal)) :
    StableHlo.after hostOps4_3 V (Proc.devRef .tc main_v35)
      = take2048 (V (Proc.devRef .tc main_v31)) (V (Proc.devRef .tc main_v1)) := by
  after_results_simp
  simp only [StableHlo.TRef.toBuf, StableHlo.TRef.ofBuf, cast_eq]
  rfl

/-- The gathered features in the narrower format. -/
theorem l3_stretch_feat16 (V : Valuation τ sig (Elt Ideal)) :
    StableHlo.after hostOps4_4 V (Proc.devRef .tc main_v36)
      = truncf (F := Ideal) (s := S80000x2048) (φ := .f32) .bf16 (V (Proc.devRef .tc main_v35)) bitsLt_bf16_f32 := by
  after_results

/-- The edge bias vector laid out as one row. -/
theorem l3_stretch_bias_edge (V : Valuation τ sig (Elt Ideal)) :
    StableHlo.after hostOps4_4 V (Proc.devRef .tc main_v37)
      = shapeCast S1x2048 (V (Proc.devRef .tc main_arg12) : Vec Ideal S2048 .f32) shapeCasts_S2048_S1x2048 := by
  after_results
  rfl

/-- The aggregate: the messages scatter-added into zeros at the destination nodes, in the narrower format. -/
theorem l3_stretch_agg (V : Valuation τ sig (Elt Ideal)) :
    StableHlo.after hostOps5 V (Proc.devRef .tc main_v42)
      = truncf .bf16 (Host.scatterAdd scatter_S10000x2048_S80000x1_S80000x2048_1_0_0_1
          (broadcastInDim S10000x2048 ![] bcast_S_S10000x2048 (constant (F := Ideal) S_ .f32 0x00000000#32))
          (broadcastInDim S80000x1 ![0] bcast_S80000_S80000x1_0 (V (Proc.devRef .tc main_v3)))
          (V (Proc.devRef .tc main_v38))) bitsLt_bf16_f32 := by
  after_results

/-- The node weights in the narrower format. -/
theorem l3_stretch_w16 (V : Valuation τ sig (Elt Ideal)) :
    StableHlo.after hostOps5 V (Proc.devRef .tc main_v43)
      = truncf (F := Ideal) (s := S2048x1024) (φ := .f32) .bf16 (V (Proc.devRef .tc main_arg13)) bitsLt_bf16_f32 := by
  after_results

/-- The node bias vector laid out as one row. -/
theorem l3_stretch_bias_node (V : Valuation τ sig (Elt Ideal)) :
    StableHlo.after hostOps5 V (Proc.devRef .tc main_v44)
      = shapeCast S1x1024 (V (Proc.devRef .tc main_arg14) : Vec Ideal S1024 .f32) shapeCasts_S1024_S1x1024 := by
  after_results
  rfl

/-! ## What the boundaries carry

The source and destination index vectors are written once, by the run's first stretch; every later boundary carries
them unchanged. -/

theorem l3_keep_src_17_1_p0 (c : Dev nD) :
    W17 m ρ c (Proc.devRef .tc main_v1) = W13 m ρ c (Proc.devRef .tc main_v1) :=
  calc W17 m ρ c (Proc.devRef .tc main_v1)
    _ = W16 m ρ c (Proc.devRef .tc main_v1) := W17_of_ne m ρ c main_v1 (by decide)
    _ = W15 m ρ c (Proc.devRef .tc main_v1) := by keep_host
    _ = W14 m ρ c (Proc.devRef .tc main_v1) := W15_of_ne m ρ c main_v1 (by decide)
    _ = W13 m ρ c (Proc.devRef .tc main_v1) := by keep_host

theorem l3_keep_src_17_1_p1 (c : Dev nD) :
    W13 m ρ c (Proc.devRef .tc main_v1) = W9 m ρ c (Proc.devRef .tc main_v1) :=
  calc W13 m ρ c (Proc.devRef .tc main_v1)
    _ = W12 m ρ c (Proc.devRef .tc main_v1) := by keep_host
    _ = W11 m ρ c (Proc.devRef .tc main_v1) := by keep_host
    _ = W10 m ρ c (Proc.devRef .tc main_v1) := by keep_host
    _ = W9 m ρ c (Proc.devRef .tc main_v1) := by keep_host

theorem l3_keep_src_17_1_p2 (c : Dev nD) :
    W9 m ρ c (Proc.devRef .tc main_v1) = W5 m ρ c (Proc.devRef .tc main_v1) :=
  calc W9 m ρ c (Proc.devRef .tc main_v1)
    _ = W8 m ρ c (Proc.devRef .tc main_v1) := W9_of_ne m ρ c main_v1 (by decide)
    _ = W7 m ρ c (Proc.devRef .tc main_v1) := by keep_host
    _ = W6 m ρ c (Proc.devRef .tc main_v1) := W7_of_ne m ρ c main_v1 (by decide)
    _ = W5 m ρ c (Proc.devRef .tc main_v1) := by keep_host

theorem l3_keep_src_17_1_p3 (c : Dev nD) :
    W5 m ρ c (Proc.devRef .tc main_v1) = W1 m ρ c (Proc.devRef .tc main_v1) :=
  calc W5 m ρ c (Proc.devRef .tc main_v1)
    _ = W4 m ρ c (Proc.devRef .tc main_v1) := by keep_host
    _ = W3 m ρ c (Proc.devRef .tc main_v1) := by keep_host
    _ = W2 m ρ c (Proc.devRef .tc main_v1) := by keep_host
    _ = W1 m ρ c (Proc.devRef .tc main_v1) := by keep_host

theorem l3_keep_src_17_1 (c : Dev nD) :
    W17 m ρ c (Proc.devRef .tc main_v1) = W1 m ρ c (Proc.devRef .tc main_v1) :=
  (l3_keep_src_17_1_p0 m ρ c).trans ((l3_keep_src_17_1_p1 m ρ c).trans ((l3_keep_src_17_1_p2 m ρ c).trans ((l3_keep_src_17_1_p3 m ρ c))))

/-- At the layer's entry the source index vector is row 0 of the launched edge array. -/
theorem l3_src_at17 (c : Dev nD) : W17 m ρ c (Proc.devRef .tc main_v1) = srcOf (A2 m c) :=
  (l3_keep_src_17_1 m ρ c).trans (l3_stretch_src (W0 m ρ c))

theorem l3_keep_src_20_17 (c : Dev nD) :
    W20 m ρ c (Proc.devRef .tc main_v1) = W17 m ρ c (Proc.devRef .tc main_v1) :=
  calc W20 m ρ c (Proc.devRef .tc main_v1)
    _ = W19 m ρ c (Proc.devRef .tc main_v1) := by keep_host
    _ = W18 m ρ c (Proc.devRef .tc main_v1) := by keep_host
    _ = W17 m ρ c (Proc.devRef .tc main_v1) := by keep_host

theorem l3_src_at20 (c : Dev nD) : W20 m ρ c (Proc.devRef .tc main_v1) = srcOf (A2 m c) :=
  (l3_keep_src_20_17 m ρ c).trans (l3_src_at17 m ρ c)

theorem l3_keep_dst_18_1_p0 (c : Dev nD) :
    W18 m ρ c (Proc.devRef .tc main_v3) = W14 m ρ c (Proc.devRef .tc main_v3) :=
  calc W18 m ρ c (Proc.devRef .tc main_v3)
    _ = W17 m ρ c (Proc.devRef .tc main_v3) := by keep_host
    _ = W16 m ρ c (Proc.devRef .tc main_v3) := W17_of_ne m ρ c main_v3 (by decide)
    _ = W15 m ρ c (Proc.devRef .tc main_v3) := by keep_host
    _ = W14 m ρ c (Proc.devRef .tc main_v3) := W15_of_ne m ρ c main_v3 (by decide)

theorem l3_keep_dst_18_1_p1 (c : Dev nD) :
    W14 m ρ c (Proc.devRef .tc main_v3) = W10 m ρ c (Proc.devRef .tc main_v3) :=
  calc W14 m ρ c (Proc.devRef .tc main_v3)
    _ = W13 m ρ c (Proc.devRef .tc main_v3) := by keep_host
    _ = W12 m ρ c (Proc.devRef .tc main_v3) := by keep_host
    _ = W11 m ρ c (Proc.devRef .tc main_v3) := by keep_host
    _ = W10 m ρ c (Proc.devRef .tc main_v3) := by keep_host

theorem l3_keep_dst_18_1_p2 (c : Dev nD) :
    W10 m ρ c (Proc.devRef .tc main_v3) = W6 m ρ c (Proc.devRef .tc main_v3) :=
  calc W10 m ρ c (Proc.devRef .tc main_v3)
    _ = W9 m ρ c (Proc.devRef .tc main_v3) := by keep_host
    _ = W8 m ρ c (Proc.devRef .tc main_v3) := W9_of_ne m ρ c main_v3 (by decide)
    _ = W7 m ρ c (Proc.devRef .tc main_v3) := by keep_host
    _ = W6 m ρ c (Proc.devRef .tc main_v3) := W7_of_ne m ρ c main_v3 (by decide)

theorem l3_keep_dst_18_1_p3 (c : Dev nD) :
    W6 m ρ c (Proc.devRef .tc main_v3) = W2 m ρ c (Proc.devRef .tc main_v3) :=
  calc W6 m ρ c (Proc.devRef .tc main_v3)
    _ = W5 m ρ c (Proc.devRef .tc main_v3) := by keep_host
    _ = W4 m ρ c (Proc.devRef .tc main_v3) := by keep_host
    _ = W3 m ρ c (Proc.devRef .tc main_v3) := by keep_host
    _ = W2 m ρ c (Proc.devRef .tc main_v3) := by keep_host

theorem l3_keep_dst_18_1_p4 (c : Dev nD) :
    W2 m ρ c (Proc.devRef .tc main_v3) = W1 m ρ c (Proc.devRef .tc main_v3) :=
  calc W2 m ρ c (Proc.devRef .tc main_v3)
    _ = W1 m ρ c (Proc.devRef .tc main_v3) := by keep_host

theorem l3_keep_dst_18_1 (c : Dev nD) :
    W18 m ρ c (Proc.devRef .tc main_v3) = W1 m ρ c (Proc.devRef .tc main_v3) :=
  (l3_keep_dst_18_1_p0 m ρ c).trans ((l3_keep_dst_18_1_p1 m ρ c).trans ((l3_keep_dst_18_1_p2 m ρ c).trans ((l3_keep_dst_18_1_p3 m ρ c).trans ((l3_keep_dst_18_1_p4 m ρ c)))))

/-- … and the destination index vector is row 1. -/
theorem l3_dst_at18 (c : Dev nD) : W18 m ρ c (Proc.devRef .tc main_v3) = dstOf (A2 m c) :=
  (l3_keep_dst_18_1 m ρ c).trans (l3_stretch_dst (W0 m ρ c))

theorem l3_keep_dst_23_18_p0 (c : Dev nD) :
    W23 m ρ c (Proc.devRef .tc main_v3) = W19 m ρ c (Proc.devRef .tc main_v3) :=
  calc W23 m ρ c (Proc.devRef .tc main_v3)
    _ = W22 m ρ c (Proc.devRef .tc main_v3) := W23_of_ne m ρ c main_v3 (by decide)
    _ = W21 m ρ c (Proc.devRef .tc main_v3) := by keep_host
    _ = W20 m ρ c (Proc.devRef .tc main_v3) := by keep_host
    _ = W19 m ρ c (Proc.devRef .tc main_v3) := by keep_host

theorem l3_keep_dst_23_18_p1 (c : Dev nD) :
    W19 m ρ c (Proc.devRef .tc main_v3) = W18 m ρ c (Proc.devRef .tc main_v3) :=
  calc W19 m ρ c (Proc.devRef .tc main_v3)
    _ = W18 m ρ c (Proc.devRef .tc main_v3) := by keep_host

theorem l3_keep_dst_23_18 (c : Dev nD) :
    W23 m ρ c (Proc.devRef .tc main_v3) = W18 m ρ c (Proc.devRef .tc main_v3) :=
  (l3_keep_dst_23_18_p0 m ρ c).trans ((l3_keep_dst_23_18_p1 m ρ c))

theorem l3_dst_at23 (c : Dev nD) : W23 m ρ c (Proc.devRef .tc main_v3) = dstOf (A2 m c) :=
  (l3_keep_dst_23_18 m ρ c).trans (l3_dst_at18 m ρ c)

/-! No operation and no region writes an argument: at each boundary an argument's buffer holds what the run's end
    holds there, which is the launched array. The edge weights are an input window of the edge region, which leaves
    its inputs as entered. -/

theorem l3_keep_pos_25_18_p0 (c : Dev nD) :
    W25 m ρ c (Proc.devRef .tc main_arg1) = W21 m ρ c (Proc.devRef .tc main_arg1) :=
  calc W25 m ρ c (Proc.devRef .tc main_arg1)
    _ = W24 m ρ c (Proc.devRef .tc main_arg1) := W25_of_ne m ρ c main_arg1 (by decide)
    _ = W23 m ρ c (Proc.devRef .tc main_arg1) := by keep_host
    _ = W22 m ρ c (Proc.devRef .tc main_arg1) := W23_of_ne m ρ c main_arg1 (by decide)
    _ = W21 m ρ c (Proc.devRef .tc main_arg1) := by keep_host

theorem l3_keep_pos_25_18_p1 (c : Dev nD) :
    W21 m ρ c (Proc.devRef .tc main_arg1) = W18 m ρ c (Proc.devRef .tc main_arg1) :=
  calc W21 m ρ c (Proc.devRef .tc main_arg1)
    _ = W20 m ρ c (Proc.devRef .tc main_arg1) := by keep_host
    _ = W19 m ρ c (Proc.devRef .tc main_arg1) := by keep_host
    _ = W18 m ρ c (Proc.devRef .tc main_arg1) := by keep_host

theorem l3_keep_pos_25_18 (c : Dev nD) :
    W25 m ρ c (Proc.devRef .tc main_arg1) = W18 m ρ c (Proc.devRef .tc main_arg1) :=
  (l3_keep_pos_25_18_p0 m ρ c).trans ((l3_keep_pos_25_18_p1 m ρ c))

theorem l3_keep_pos_18_17 (c : Dev nD) :
    W18 m ρ c (Proc.devRef .tc main_arg1) = W17 m ρ c (Proc.devRef .tc main_arg1) :=
  calc W18 m ρ c (Proc.devRef .tc main_arg1)
    _ = W17 m ρ c (Proc.devRef .tc main_arg1) := by keep_host

theorem l3_pos_at18 (c : Dev nD) : W18 m ρ c (Proc.devRef .tc main_arg1) = A1 m c :=
  (l3_keep_pos_25_18 m ρ c).symm.trans (W25_main_arg1 m ρ c)
theorem l3_pos_at17 (c : Dev nD) : W17 m ρ c (Proc.devRef .tc main_arg1) = A1 m c :=
  (l3_keep_pos_18_17 m ρ c).symm.trans (l3_pos_at18 m ρ c)

theorem l3_keep_wedge_25_22 (c : Dev nD) :
    W25 m ρ c (Proc.devRef .tc main_arg11) = W22 m ρ c (Proc.devRef .tc main_arg11) :=
  calc W25 m ρ c (Proc.devRef .tc main_arg11)
    _ = W24 m ρ c (Proc.devRef .tc main_arg11) := W25_of_ne m ρ c main_arg11 (by decide)
    _ = W23 m ρ c (Proc.devRef .tc main_arg11) := by keep_host
    _ = W22 m ρ c (Proc.devRef .tc main_arg11) := (W23_arr m ρ c 2).trans (((dat4 (V22 m ρ) c).arrAt_in 2 rfl _).trans (A_eq4 (V22 m ρ) c 2))

theorem l3_wedge_at22 (c : Dev nD) : W22 m ρ c (Proc.devRef .tc main_arg11) = A11 m c :=
  (l3_keep_wedge_25_22 m ρ c).symm.trans (W25_main_arg11 m ρ c)

theorem l3_keep_bedge_25_21 (c : Dev nD) :
    W25 m ρ c (Proc.devRef .tc main_arg12) = W21 m ρ c (Proc.devRef .tc main_arg12) :=
  calc W25 m ρ c (Proc.devRef .tc main_arg12)
    _ = W24 m ρ c (Proc.devRef .tc main_arg12) := W25_of_ne m ρ c main_arg12 (by decide)
    _ = W23 m ρ c (Proc.devRef .tc main_arg12) := by keep_host
    _ = W22 m ρ c (Proc.devRef .tc main_arg12) := W23_of_ne m ρ c main_arg12 (by decide)
    _ = W21 m ρ c (Proc.devRef .tc main_arg12) := by keep_host

theorem l3_bedge_at21 (c : Dev nD) : W21 m ρ c (Proc.devRef .tc main_arg12) = A12 m c :=
  (l3_keep_bedge_25_21 m ρ c).symm.trans (W25_main_arg12 m ρ c)

theorem l3_keep_wnode_25_23 (c : Dev nD) :
    W25 m ρ c (Proc.devRef .tc main_arg13) = W23 m ρ c (Proc.devRef .tc main_arg13) :=
  calc W25 m ρ c (Proc.devRef .tc main_arg13)
    _ = W24 m ρ c (Proc.devRef .tc main_arg13) := W25_of_ne m ρ c main_arg13 (by decide)
    _ = W23 m ρ c (Proc.devRef .tc main_arg13) := by keep_host

theorem l3_wnode_at23 (c : Dev nD) : W23 m ρ c (Proc.devRef .tc main_arg13) = A13 m c :=
  (l3_keep_wnode_25_23 m ρ c).symm.trans (W25_main_arg13 m ρ c)

theorem l3_keep_bnode_25_23 (c : Dev nD) :
    W25 m ρ c (Proc.devRef .tc main_arg14) = W23 m ρ c (Proc.devRef .tc main_arg14) :=
  calc W25 m ρ c (Proc.devRef .tc main_arg14)
    _ = W24 m ρ c (Proc.devRef .tc main_arg14) := W25_of_ne m ρ c main_arg14 (by decide)
    _ = W23 m ρ c (Proc.devRef .tc main_arg14) := by keep_host

theorem l3_bnode_at23 (c : Dev nD) : W23 m ρ c (Proc.devRef .tc main_arg14) = A14 m c :=
  (l3_keep_bnode_25_23 m ρ c).symm.trans (W25_main_arg14 m ρ c)

/-! The layer's own intermediate buffers, carried to where they are read. -/

theorem l3_keep_feat_20_17 (c : Dev nD) :
    W20 m ρ c (Proc.devRef .tc main_v31) = W17 m ρ c (Proc.devRef .tc main_v31) :=
  calc W20 m ρ c (Proc.devRef .tc main_v31)
    _ = W19 m ρ c (Proc.devRef .tc main_v31) := by keep_host
    _ = W18 m ρ c (Proc.devRef .tc main_v31) := by keep_host
    _ = W17 m ρ c (Proc.devRef .tc main_v31) := by keep_host

theorem l3_keep_psrc_19_18 (c : Dev nD) :
    W19 m ρ c (Proc.devRef .tc main_v32) = W18 m ρ c (Proc.devRef .tc main_v32) :=
  calc W19 m ρ c (Proc.devRef .tc main_v32)
    _ = W18 m ρ c (Proc.devRef .tc main_v32) := by keep_host

theorem l3_keep_rel_22_20 (c : Dev nD) :
    W22 m ρ c (Proc.devRef .tc main_v34) = W20 m ρ c (Proc.devRef .tc main_v34) :=
  calc W22 m ρ c (Proc.devRef .tc main_v34)
    _ = W21 m ρ c (Proc.devRef .tc main_v34) := by keep_host
    _ = W20 m ρ c (Proc.devRef .tc main_v34) := by keep_host

/-! ## The reference's stages, met from the kernel's side. Both programs wrap an index the same way (a negative index
    counts from the end) and lay it out as a column; the shape records they carry are propositions, so the two
    spellings are one term. -/

/-- The positions gathered at the wrapped source indices are the reference's. -/
theorem l3_gather_ref82 (pos : Vec Ideal S10000x2 .f32) (ei : IVec S2x80000 32) :
    Host.gather gather_S10000x2_S80000x1_S80000x2_1_0_n_n_0_1_12 pos (wrapB (srcOf ei))
      = Cert.ReferenceIdeal.Read.val_main_v82 (F := Ideal) pos ei := by
  unfold Cert.ReferenceIdeal.Read.val_main_v82 Cert.ReferenceIdeal.Read.val_main_v81 Cert.ReferenceIdeal.Read.val_main_v80 Cert.ReferenceIdeal.Read.val_main_v79 Cert.ReferenceIdeal.Read.val_main_v78 Cert.ReferenceIdeal.Read.val_main_v77 Cert.ReferenceIdeal.Read.val_main_v76 Cert.ReferenceIdeal.Read.val_main_v1 Cert.ReferenceIdeal.Read.val_main_v0 Cert.ReferenceIdeal.Read.val_main_c_12 Cert.ReferenceIdeal.Read.val_main_c_13 wrapB srcOf
  rfl

/-- The positions gathered at the wrapped destination indices are the reference's. -/
theorem l3_gather_ref89 (pos : Vec Ideal S10000x2 .f32) (ei : IVec S2x80000 32) :
    Host.gather gather_S10000x2_S80000x1_S80000x2_1_0_n_n_0_1_12 pos (wrapB (dstOf ei))
      = Cert.ReferenceIdeal.Read.val_main_v89 (F := Ideal) pos ei := by
  unfold Cert.ReferenceIdeal.Read.val_main_v89 Cert.ReferenceIdeal.Read.val_main_v88 Cert.ReferenceIdeal.Read.val_main_v87 Cert.ReferenceIdeal.Read.val_main_v86 Cert.ReferenceIdeal.Read.val_main_v85 Cert.ReferenceIdeal.Read.val_main_v84 Cert.ReferenceIdeal.Read.val_main_v83 Cert.ReferenceIdeal.Read.val_main_v3 Cert.ReferenceIdeal.Read.val_main_v2 Cert.ReferenceIdeal.Read.val_main_c_14 Cert.ReferenceIdeal.Read.val_main_c_15 wrapB dstOf
  rfl

/-- The difference of the two gathers is the reference's relative position. -/
theorem l3_sub_ref90 (pos : Vec Ideal S10000x2 .f32) (ei : IVec S2x80000 32) :
    subf (F := Ideal) (s := S80000x2) (φ := .f32) (Cert.ReferenceIdeal.Read.val_main_v82 (F := Ideal) pos ei)
        (Cert.ReferenceIdeal.Read.val_main_v89 (F := Ideal) pos ei)
      = Cert.ReferenceIdeal.Read.val_main_v90 (F := Ideal) pos ei := by
  unfold Cert.ReferenceIdeal.Read.val_main_v90
  rfl

/-- The wrapped source index column is the reference's, in the third layer's gather. -/
theorem l3_wrap_ref101 (ei : IVec S2x80000 32) :
    wrapB (srcOf ei) = Cert.ReferenceIdeal.Read.val_main_v101 (F := Ideal) ei := by
  unfold Cert.ReferenceIdeal.Read.val_main_v101 Cert.ReferenceIdeal.Read.val_main_v100 Cert.ReferenceIdeal.Read.val_main_v99 Cert.ReferenceIdeal.Read.val_main_v98 Cert.ReferenceIdeal.Read.val_main_v97 Cert.ReferenceIdeal.Read.val_main_v96 Cert.ReferenceIdeal.Read.val_main_v1 Cert.ReferenceIdeal.Read.val_main_v0 Cert.ReferenceIdeal.Read.val_main_c_16 Cert.ReferenceIdeal.Read.val_main_c_17 wrapB srcOf
  rfl

/-- The second hidden layer gathered at the wrapped source indices is the reference's gathered feature. -/
theorem l3_gather_ref102 (x0 : (⟨S10000x128, .f32⟩ : BufTy).Contents (Elt Ideal)) (x1 : (⟨S10000x2, .f32⟩ : BufTy).Contents (Elt Ideal)) (x2 : (⟨S2x80000, .i32⟩ : BufTy).Contents (Elt Ideal)) (x3 : (⟨S2x128, .f32⟩ : BufTy).Contents (Elt Ideal)) (x4 : (⟨S128, .f32⟩ : BufTy).Contents (Elt Ideal)) (x5 : (⟨S128x2048, .f32⟩ : BufTy).Contents (Elt Ideal)) (x6 : (⟨S2048, .f32⟩ : BufTy).Contents (Elt Ideal)) (x7 : (⟨S2x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) :
    Host.gather gather_S10000x2048_S80000x1_S80000x2048_1_0_n_n_0_1_12048
        (Cert.ReferenceIdeal.Read.val_main_v75 (F := Ideal) x0 x1 x2 x3 x4 x5 x6 x7 x8 x9 x10) (wrapB (srcOf x2))
      = Cert.ReferenceIdeal.Read.val_main_v102 (F := Ideal) x0 x1 x2 x3 x4 x5 x6 x7 x8 x9 x10 := by
  unfold Cert.ReferenceIdeal.Read.val_main_v102
  rw [l3_wrap_ref101]
  rfl

/-- The messages scatter-added into zeros at the destination column are the reference's aggregate: the same
    scatter-add of the same three arrays. -/
theorem l3_scatter_ref106 (x0 : (⟨S10000x128, .f32⟩ : BufTy).Contents (Elt Ideal)) (x1 : (⟨S10000x2, .f32⟩ : BufTy).Contents (Elt Ideal)) (x2 : (⟨S2x80000, .i32⟩ : BufTy).Contents (Elt Ideal)) (x3 : (⟨S2x128, .f32⟩ : BufTy).Contents (Elt Ideal)) (x4 : (⟨S128, .f32⟩ : BufTy).Contents (Elt Ideal)) (x5 : (⟨S128x2048, .f32⟩ : BufTy).Contents (Elt Ideal)) (x6 : (⟨S2048, .f32⟩ : BufTy).Contents (Elt Ideal)) (x7 : (⟨S2x2048, .f32⟩ : BufTy).Contents (Elt Ideal)) (x8 : (⟨S2048, .f32⟩ : BufTy).Contents (Elt Ideal)) (x9 : (⟨S2048x2048, .f32⟩ : BufTy).Contents (Elt Ideal)) (x10 : (⟨S2048, .f32⟩ : BufTy).Contents (Elt Ideal)) (x11 : (⟨S2x2048, .f32⟩ : BufTy).Contents (Elt Ideal)) (x12 : (⟨S2048, .f32⟩ : BufTy).Contents (Elt Ideal)) :
    Host.scatterAdd scatter_S10000x2048_S80000x1_S80000x2048_1_0_0_1
        (broadcastInDim S10000x2048 ![] bcast_S_S10000x2048 (constant (F := Ideal) S_ .f32 0x00000000#32))
        (broadcastInDim S80000x1 ![0] bcast_S80000_S80000x1_0 (dstOf x2))
        (Cert.ReferenceIdeal.Read.val_main_v103 (F := Ideal) x0 x1 x2 x3 x4 x5 x6 x7 x8 x9 x10 x11 x12)
      = Cert.ReferenceIdeal.Read.val_main_v106 (F := Ideal) x0 x1 x2 x3 x4 x5 x6 x7 x8 x9 x10 x11 x12 := by
  unfold Cert.ReferenceIdeal.Read.val_main_v106 Cert.ReferenceIdeal.Read.val_main_v104 Cert.ReferenceIdeal.Read.val_main_cst_18 Cert.ReferenceIdeal.Read.val_main_v105 Cert.ReferenceIdeal.Read.val_main_v3 Cert.ReferenceIdeal.Read.val_main_v2 dstOf
  rfl

/-! ## The layer, boundary by boundary -/

/-- Changing the number format is the identity on extended reals. -/
theorem l3_truncf_id {s : Shape} (x : FVec Ideal s .f32) :
    truncf (F := Ideal) (s := s) (φ := .f32) .bf16 x bitsLt_bf16_f32 = x := rfl

/-- The edge function of equal arrays. -/
theorem l3_edgeMsg_congr {E C : Nat} {r r' : Cert.Geo.Mat E 2} {xs xs' : Cert.Geo.Mat E C} {W W' : Cert.Geo.Mat 2 C}
    {b b' : Cert.Geo.Mat 1 C} (h1 : r = r') (h2 : xs = xs') (h3 : W = W') (h4 : b = b') :
    Cert.Geo.edgeMsg r xs W b = Cert.Geo.edgeMsg r' xs' W' b' := by
  subst h1 h2 h3 h4
  rfl

/-- The node function of equal arrays. -/
theorem l3_nodeOut_congr {N K C : Nat} {a a' : Cert.Geo.Mat N K} {W W' : Cert.Geo.Mat K C} {b b' : Cert.Geo.Mat 1 C}
    (h1 : a = a') (h2 : W = W') (h3 : b = b') : Cert.Geo.nodeOut a W b = Cert.Geo.nodeOut a' W' b' := by
  subst h1 h2 h3
  rfl

/-- The scatter-add into zeros of equal index vectors and equal updates. -/
theorem l3_scatter_congr {i i' : IVec S80000 32} {u u' : Vec Ideal S80000x2048 .f32} (h1 : i = i') (h2 : u = u') :
    Host.scatterAdd scatter_S10000x2048_S80000x1_S80000x2048_1_0_0_1
        (broadcastInDim S10000x2048 ![] bcast_S_S10000x2048 (constant (F := Ideal) S_ .f32 0x00000000#32))
        (broadcastInDim S80000x1 ![0] bcast_S80000_S80000x1_0 i) u
      = Host.scatterAdd scatter_S10000x2048_S80000x1_S80000x2048_1_0_0_1
        (broadcastInDim S10000x2048 ![] bcast_S_S10000x2048 (constant (F := Ideal) S_ .f32 0x00000000#32))
        (broadcastInDim S80000x1 ![0] bcast_S80000_S80000x1_0 i') u' := by
  subst h1 h2
  rfl

/-- The positions at the source nodes: every index names a node, so nothing is filled and the take is the
    reference's gather. -/
theorem l3_psrc_at18 (c : Dev nD) (hidx : Cert.Geo.IdxInRange (A2 m c)) :
    W18 m ρ c (Proc.devRef .tc main_v32) = Cert.ReferenceIdeal.Read.val_main_v82 (F := Ideal) (A1 m c) (A2 m c) :=
  (l3_stretch_take_src (W17 m ρ c)).trans <|
    (congrArg₂ take2 (l3_pos_at17 m ρ c) (l3_src_at17 m ρ c)).trans <|
      (take2_eq (A1 m c) (srcOf (A2 m c)) (srcOf_inRange (A2 m c) hidx)).trans (l3_gather_ref82 (A1 m c) (A2 m c))

/-- The positions at the destination nodes, likewise. -/
theorem l3_pdst_at19 (c : Dev nD) (hidx : Cert.Geo.IdxInRange (A2 m c)) :
    W19 m ρ c (Proc.devRef .tc main_v33) = Cert.ReferenceIdeal.Read.val_main_v89 (F := Ideal) (A1 m c) (A2 m c) :=
  (l3_stretch_take_dst (W18 m ρ c)).trans <|
    (congrArg₂ take2 (l3_pos_at18 m ρ c) (l3_dst_at18 m ρ c)).trans <|
      (take2_eq (A1 m c) (dstOf (A2 m c)) (dstOf_inRange (A2 m c) hidx)).trans (l3_gather_ref89 (A1 m c) (A2 m c))

/-- The relative positions at the edge region's entry. -/
theorem l3_rel_at22 (c : Dev nD) (hidx : Cert.Geo.IdxInRange (A2 m c)) :
    W22 m ρ c (Proc.devRef .tc main_v34) = Cert.ReferenceIdeal.Read.val_main_v90 (F := Ideal) (A1 m c) (A2 m c) :=
  (l3_keep_rel_22_20 m ρ c).trans <| (l3_stretch_rel (W19 m ρ c)).trans <|
    (congrArg₂ (subf (F := Ideal) (s := S80000x2) (φ := .f32))
      ((l3_keep_psrc_19_18 m ρ c).trans (l3_psrc_at18 m ρ c hidx)) (l3_pdst_at19 m ρ c hidx)).trans
      (l3_sub_ref90 (A1 m c) (A2 m c))

/-- The gathered features: the previous layer's output taken at the source nodes. -/
theorem l3_feat_at21 (c : Dev nD) (hidx : Cert.Geo.IdxInRange (A2 m c))
    (h2 : W17 m ρ c (Proc.devRef .tc main_v31) = Cert.ReferenceIdeal.Read.val_main_v75 (F := Ideal) (A0 m c) (A1 m c) (A2 m c) (A3 m c) (A4 m c) (A5 m c) (A6 m c) (A7 m c) (A8 m c) (A9 m c) (A10 m c)) :
    W21 m ρ c (Proc.devRef .tc main_v35) = Cert.ReferenceIdeal.Read.val_main_v102 (F := Ideal) (A0 m c) (A1 m c) (A2 m c) (A3 m c) (A4 m c) (A5 m c) (A6 m c) (A7 m c) (A8 m c) (A9 m c) (A10 m c) :=
  (l3_stretch_take_feat (W20 m ρ c)).trans <|
    (congrArg₂ take2048 ((l3_keep_feat_20_17 m ρ c).trans h2) (l3_src_at20 m ρ c)).trans <|
      (take2048_eq _ (srcOf (A2 m c)) (srcOf_inRange (A2 m c) hidx)).trans (l3_gather_ref102 (A0 m c) (A1 m c) (A2 m c) (A3 m c) (A4 m c) (A5 m c) (A6 m c) (A7 m c) (A8 m c) (A9 m c) (A10 m c))

/-- … which the narrower format leaves as they are. -/
theorem l3_feat_at22 (c : Dev nD) (hidx : Cert.Geo.IdxInRange (A2 m c))
    (h2 : W17 m ρ c (Proc.devRef .tc main_v31) = Cert.ReferenceIdeal.Read.val_main_v75 (F := Ideal) (A0 m c) (A1 m c) (A2 m c) (A3 m c) (A4 m c) (A5 m c) (A6 m c) (A7 m c) (A8 m c) (A9 m c) (A10 m c)) :
    W22 m ρ c (Proc.devRef .tc main_v36) = Cert.ReferenceIdeal.Read.val_main_v102 (F := Ideal) (A0 m c) (A1 m c) (A2 m c) (A3 m c) (A4 m c) (A5 m c) (A6 m c) (A7 m c) (A8 m c) (A9 m c) (A10 m c) :=
  (l3_stretch_feat16 (W21 m ρ c)).trans <| (l3_truncf_id _).trans (l3_feat_at21 m ρ c hidx h2)

/-- The edge bias as a row. -/
theorem l3_bedge_at22 (c : Dev nD) : W22 m ρ c (Proc.devRef .tc main_v37) = Cert.Geo.rowOf (A12 m c) :=
  (l3_stretch_bias_edge (W21 m ρ c)).trans <|
    (congrArg (fun b : Vec Ideal S2048 .f32 => shapeCast S1x2048 b shapeCasts_S2048_S1x2048) (l3_bedge_at21 m ρ c)).trans
      (reshape_row2048 (A12 m c))

/-- The edge region leaves the reference's messages. -/
theorem l3_msg_at23 (c : Dev nD) (hidx : Cert.Geo.IdxInRange (A2 m c))
    (h2 : W17 m ρ c (Proc.devRef .tc main_v31) = Cert.ReferenceIdeal.Read.val_main_v75 (F := Ideal) (A0 m c) (A1 m c) (A2 m c) (A3 m c) (A4 m c) (A5 m c) (A6 m c) (A7 m c) (A8 m c) (A9 m c) (A10 m c)) :
    W23 m ρ c (Proc.devRef .tc main_v38) = Cert.ReferenceIdeal.Read.val_main_v103 (F := Ideal) (A0 m c) (A1 m c) (A2 m c) (A3 m c) (A4 m c) (A5 m c) (A6 m c) (A7 m c) (A8 m c) (A9 m c) (A10 m c) (A11 m c) (A12 m c) :=
  ((W23_arr m ρ c 4).trans (region4_value (V22 m ρ) c)).trans <|
    (l3_edgeMsg_congr (l3_rel_at22 m ρ c hidx) (l3_feat_at22 m ρ c hidx h2) (l3_wedge_at22 m ρ c) (l3_bedge_at22 m ρ c)).trans
      (Cert.ReferenceIdeal.Stages.msg3_eq (A0 m c) (A1 m c) (A2 m c) (A3 m c) (A4 m c) (A5 m c) (A6 m c) (A7 m c) (A8 m c) (A9 m c) (A10 m c) (A11 m c) (A12 m c)).symm

/-- The aggregate at the node region's entry is the reference's. -/
theorem l3_agg_at24 (c : Dev nD) (hidx : Cert.Geo.IdxInRange (A2 m c))
    (h2 : W17 m ρ c (Proc.devRef .tc main_v31) = Cert.ReferenceIdeal.Read.val_main_v75 (F := Ideal) (A0 m c) (A1 m c) (A2 m c) (A3 m c) (A4 m c) (A5 m c) (A6 m c) (A7 m c) (A8 m c) (A9 m c) (A10 m c)) :
    W24 m ρ c (Proc.devRef .tc main_v42) = Cert.ReferenceIdeal.Read.val_main_v106 (F := Ideal) (A0 m c) (A1 m c) (A2 m c) (A3 m c) (A4 m c) (A5 m c) (A6 m c) (A7 m c) (A8 m c) (A9 m c) (A10 m c) (A11 m c) (A12 m c) :=
  (l3_stretch_agg (W23 m ρ c)).trans <| (l3_truncf_id _).trans <|
    (l3_scatter_congr (l3_dst_at23 m ρ c) (l3_msg_at23 m ρ c hidx h2)).trans
      (l3_scatter_ref106 (A0 m c) (A1 m c) (A2 m c) (A3 m c) (A4 m c) (A5 m c) (A6 m c) (A7 m c) (A8 m c) (A9 m c) (A10 m c) (A11 m c) (A12 m c))

/-- The node weights, which the narrower format leaves as they are. -/
theorem l3_wnode_at24 (c : Dev nD) : W24 m ρ c (Proc.devRef .tc main_v43) = A13 m c :=
  (l3_stretch_w16 (W23 m ρ c)).trans <| (l3_truncf_id _).trans (l3_wnode_at23 m ρ c)

/-- The node bias as a row. -/
theorem l3_bnode_at24 (c : Dev nD) : W24 m ρ c (Proc.devRef .tc main_v44) = Cert.Geo.rowOf (A14 m c) :=
  (l3_stretch_bias_node (W23 m ρ c)).trans <|
    (congrArg (fun b : Vec Ideal S1024 .f32 => shapeCast S1x1024 b shapeCasts_S1024_S1x1024) (l3_bnode_at23 m ρ c)).trans
      (reshape_row1024 (A14 m c))

/-- LAYER 3 of the kernel's run, read: if the fourth region left the reference's second hidden layer in `main_v31`, the
    last region leaves the reference's result (the third layer, row-normalized) in `main_v45`. -/
theorem layer3 (c : Dev nD) (hidx : Cert.Geo.IdxInRange (A2 m c))
    (h2 : W17 m ρ c (Proc.devRef .tc main_v31) = Cert.ReferenceIdeal.Read.val_main_v75 (F := Ideal) (A0 m c) (A1 m c) (A2 m c) (A3 m c) (A4 m c) (A5 m c) (A6 m c) (A7 m c) (A8 m c) (A9 m c) (A10 m c)) :
    W25 m ρ c (Proc.devRef .tc main_v45)
      = Cert.ReferenceIdeal.Read.val_main_v116 (F := Ideal) (A0 m c) (A1 m c) (A2 m c) (A3 m c) (A4 m c) (A5 m c) (A6 m c) (A7 m c) (A8 m c) (A9 m c) (A10 m c) (A11 m c) (A12 m c) (A13 m c) (A14 m c) :=
  -- the node region's output is the row-normalized node function of its three windows; each window holds the
  -- reference's array; the reference's last stage is the same function of them
  ((W25_arr m ρ c 3).trans (region5_value (V24 m ρ) c)).trans <|
    (congrArg (Cert.Geo.rowNormalize Cert.Geo.normFloor)
      (l3_nodeOut_congr (l3_agg_at24 m ρ c hidx h2) (l3_wnode_at24 m ρ c) (l3_bnode_at24 m ρ c))).trans
      (Cert.ReferenceIdeal.Stages.out_eq (A0 m c) (A1 m c) (A2 m c) (A3 m c) (A4 m c) (A5 m c) (A6 m c) (A7 m c) (A8 m c) (A9 m c) (A10 m c) (A11 m c) (A12 m c) (A13 m c) (A14 m c)).symm

end Cert.KernelIdeal.Val

end
-- ==== Proof.KernelValue.lean ====
import proofs.«412862_j81758997447248_1_alg».proof.Proof.Chain1
import proofs.«412862_j81758997447248_1_alg».proof.Proof.Chain2
import proofs.«412862_j81758997447248_1_alg».proof.Proof.Chain3

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The kernel's result buffer after the run holds the reference's result function of the launched arguments, when every
    edge endpoint names a node: the three layers in turn. -/
theorem kernel_value (c : Dev nD) (hidx : Cert.Geo.IdxInRange (A2 m c)) :
    W25 m ρ c (Proc.devRef .tc main_v45)
      = Cert.ReferenceIdeal.Read.val_main_v116 (F := Ideal) (A0 m c) (A1 m c) (A2 m c) (A3 m c) (A4 m c) (A5 m c) (A6 m c) (A7 m c) (A8 m c) (A9 m c) (A10 m c) (A11 m c) (A12 m c) (A13 m c) (A14 m c) :=
  layer3 m ρ c hidx (layer2 m ρ c hidx (layer1 m ρ c hidx))

end Cert.KernelIdeal.Val

end
-- ==== Proof.PreIdx.lean ====
import proofs.«412862_j81758997447248_1_alg».proof.Pre_finite_inputs
import proofs.«412862_j81758997447248_1_alg».proof.Proof.Gen.Pre_finite_inputs
import proofs.«412862_j81758997447248_1_alg».proof.Proof.Spec
import Idealize.ShloMosaic.Lib.StableHlo.Predicate
import Idealize.ShloMosaic.Lib.ReduceAll
import Idealize.ShloMosaic.Lib.ValueIdx

noncomputable section

namespace Cert.PreIdx

open Cert.Pre_finite_inputs
open Idealize.ShloMosaic Idealize.ShloMosaic.ValueIdx

variable [Cert.Pre_finite_inputs.Facts]

/-- The precondition's last conjunct, decoded: where the printed predicate of the argument arrays is all ones, every
    entry of the edge-index array names a node (lies in [0, 10000) read signed). -/
theorem idx_of_pre (a0 : FVec Ideal S10000x128 .f32) (a1 : FVec Ideal S10000x2 .f32) (a2 : IVec S2x80000 32) (a3 : FVec Ideal S2x128 .f32) (a4 : FVec Ideal S128 .f32) (a5 : FVec Ideal S128x2048 .f32) (a6 : FVec Ideal S2048 .f32) (a7 : FVec Ideal S2x2048 .f32) (a8 : FVec Ideal S2048 .f32) (a9 : FVec Ideal S2048x2048 .f32) (a10 : FVec Ideal S2048 .f32) (a11 : FVec Ideal S2x2048 .f32) (a12 : FVec Ideal S2048 .f32) (a13 : FVec Ideal S2048x1024 .f32) (a14 : FVec Ideal S1024 .f32)
    (h : Cert.Pre_finite_inputs.fn (F := Ideal) a0 a1 a2 a3 a4 a5 a6 a7 a8 a9 a10 a11 a12 a13 a14 = fun _ => 1#1) :
    Cert.Geo.IdxInRange a2 := by
  haveI : Subsingleton S_.Idx := ⟨fun a b => funext fun d => d.elim0⟩
  have e0 : (0#32 : BitVec 32).toInt = 0 := by decide
  have e1 : (10000#32 : BitVec 32).toInt = 10000 := by decide
  -- the chain of parts ends in its last part, at the index array and the two bits carried from the float conjuncts
  obtain ⟨X, Y, hXY⟩ : ∃ X Y : IVec S_ 1,
      fn (F := Ideal) a0 a1 a2 a3 a4 a5 a6 a7 a8 a9 a10 a11 a12 a13 a14 = fn_part4 (F := Ideal) a2 X Y := ⟨_, _, rfl⟩
  have h0 : fn_part4 (F := Ideal) a2 X Y ix0 = 1#1 := by rw [← hXY]; exact congrFun h ix0
  -- the last part is the conjunction of those bits with "every entry passes both bound tests"
  have hall := (IntOp.andi_eq_one.1 (show IntOp.andi _ _ = 1#1 from h0)).2
  intro i
  -- a conjunction over all entries that is 1 is 1 at each entry
  have hi := Host.reduce_andi_all _ _ _ _ ix0 hall i
  obtain ⟨hge, hlt⟩ := IntOp.andi_eq_one.1 (show IntOp.andi _ _ = 1#1 from hi)
  -- the two tests compare the entry, read signed, with the splat words 0 and 10000
  have hlo := IntOp.cmpi_sge.1 (show IntOp.cmpi .sge (a2 i) 0#32 = 1#1 from hge)
  have hhi := IntOp.cmpi_slt.1 (show IntOp.cmpi .slt (a2 i) 10000#32 = 1#1 from hlt)
  rw [e0] at hlo
  rw [e1] at hhi
  exact ⟨hlo, hhi⟩

end Cert.PreIdx

end
-- ==== Proof.lean ====
/-
  A three-layer message-passing network on a graph of 10000 nodes and 80000 edges: in each layer every edge carries the
  message `max (rel · W_in + b_in) 0 · h[src]` (`rel = pos[src] - pos[dst]`, two coordinates), the messages are summed into
  their destination nodes, and every node takes `max (agg · W_out + b_out) 0`; the last layer's rows are divided by the
  larger of their Euclidean norm and a fixed positive literal. The kernel program computes the per-edge and per-node
  maps in six tiled regions (400 edges or nodes per grid point, the weights resident), the gathers and the scatter-add
  on the host between them; the reference computes everything on the host.

  Over the extended reals the two are one function of the arguments once every edge endpoint names a node
  (`0 ≤ edge_index < 10000`, the precondition's last conjunct): the kernel's gathers fill an out-of-range read with a
  junk value where the reference's clamp it, and agree with them exactly on indices in range. With that:
  * a region's output array is the whole-array function `Geo.edgeMsg` / `Geo.nodeOut` (row-normalized in the last
    region) of the arrays in its input windows — each grid point writes its block of that function and the blocks tile
    the array; a contraction over two coordinates is the two products, a matrix product into a zero accumulator the
    plain sum, a conversion between float formats the identity;
  * the reference's stages are the same functions of its own intermediate arrays;
  * the gathers and the scatter-add are the same operations applied to equal arrays, so they are never opened.
  The kernel's run is the generated launch over its 25 segments with the result buffer named at the last boundary's
  contents; the reference's run and its stages are the generated ones. The frames are the generated frames.
-/
import proofs.«412862_j81758997447248_1_alg».proof.Defs
import proofs.«412862_j81758997447248_1_alg».proof.Proof.Gen.Kernel
import proofs.«412862_j81758997447248_1_alg».proof.Proof.Gen.Kernel.Frame
import proofs.«412862_j81758997447248_1_alg».proof.Proof.Gen.KernelIdeal
import proofs.«412862_j81758997447248_1_alg».proof.Proof.Gen.KernelIdeal.Frame
import proofs.«412862_j81758997447248_1_alg».proof.Proof.Gen.ReferenceIdeal
import proofs.«412862_j81758997447248_1_alg».proof.Proof.Gen.Pre_finite_inputs
import proofs.«412862_j81758997447248_1_alg».proof.Proof.Gen.ReferenceIdeal.Run
import proofs.«412862_j81758997447248_1_alg».proof.Proof.Gen.ReferenceIdeal.Read
import proofs.«412862_j81758997447248_1_alg».proof.Proof.RunNamed
import proofs.«412862_j81758997447248_1_alg».proof.Proof.KernelValue
import proofs.«412862_j81758997447248_1_alg».proof.Proof.PreIdx
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- From memories agreeing on the arguments both programs run and end with the same result array: the kernel's result
    buffer holds the reference's result function of the launched arguments (`kernel_value`, under the index range the
    precondition gives), and the reference's run ends at that function of its own, equal, arguments. -/
theorem algebraic : Cert.algebraic_KernelIdeal_ReferenceIdeal := by
  intro m ρ m' ρ' hpre hagree
  refine ⟨_, Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [Cert.ReferenceIdeal.Read.val_main_v116_eq, e0, e1, e2, e3, e4, e5, e6, e7, e8, e9, e10, e11, e12, e13, e14]
  exact (Cert.KernelIdeal.Val.kernel_value m ρ c (Cert.PreIdx.idx_of_pre _ _ _ _ _ _ _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
